-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg5 : FVec F S64 .f32) (main_arg6 : FVec F S64x128 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x1600000 32) (main_arg2 : FVec F S64x128 .f32) (main_arg3 : FVec F S64 .f32) (main_arg4 : FVec F S64 .f32) (main_arg5 : FVec F S64 .f32) (main_arg6 : FVec F S64x128 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S128x128 : Shape := ⟨2, ![128, 128]⟩
abbrev S_ : Shape := ⟨0, ![]⟩
abbrev S128 : Shape := ⟨1, ![128]⟩
abbrev S1x128 : Shape := ⟨2, ![1, 128]⟩
abbrev S100000x64 : Shape := ⟨2, ![100000, 64]⟩
abbrev S10000x128 : Shape := ⟨2, ![10000, 128]⟩
abbrev S10000x64 : Shape := ⟨2, ![10000, 64]⟩
abbrev S100000 : Shape := ⟨1, ![100000]⟩
abbrev S1700000 : Shape := ⟨1, ![1700000]⟩
abbrev S1700000x1 : Shape := ⟨2, ![1700000, 1]⟩
abbrev S1 : Shape := ⟨1, ![1]⟩
abbrev S1x1 : Shape := ⟨2, ![1, 1]⟩
abbrev S1700000x64 : Shape := ⟨2, ![1700000, 64]⟩
abbrev S1x64 : Shape := ⟨2, ![1, 64]⟩

abbrev nBuf : Space → Nat
  | .hbm => 103
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S128x128, .f32⟩
  | .hbm, ⟨13, _⟩ => ⟨S_, .f32⟩
  | .hbm, ⟨14, _⟩ => ⟨S64, .f32⟩
  | .hbm, ⟨15, _⟩ => ⟨S128, .f32⟩
  | .hbm, ⟨16, _⟩ => ⟨S1x128, .f32⟩
  | .hbm, ⟨17, _⟩ => ⟨S100000x64, .f32⟩
  | .hbm, ⟨18, _⟩ => ⟨S100000x64, .f32⟩
  | .hbm, ⟨19, _⟩ => ⟨S100000, .i32⟩
  | .hbm, ⟨20, _⟩ => ⟨S1700000, .i32⟩
  | .hbm, ⟨21, _⟩ => ⟨S100000, .i32⟩
  | .hbm, ⟨22, _⟩ => ⟨S1700000, .i32⟩
  | .hbm, ⟨23, _⟩ => ⟨S_, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S_, .f32⟩
  | .hbm, ⟨34, _⟩ => ⟨S1700000, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1, .i32⟩
  | .hbm, ⟨46, _⟩ => ⟨S_, .i32⟩
  | .hbm, ⟨47, _⟩ => ⟨S1700000x1, .i32⟩
  | .hbm, ⟨48, _⟩ => ⟨S1700000x1, .i1⟩
  | .hbm, ⟨49, _⟩ => ⟨S1x1, .i32⟩
  | .hbm, ⟨50, _⟩ => ⟨S1700000x1, .i32⟩
  | .hbm, ⟨51, _⟩ => ⟨S1700000x1, .i1⟩
  | .hbm, ⟨52, _⟩ => ⟨S1700000x1, .i1⟩
  | .hbm, ⟨53, _⟩ => ⟨S_, .i1⟩
  | .hbm, ⟨54, _⟩ => ⟨S1700000, .i1⟩
  | .hbm, ⟨55, _⟩ => ⟨S1700000x64, .f32⟩
  | .hbm, ⟨56, _⟩ => ⟨S1700000x64, .i1⟩
  | .hbm, ⟨57, _⟩ => ⟨S_, .f32⟩
  | .hbm, ⟨58, _⟩ => ⟨S1700000x64, .f32⟩
  | .hbm, ⟨59, _⟩ => ⟨S1700000x64, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000, .f32⟩
  | .hbm, ⟨78, _⟩ => ⟨S1700000, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S_, .f32⟩
  | .hbm, ⟨88, _⟩ => ⟨S1x64, .f32⟩
  | .hbm, ⟨89, _⟩ => ⟨S1x64, .f32⟩
  | .hbm, ⟨90, _⟩ => ⟨S1x64, .f32⟩
  | .hbm, ⟨91, _⟩ => ⟨S_, .f32⟩
  | .hbm, ⟨92, _⟩ => ⟨S1x64, .f32⟩
  | .hbm, ⟨93, _⟩ => ⟨S1x64, .f32⟩
  | .hbm, ⟨94, _⟩ => ⟨S_, .f32⟩
  | .hbm, ⟨95, _⟩ => ⟨S1x64, .f32⟩
  | .hbm, ⟨96, _⟩ => ⟨S1x64, .f32⟩
  | .hbm, ⟨97, _⟩ => ⟨S1x64, .f32⟩
  | .hbm, ⟨98, _⟩ => ⟨S1x64, .f32⟩
  | .hbm, ⟨99, _⟩ => ⟨S1x64, .f32⟩
  | .hbm, ⟨100, _⟩ => ⟨S1x64, .f32⟩
  | .hbm, ⟨101, _⟩ => ⟨S1x64, .f32⟩
  | .hbm, ⟨102, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S1x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v23 : Ref sig .tc := ⟨.hbm, 59, rfl⟩
abbrev main_c_3 : Ref sig .tc := ⟨.hbm, 60, rfl⟩
abbrev main_v24 : Ref sig .tc := ⟨.hbm, 61, rfl⟩
abbrev main_v25 : Ref sig .tc := ⟨.hbm, 62, rfl⟩
abbrev main_c_4 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_c_5 : Ref sig .tc := ⟨.hbm, 69, rfl⟩
abbrev main_v31 : Ref sig .tc := ⟨.hbm, 70, rfl⟩
abbrev main_v32 : Ref sig .tc := ⟨.hbm, 71, rfl⟩
abbrev main_c_6 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_7 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_8 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_cst_9 : Ref sig .tc := ⟨.hbm, 91, rfl⟩
abbrev main_v49 : Ref sig .tc := ⟨.hbm, 92, rfl⟩
abbrev main_v50 : Ref sig .tc := ⟨.hbm, 93, rfl⟩
abbrev main_cst_10 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg6_0 : Ref sig .tc := ⟨.vmem, 23, rfl⟩
abbrev cc3_stg7_0 : Ref sig .tc := ⟨.vmem, 24, rfl⟩
abbrev cc3_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem3_0 : DmaSem sig := 20
abbrev cc3_sem4_0 : DmaSem sig := 21
abbrev cc3_sem5_0 : DmaSem sig := 22
abbrev cc3_sem6_0 : DmaSem sig := 23
abbrev cc3_sem7_0 : DmaSem sig := 24
abbrev cc3_sem7_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S64x128_S64x128_S128x128_d0 : Shape.Concatenates [S64x128, S64x128] S128x128 0
  bcast_S_S64 : S_.BroadcastsInDim S64 (![] : Fin 0 → Fin S64.rank)
  concatenates_S64_S64_S128_d0 : Shape.Concatenates [S64, S64] S128 0
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S10000x128_o0_0_S10000x64 : S10000x128.Slices ![0, 0] S10000x64
  inb_S10000x64_S10000x64_0_0 : ∀ a, (![0, 0] : Fin 2 → Nat) a + S10000x64.size a ≤ S10000x64.size a
  h_S10000x64 : 0 < S10000x64.numel
  slices_S10000x128_o0_64_S10000x64 : S10000x128.Slices ![0, 64] S10000x64
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x64_0 : S1700000.BroadcastsInDim S1700000x64 (![0] : Fin 1 → Fin S1700000x64.rank)
  bcast_S_S1700000x64 : S_.BroadcastsInDim S1700000x64 (![] : Fin 0 → Fin S1700000x64.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S10000x64_S10000x64 : S10000x64.ShapeCasts S10000x64
  reduces_S10000x64_S64 : S10000x64.Reduces [0] S64
  shapeCasts_S64_S1x64 : S64.ShapeCasts S1x64
  bcast_S_S1x64 : S_.BroadcastsInDim S1x64 (![] : Fin 0 → Fin S1x64.rank)
  broadcasts_S1x64_S10000x64 : S1x64.Broadcasts S10000x64
  dot_S10000x128_S128x128_S10000x128_1_0_0_1_n_n_wf : DotDims.WF S10000x128 S128x128 S10000x128 [1] [0] [0] [1] [] []
  scatter_S100000_S1700000x1_S1700000_n_0_0_1_wf : ScatterDims.WF S100000 S1700000x1 S1700000 [] [0] [0] 1
  gather_S100000x64_S1700000x1_S1700000x64_1_0_n_n_0_1_164_wf : GatherDims.WF S100000x64 S1700000x1 S1700000x64 [1] [0] [] [0] [] 1 ![1, 64]
  gather_S100000_S1700000x1_S1700000_n_0_n_n_0_1_1_wf : GatherDims.WF S100000 S1700000x1 S1700000 [] [0] [] [0] [] 1 ![1]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x64.size a ≤ S100000x64.size a
  hwx3_7 : ∀ i : grid3.Coords, EltTy.bits .f32 = 32 ∨ (Rect.block (s := S100000x64) S10000x64.size (cc3_transform_7 i) (hinb3_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S10000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8_1) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v57) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v58) S10000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S128x64 : Shape := ⟨2, ![128, 64]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S100000, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S_, .f32⟩
  | .hbm, ⟨23, _⟩ => ⟨S1600000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S128x64, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000, .f32⟩
  | .hbm, ⟨58, _⟩ => ⟨S1600000, .f32⟩
  | .hbm, ⟨59, _⟩ => ⟨S1600000x1, .f32⟩
  | .hbm, ⟨60, _⟩ => ⟨S1600000x64, .f32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S100000, .f32⟩
  | .hbm, ⟨67, _⟩ => ⟨S100000x1, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S64, .f32⟩
  | .hbm, ⟨85, _⟩ => ⟨S_, .f32⟩
  | .hbm, ⟨86, _⟩ => ⟨S64, .f32⟩
  | .hbm, ⟨87, _⟩ => ⟨S64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S64, .f32⟩
  | .hbm, ⟨96, _⟩ => ⟨S64, .f32⟩
  | .hbm, ⟨97, _⟩ => ⟨S64, .f32⟩
  | .hbm, ⟨98, _⟩ => ⟨S1x64, .f32⟩
  | .hbm, ⟨99, _⟩ => ⟨S100000x64, .f32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S100000x64, .f32⟩
  | .hbm, ⟨104, _⟩ => ⟨S_, .f32⟩
  | .hbm, ⟨105, _⟩ => ⟨S100000x64, .f32⟩
  | .hbm, ⟨106, _⟩ => ⟨S100000x64, .f32⟩
  | .hbm, ⟨107, _⟩ => ⟨S128x64, .f32⟩
  | .hbm, ⟨108, _⟩ => ⟨S100000x64, .f32⟩
  | .hbm, ⟨109, _⟩ => ⟨S1x64, .f32⟩
  | .hbm, ⟨110, _⟩ => ⟨S100000x64, .f32⟩
  | .hbm, ⟨111, _⟩ => ⟨S100000x64, .f32⟩
  | .hbm, ⟨112, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_call0_cst : Ref sig .tc := ⟨.hbm, 104, rfl⟩
abbrev main_call0_v0 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S64x128_S128x64_1_0 : S64x128.Transposes [1, 0] S128x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KNames.lean ====
/-
  Names, at their literal array types, for the arrays the value argument follows through the kernel program: the eight
  argument arrays as launched, and each intermediate array at the boundary (between two items of the program) where it is read.
  A boundary's number is that of the buffer contents after the item: 1 after the first host stretch, 2 after the linear
  region, 3 and 5 inside and after the gather/scatter stretch, 6 after the sum region, 7 after the mean quotient, 8 after the
  squared-deviation region, 9 after the last host stretch, 10 after the final region.
-/
import proofs.«420616_j28767690948628_3_alg».proof.Proof.Gen.KernelIdeal.Frame
import Idealize.ShloMosaic.PureOps.Ideal

noncomputable section

namespace Cert.KernelIdeal.KV

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## The arguments as launched -/
abbrev aX : FVec Ideal S100000x128 .f32 := m ((c : Thread nD τ).loc main_arg0)
abbrev aEI : IVec S2x1600000 32 := m ((c : Thread nD τ).loc main_arg1)
abbrev aW : FVec Ideal S64x128 .f32 := m ((c : Thread nD τ).loc main_arg2)
abbrev aB : FVec Ideal S64 .f32 := m ((c : Thread nD τ).loc main_arg3)
abbrev aGam : FVec Ideal S64 .f32 := m ((c : Thread nD τ).loc main_arg4)
abbrev aBet : FVec Ideal S64 .f32 := m ((c : Thread nD τ).loc main_arg5)
abbrev aWr : FVec Ideal S64x128 .f32 := m ((c : Thread nD τ).loc main_arg6)
abbrev aBr : FVec Ideal S64 .f32 := m ((c : Thread nD τ).loc main_arg7)

/-! ## Boundary 1: the linear region's operands -/
abbrev b1X : FVec Ideal S100000x128 .f32 := W1 m ρ c (Proc.devRef .tc main_arg0)
abbrev b1Wc : FVec Ideal S128x128 .f32 := W1 m ρ c (Proc.devRef .tc main_v4)
abbrev b1Bc : FVec Ideal S1x128 .f32 := W1 m ρ c (Proc.devRef .tc main_v7)

/-! ## Boundary 2: the linear region's results, and the edge list's two rows -/
abbrev b2H : FVec Ideal S100000x64 .f32 := W2 m ρ c (Proc.devRef .tc main_v8_0)
abbrev b2R : FVec Ideal S100000x64 .f32 := W2 m ρ c (Proc.devRef .tc main_v8_1)
abbrev b2Src : IVec S1600000 32 := W2 m ρ c (Proc.devRef .tc main_v1)
abbrev b2Dst : IVec S1600000 32 := W2 m ρ c (Proc.devRef .tc main_v3)

/-! ## Boundaries 3 and 5: the inverse square-root degrees, the aggregate -/
abbrev b3Dinv : FVec Ideal S100000 .f32 := W3 m ρ c (Proc.devRef .tc main_v22)
abbrev b5Agg : FVec Ideal S100000x64 .f32 := W5 m ρ c (Proc.devRef .tc main_v44)

/-! ## Boundaries 6 to 8: the statistics -/
abbrev b6Sum : FVec Ideal S1x64 .f32 := W6 m ρ c (Proc.devRef .tc main_v45)
abbrev b7Agg : FVec Ideal S100000x64 .f32 := W7 m ρ c (Proc.devRef .tc main_v44)
abbrev b7Mraw : FVec Ideal S1x64 .f32 := W7 m ρ c (Proc.devRef .tc main_v47)
abbrev b8Sq : FVec Ideal S1x64 .f32 := W8 m ρ c (Proc.devRef .tc main_v48)

/-! ## Boundary 9: the final region's operands -/
abbrev b9Agg : FVec Ideal S100000x64 .f32 := W9 m ρ c (Proc.devRef .tc main_v44)
abbrev b9R : FVec Ideal S100000x64 .f32 := W9 m ρ c (Proc.devRef .tc main_v8_1)
abbrev b9B : FVec Ideal S1x64 .f32 := W9 m ρ c (Proc.devRef .tc main_v55)
abbrev b9Mean : FVec Ideal S1x64 .f32 := W9 m ρ c (Proc.devRef .tc main_v54)
abbrev b9Var : FVec Ideal S1x64 .f32 := W9 m ρ c (Proc.devRef .tc main_v52)
abbrev b9Gam : FVec Ideal S1x64 .f32 := W9 m ρ c (Proc.devRef .tc main_v56)
abbrev b9Bet : FVec Ideal S1x64 .f32 := W9 m ρ c (Proc.devRef .tc main_v57)

/-! ## Boundary 10: the result -/
abbrev b10Out : FVec Ideal S100000x64 .f32 := W10 m ρ c (Proc.devRef .tc main_v58)

end Cert.KernelIdeal.KV

end
-- ==== Proof.KReg0.lean ====
/-
  Region 0 (the fused linear projection): what its two output arrays hold after the ten grid points.
  Point t stages rows [10000 t, 10000 t + 10000) of x, the whole stacked weight [W; Wr] and the stacked bias row, and writes
  the same rows of h and of the residual: entry (i, q) of h is the dot product of row i of x with row q of the stacked weight
  plus the bias entry q; the residual reads row 64 + q and bias entry 64 + q.
-/
import proofs.«420616_j28767690948628_3_alg».proof.Proof.KNames

import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.ShloMosaic.ValueIdx Idealize.SL.Sem

/-! ## The body's arithmetic at an entry -/

/-- Zero offsets, however the zeros are spelt. -/
theorem zero_off : (![0, 0] : Fin 2 → Nat) = fun _ => 0 := funext fun a => by fin_cases a <;> rfl

/-- The product's left operand is read at the result's row … -/
theorem lhs_mm_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and at the contraction position on its second axis; -/
theorem lhs_mm_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- the right operand at the contraction position on its first axis … -/
theorem rhs_mm_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and at the result's column. -/
theorem rhs_mm_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry (r, p) of the body's sum: row r of the x block against row p of the stacked weight (the product is with the
    transposed weight), plus entry p of the bias row. -/
theorem pay1_apply (x0 : Vec Ideal S10000x128 .f32) (x1 : Vec Ideal S128x128 .f32) (x5 : Vec Ideal S1x128 .f32)
    (r : Fin 10000) (p : Fin 128) :
    k0_pay1 x0 x1 x5 (ix2 r p) = (∑ k : Fin 128, x0 (ix2 r k) * x1 (ix2 p k)) + x5 (ix2 (0 : Fin 1) p) := by
  unfold k0_pay1
  simp only [shapeCast_self]
  rw [addf_apply]
  congr 1
  · simp only [matmul]
    rw [Ideal.matmul_constant_zero_apply, ← Equiv.sum_comp (contrEquiv1 dot_S10000x128_S128x128_S10000x128_1_0_0_1_n_n 128 rfl rfl).symm]
    refine Finset.sum_congr rfl fun k _ => ?_
    have hk := contrEquiv1_symm_val dot_S10000x128_S128x128_S10000x128_1_0_0_1_n_n 128 rfl rfl k
    have el : dot_S10000x128_S128x128_S10000x128_1_0_0_1_n_n.lhsIdx (ix2 r p) ((contrEquiv1 dot_S10000x128_S128x128_S10000x128_1_0_0_1_n_n 128 rfl rfl).symm k) = ix2 r k := funext fun a => Fin.ext (by
      match a with
      | ⟨0, _⟩ => exact lhs_mm_0 _ _
      | ⟨1, _⟩ => exact (lhs_mm_1 _ _).trans hk)
    rw [el]
    congr 1
    refine transpose_apply [1, 0] x1 transposes_S128x128_p1_0_S128x128 _ (ix2 p k) (fun b => ?_)
    match b with
    | ⟨0, _⟩ => exact ((rhs_mm_0 _ _).trans hk).symm
    | ⟨1, _⟩ => show p.val = _; exact (rhs_mm_1 (ix2 r p) _).symm
  · refine broadcastTo_apply x5 broadcasts_S1x128_S10000x128 _ (ix2 (0 : Fin 1) p) (fun a => ?_)
    match a with
    | ⟨0, _⟩ => rfl
    | ⟨1, _⟩ => rfl

/-- Entry (r, q) of what the body stores for h: columns [0, 64) of the sum. -/
theorem pay2_apply (x0 : Vec Ideal S10000x128 .f32) (x1 : Vec Ideal S128x128 .f32) (x5 : Vec Ideal S1x128 .f32)
    (r : Fin 10000) (q : Fin 64) :
    k0_pay2 x0 x1 x5 (ix2 r q)
      = (∑ k : Fin 128, x0 (ix2 r k) * x1 (ix2 (⟨q.val, by omega⟩ : Fin 128) k))
        + x5 (ix2 (0 : Fin 1) (⟨q.val, by omega⟩ : Fin 128)) := by
  unfold k0_pay2
  refine (extractStridedSlice_apply _ _ slices_S10000x128_o0_0_S10000x64 (ix2 r q) (ix2 r (⟨q.val, by omega⟩ : Fin 128)) (fun a => ?_)).trans
    (pay1_apply x0 x1 x5 r _)
  match a with
  | ⟨0, _⟩ => show r.val = 0 + r.val; omega
  | ⟨1, _⟩ => show q.val = 0 + q.val; omega

/-- Entry (r, q) of what the body stores for the residual: columns [64, 128) of the sum. -/
theorem pay3_apply (x0 : Vec Ideal S10000x128 .f32) (x1 : Vec Ideal S128x128 .f32) (x5 : Vec Ideal S1x128 .f32)
    (r : Fin 10000) (q : Fin 64) :
    k0_pay3 x0 x1 x5 (ix2 r q)
      = (∑ k : Fin 128, x0 (ix2 r k) * x1 (ix2 (⟨64 + q.val, by omega⟩ : Fin 128) k))
        + x5 (ix2 (0 : Fin 1) (⟨64 + q.val, by omega⟩ : Fin 128)) := by
  unfold k0_pay3
  refine (extractStridedSlice_apply _ _ slices_S10000x128_o0_64_S10000x64 (ix2 r q) (ix2 r (⟨64 + q.val, by omega⟩ : Fin 128)) (fun a => ?_)).trans
    (pay1_apply x0 x1 x5 r _)
  match a with
  | ⟨0, _⟩ => show r.val = 0 + r.val; omega
  | ⟨1, _⟩ => show 64 + q.val = 64 + q.val; rfl

/-! ## One whole-array function per output -/

/-- Column q of h reads row q of the stacked weight, … -/
abbrev colH (q : Fin 64) : Fin 128 := ⟨q.val, by omega⟩
/-- … column q of the residual row 64 + q. -/
abbrev colR (q : Fin 64) : Fin 128 := ⟨64 + q.val, by omega⟩

/-- The linear projection as a function of the whole arrays: entry (i, q) is row i of x against row `col q` of the
    stacked weight, plus the bias entry `col q`. -/
def lin (X : FVec Ideal S100000x128 .f32) (Wc : FVec Ideal S128x128 .f32) (Bc : FVec Ideal S1x128 .f32)
    (col : Fin 64 → Fin 128) : FVec Ideal S100000x64 .f32 := fun i =>
  (∑ k : Fin 128, X (ix2 (i 0) k) * Wc (ix2 (col (i 1)) k)) + Bc (ix2 (0 : Fin 1) (col (i 1)))

/-- A block of 10000 rows of the body's h, from blocks that are rows [10000 tv, 10000 tv + 10000) of x and the whole of the
    stacked weight and bias, is the same rows of `lin … colH`. -/
theorem blockH (X : FVec Ideal S100000x128 .f32) (Wc : FVec Ideal S128x128 .f32) (Bc : FVec Ideal S1x128 .f32)
    (x0 : Vec Ideal S10000x128 .f32) (x1 : Vec Ideal S128x128 .f32) (x5 : Vec Ideal S1x128 .f32) (tv : Nat)
    (h0 : ∀ (y : S10000x128.Idx) (i : S100000x128.Idx), (i 0).val = tv * 10000 + (y 0).val → (i 1).val = (y 1).val → x0 y = X i)
    (h1 : ∀ y : S128x128.Idx, x1 y = Wc y) (h5 : ∀ y : S1x128.Idx, x5 y = Bc y)
    (y : S10000x64.Idx) (i : S100000x64.Idx) (hi0 : (i 0).val = tv * 10000 + (y 0).val) (hi1 : (i 1).val = (y 1).val) :
    k0_pay2 x0 x1 x5 y = lin X Wc Bc colH i := by
  obtain ⟨r, q, rfl⟩ : ∃ (r : Fin 10000) (q : Fin 64), y = ix2 r q := ⟨y 0, y 1, eq_ix2 y⟩
  rw [pay2_apply]
  unfold lin
  have hc : colH (i 1) = (⟨q.val, by omega⟩ : Fin 128) := Fin.ext hi1
  rw [hc, h5]
  congr 1
  refine Finset.sum_congr rfl fun k _ => ?_
  rw [h0 (ix2 r k) (ix2 (i 0) k) hi0 rfl, h1]

/-- The same for the residual, with `colR`. -/
theorem blockR (X : FVec Ideal S100000x128 .f32) (Wc : FVec Ideal S128x128 .f32) (Bc : FVec Ideal S1x128 .f32)
    (x0 : Vec Ideal S10000x128 .f32) (x1 : Vec Ideal S128x128 .f32) (x5 : Vec Ideal S1x128 .f32) (tv : Nat)
    (h0 : ∀ (y : S10000x128.Idx) (i : S100000x128.Idx), (i 0).val = tv * 10000 + (y 0).val → (i 1).val = (y 1).val → x0 y = X i)
    (h1 : ∀ y : S128x128.Idx, x1 y = Wc y) (h5 : ∀ y : S1x128.Idx, x5 y = Bc y)
    (y : S10000x64.Idx) (i : S100000x64.Idx) (hi0 : (i 0).val = tv * 10000 + (y 0).val) (hi1 : (i 1).val = (y 1).val) :
    k0_pay3 x0 x1 x5 y = lin X Wc Bc colR i := by
  obtain ⟨r, q, rfl⟩ : ∃ (r : Fin 10000) (q : Fin 64), y = ix2 r q := ⟨y 0, y 1, eq_ix2 y⟩
  rw [pay3_apply]
  unfold lin
  have hc : colR (i 1) = (⟨64 + q.val, by omega⟩ : Fin 128) := Fin.ext (by show 64 + (i 1).val = 64 + q.val; rw [hi1])
  rw [hc, h5]
  congr 1
  refine Finset.sum_congr rfl fun k _ => ?_
  rw [h0 (ix2 r k) (ix2 (i 0) k) hi0 rfl, h1]

/-! ## The blocks at a point -/

section Blocks

-- the TensorCore's buffer contents when the region is entered
variable (V : (c : Dev nD) → (b : Ref sig .tc) → Buf (Elt Ideal) ((c : Thread nD τ).loc b))

/-- The printed index maps over the grid: the x block and both output blocks are at block row t, the stacked weight and the
    bias row at block (0, 0) whatever the point. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The x block at point t is rows [10000 t, 10000 t + 10000) of x. -/
theorem iblk_x (c : Dev nD) (t : Fin cfg0.N) (y : S10000x128.Idx) (i : S100000x128.Idx)
    (hi0 : (i 0).val = t.val * 10000 + (y 0).val) (hi1 : (i 1).val = (y 1).val) :
    (iblk0 V c 0 t : Vec Ideal S10000x128 .f32) y = (V c main_arg0 : FVec Ideal S100000x128 .f32) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 10000 + 1 * (y 0).val = (i 0).val; rw [e0, hi0]; omega
  | ⟨1, _⟩ => show win0_0.index t (1 : Fin 2) * 128 + 1 * (y 1).val = (i 1).val; rw [e1, hi1]; omega

/-- The weight block at any point is the whole stacked weight. -/
theorem iblk_w (c : Dev nD) (t : Fin cfg0.N) (y : S128x128.Idx) :
    (iblk0 V c 1 t : Vec Ideal S128x128 .f32) y = (V c main_v4 : FVec Ideal S128x128 .f32) y := by
  obtain ⟨-, -, e2, e3, -⟩ := idx_facts0 t
  unfold iblk0
  rw [View.read_apply]
  show V c main_v4 _ = V c main_v4 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- The bias block at any point is the whole bias row. -/
theorem iblk_b (c : Dev nD) (t : Fin cfg0.N) (y : S1x128.Idx) :
    (iblk0 V c 2 t : Vec Ideal S1x128 .f32) y = (V c main_v7 : FVec Ideal S1x128 .f32) y := by
  obtain ⟨-, -, -, -, e4, e5, -⟩ := idx_facts0 t
  unfold iblk0
  rw [View.read_apply]
  show V c main_v7 _ = V c main_v7 _
  congr 1
  funext a
  apply Fin.ext
  match a with
  | ⟨0, _⟩ => show win0_2.index t (0 : Fin 2) * 1 + 1 * (y 0).val = (y 0).val; rw [e4]; omega
  | ⟨1, _⟩ => show win0_2.index t (1 : Fin 2) * 128 + 1 * (y 1).val = (y 1).val; rw [e5]; omega

/-! ## What a point writes back, and the arrays after the ten points -/

/-- What point t writes back to h is block t of `lin … colH` of the arrays as the region finds them. -/
theorem flushedH_eq (c : Dev nD) (t : Fin cfg0.N) :
    (dat0 V c).flushed 3 t
      = ((cfg0.win 3).blk t).view.read (Elt Ideal) (lin (V c main_arg0) (V c main_v4) (V c main_v7) colH) := by
  show (cfg0.win 3).cut (grid0.coords t) ((dat0 V c).after 3 t) = _
  rw [after0_3]
  unfold out0_3
  rw [View.canon_unit_zero zero_off]
  simp only [View.ld_unit_zero (S := S10000x128) zero_off, View.ld_unit_zero (S := S128x128) zero_off,
    View.ld_unit_zero (S := S1x128) zero_off]
  obtain ⟨-, -, -, -, -, -, e6, e7, -⟩ := idx_facts0 t
  funext j
  show k0_pay2 (iblk0 V c 0 t) (iblk0 V c 1 t) (iblk0 V c 2 t) j
    = lin (V c main_arg0) (V c main_v4) (V c main_v7) colH (((cfg0.win 3).blk t).view.emb j)
  refine blockH _ _ _ _ _ _ t.val (iblk_x V c t) (iblk_w V c t) (iblk_b V c t) j _ ?_ ?_
  · show win0_3.index t (0 : Fin 2) * 10000 + 1 * (j 0).val = t.val * 10000 + (j 0).val; rw [e6]; omega
  · show win0_3.index t (1 : Fin 2) * 64 + 1 * (j 1).val = (j 1).val; rw [e7]; omega

/-- What point t writes back to the residual is block t of `lin … colR`. -/
theorem flushedR_eq (c : Dev nD) (t : Fin cfg0.N) :
    (dat0 V c).flushed 4 t
      = ((cfg0.win 4).blk t).view.read (Elt Ideal) (lin (V c main_arg0) (V c main_v4) (V c main_v7) colR) := by
  show (cfg0.win 4).cut (grid0.coords t) ((dat0 V c).after 4 t) = _
  rw [after0_4]
  unfold out0_4
  rw [View.canon_unit_zero zero_off]
  simp only [View.ld_unit_zero (S := S10000x128) zero_off, View.ld_unit_zero (S := S128x128) zero_off,
    View.ld_unit_zero (S := S1x128) zero_off]
  obtain ⟨-, -, -, -, -, -, -, -, e8, e9⟩ := idx_facts0 t
  funext j
  show k0_pay3 (iblk0 V c 0 t) (iblk0 V c 1 t) (iblk0 V c 2 t) j
    = lin (V c main_arg0) (V c main_v4) (V c main_v7) colR (((cfg0.win 4).blk t).view.emb j)
  refine blockR _ _ _ _ _ _ t.val (iblk_x V c t) (iblk_w V c t) (iblk_b V c t) j _ ?_ ?_
  · show win0_4.index t (0 : Fin 2) * 10000 + 1 * (j 0).val = t.val * 10000 + (j 0).val; rw [e8]; omega
  · show win0_4.index t (1 : Fin 2) * 64 + 1 * (j 1).val = (j 1).val; rw [e9]; omega

/-- An index of h is in point t's block iff each coordinate is in the block's range on its axis. -/
theorem mem_blkH (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v8_0).slice (win0_3.rect t)).set ↔ _
  rw [View.set_slice_whole, Rect.mem_set_unit]
  exact Iff.rfl

/-- The same for the residual. -/
theorem mem_blkR (t : Fin cfg0.N) (i : S100000x64.Idx) :
    i ∈ ((cfg0.win 4).blk t).view.set ↔ ∀ a : Fin 2, win0_4.index t a * S10000x64.size a ≤ (i a).val
      ∧ (i a).val < win0_4.index t a * S10000x64.size a + S10000x64.size a := by
  show i ∈ ((View.whole main_v8_1).slice (win0_4.rect t)).set ↔ _
  rw [View.set_slice_whole, Rect.mem_set_unit]
  exact Iff.rfl

/-- Row i of h is written back by point i / 10000: the ten blocks cover the array. -/
theorem coverH (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, e6, e7, -⟩ := idx_facts0 t
  refine ⟨t, flush0_3 t, ?_⟩
  rw [mem_blkH]
  intro a
  match a with
  | ⟨0, _⟩ => show win0_3.index t (0 : Fin 2) * 10000 ≤ (i 0).val ∧ (i 0).val < win0_3.index t (0 : Fin 2) * 10000 + 10000; rw [e6, ht]; omega
  | ⟨1, _⟩ => show win0_3.index t (1 : Fin 2) * 64 ≤ (i 1).val ∧ (i 1).val < win0_3.index t (1 : Fin 2) * 64 + 64; rw [e7]; omega

/-- The same for the residual. -/
theorem coverR (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, -, -, e8, e9⟩ := idx_facts0 t
  refine ⟨t, flush0_4 t, ?_⟩
  rw [mem_blkR]
  intro a
  match a with
  | ⟨0, _⟩ => show win0_4.index t (0 : Fin 2) * 10000 ≤ (i 0).val ∧ (i 0).val < win0_4.index t (0 : Fin 2) * 10000 + 10000; rw [e8, ht]; omega
  | ⟨1, _⟩ => show win0_4.index t (1 : Fin 2) * 64 ≤ (i 1).val ∧ (i 1).val < win0_4.index t (1 : Fin 2) * 64 + 64; rw [e9]; omega

/-- h after the ten points is `lin … colH` of the arrays as the region finds them. -/
theorem finalH (c : Dev nD) :
    (dat0 V c).arrAt 3 cfg0.N = lin (V c main_arg0) (V c main_v4) (V c main_v7) colH :=
  (dat0 V c).arrAt_eq_of_cover 3 _ (fun t _ => flushedH_eq V c t) coverH

/-- The residual after the ten points is `lin … colR`. -/
theorem finalR (c : Dev nD) :
    (dat0 V c).arrAt 4 cfg0.N = lin (V c main_arg0) (V c main_v4) (V c main_v7) colR :=
  (dat0 V c).arrAt_eq_of_cover 4 _ (fun t _ => flushedR_eq V c t) coverR

end Blocks

variable (m : (ℓ : Loc nD τ sig) → Buf (Elt Ideal) ℓ) (ρ : Dev nD → PrngReg) (c : Dev nD)

/-- h after region 0, entry by entry, from the region's entry contents. -/
theorem reg0_h (i : Fin 100000) (q : Fin 64) :
    b2H m ρ c (ix2 i q)
      = (∑ k : Fin 128, b1X m ρ c (ix2 i k) * b1Wc m ρ c (ix2 (⟨q.val, by omega⟩ : Fin 128) k))
        + b1Bc m ρ c (ix2 (0 : Fin 1) (⟨q.val, by omega⟩ : Fin 128)) := by
  have e : b2H m ρ c = lin (V1 m ρ c main_arg0) (V1 m ρ c main_v4) (V1 m ρ c main_v7) colH :=
    (W2_arr m ρ c 3).trans (finalH (V1 m ρ) c)
  rw [e]
  rfl

/-- The residual projection after region 0, entry by entry. -/
theorem reg0_resid (i : Fin 100000) (q : Fin 64) :
    b2R m ρ c (ix2 i q)
      = (∑ k : Fin 128, b1X m ρ c (ix2 i k) * b1Wc m ρ c (ix2 (⟨64 + q.val, by omega⟩ : Fin 128) k))
        + b1Bc m ρ c (ix2 (0 : Fin 1) (⟨64 + q.val, by omega⟩ : Fin 128)) := by
  have e : b2R m ρ c = lin (V1 m ρ c main_arg0) (V1 m ρ c main_v4) (V1 m ρ c main_v7) colR :=
    (W2_arr m ρ c 4).trans (finalR (V1 m ρ) c)
  rw [e]
  rfl

end Cert.KernelIdeal.KV

end
-- ==== Proof.KReg12.lean ====
/-
  Regions 1 and 2 (the two BatchNorm statistics passes): each keeps a [1, 64] accumulator in its output block across the ten
  grid points, zeroed at point 0; point t adds the column sums of rows [10000 t, 10000 t + 10000) of its input (region 2: of
  the squared deviations from the mean row). After the last point the accumulator is the column sum over all 100000 rows.
-/
import proofs.«420616_j28767690948628_3_alg».proof.Proof.KNames

import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.Tactic

set_option maxRecDepth 16384

noncomputable section

namespace Cert.KernelIdeal.KV

open Cert.KernelIdeal Cert.KernelIdeal.Gen Idealize.ShloMosaic Idealize.ShloMosaic.TcCoe Idealize.ShloMosaic.ValueIdx Idealize.SL.Sem
open Idealize.ShloMosaic.Tactic
open Idealize.ShloMosaic.Pipeline (Dat)

variable (m : (ℓ : Loc nD τ sig) → Buf (Elt Ideal) ℓ) (ρ : Dev nD → PrngReg) (c : Dev nD)

/-! # What the found pieces are: the payloads of the covering stores -/

section Pieces
variable {F : FTy → Type} [FloatOps F]

/-- The zero offsets of a whole-block access. -/
private theorem hz2 : (![0, 0] : Fin 2 → Nat) = fun _ => 0 := funext fun a => by fin_cases a <;> rfl

/-- Region 1, a point after the first: the output block ends at the payload of the one covering store, read over
    the block the point before left and the input block. -/
private theorem out1_B (c : Dev nD) (i : grid1.Coords) (a1 : Memref sig .tc .vmem S10000x64 .f32) (h1 : a1.IsWhole)
    (a2 : Memref sig .tc .vmem S1x64 .f32) (h2 : a2.IsWhole) (hc : ¬cond1_0 i)
    (x : Vec F S10000x64 .f32) (xo : Vec F S1x64 .f32) :
    out1_B_1 c i a1 h1 a2 h2 hc x xo = k1_pay2 xo x := by
  unfold out1_B_1
  rw [View.read_writes_eq_canon _ _ _ (cover1_B_1 c i a1 h1 a2 h2 hc x xo)]
  unfold kernelRun1_B
  dsimp only
  sl_unfold_words
  rw [View.canon_unit_zero hz2]
  simp only [View.readAt_eq_ld, h1.read_unread, h2.read_unread, View.ld_unit_zero (S := S10000x64) hz2,
    View.ld_unit_zero (S := S1x64) hz2]

/-- Region 1, the first point: the zero block is stored, read back, and the same payload is stored over it. -/
private theorem out1_A (c : Dev nD) (i : grid1.Coords) (a1 : Memref sig .tc .vmem S10000x64 .f32) (h1 : a1.IsWhole)
    (a2 : Memref sig .tc .vmem S1x64 .f32) (h2 : a2.IsWhole) (hc : cond1_0 i)
    (x : Vec F S10000x64 .f32) :
    out1_A_1 c i a1 h1 a2 h2 hc x = k1_pay2 (k1_pay1 (F := F)) x := by
  unfold out1_A_1
  rw [View.read_writes_eq_canon _ _ _ (cover1_A_1 c i a1 h1 a2 h2 hc x)]
  unfold kernelRun1_A
  dsimp only
  sl_unfold_words
  rw [View.canon_cons_unit_zero (S := S1x64) hz2, View.readCov_unit_zero (S := S1x64) _ hz2]
  simp only [View.readAt_eq_ld, h1.read_unread, View.ld_unit_zero (S := S10000x64) hz2]
end Pieces

section Pieces2
variable {F : FTy → Type} [FloatOps F]

/-- Region 2, a point after the first: the output block ends at the payload of the one covering store, read over the
    input block, the mean row and the block the point before left. -/
private theorem out2_B (c : Dev nD) (i : grid2.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond2_0 i) (x : Vec F S10000x64 .f32) (mu : Vec F S1x64 .f32) (xo : Vec F S1x64 .f32) :
    out2_B_2 c i a1 h1 a2 h2 a3 h3 hc x mu xo = k2_pay2 x mu xo := by
  unfold out2_B_2
  rw [View.read_writes_eq_canon _ _ _ (cover2_B_2 c i a1 h1 a2 h2 a3 h3 hc x mu xo)]
  unfold kernelRun2_B
  dsimp only
  sl_unfold_words
  rw [View.canon_unit_zero hz2]
  simp only [View.readAt_eq_ld, h1.read_unread, h2.read_unread, h3.read_unread, View.ld_unit_zero (S := S10000x64) hz2,
    View.ld_unit_zero (S := S1x64) hz2]

/-- Region 2, the first point: the zero block is stored, read back, and the same payload is stored over it. -/
private theorem out2_A (c : Dev nD) (i : grid2.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond2_0 i) (x : Vec F S10000x64 .f32) (mu : Vec F S1x64 .f32) :
    out2_A_2 c i a1 h1 a2 h2 a3 h3 hc x mu = k2_pay2 x mu (k2_pay1 (F := F)) := by
  unfold out2_A_2
  rw [View.read_writes_eq_canon _ _ _ (cover2_A_2 c i a1 h1 a2 h2 a3 h3 hc x mu)]
  unfold kernelRun2_A
  dsimp only
  sl_unfold_words
  rw [View.canon_cons_unit_zero (S := S1x64) hz2, View.readCov_unit_zero (S := S1x64) _ hz2]
  simp only [View.readAt_eq_ld, h1.read_unread, h2.read_unread, View.ld_unit_zero (S := S10000x64) hz2,
    View.ld_unit_zero (S := S1x64) hz2]
end Pieces2

/-! ## The payloads at an index, over the extended reals -/

/-- The zero block's entries are the extended real 0. -/
private theorem k1_pay1_apply (q : Fin 64) : k1_pay1 (F := Ideal) (ix2 (0 : Fin 1) q) = 0 := by
  unfold k1_pay1
  exact Ideal.ofBits_zero_f32

/-- The accumulating payload at column q: the old entry plus the sum of the input block's column q. -/
private theorem k1_pay2_apply (v3 : Vec Ideal S1x64 .f32) (v5 : Vec Ideal S10000x64 .f32) (q : Fin 64) :
    k1_pay2 v3 v5 (ix2 (0 : Fin 1) q) = v3 (ix2 (0 : Fin 1) q) + ∑ r : Fin 10000, v5 (ix2 r q) := by
  unfold k1_pay2
  refine (addf_apply _ _ _).trans ?_
  refine congrArg₂ (· + ·) (congrFun (shapeCast_self v3 _) _) ?_
  refine (shapeCast_apply _ shapeCasts_S64_S1x64 (ix2 (0 : Fin 1) q) (ix1 q) ?_).trans ?_
  · rw [Shape.rowMajor_val_one, Shape.rowMajor_val_two]
    show q.val = 0 * 64 + q.val
    omega
  refine (Ideal.multiReduction_add_single _ _ reduces_S10000x64_S64 _ _ (ix1 q)).trans ?_
  refine Finset.sum_congr rfl fun r _ => ?_
  refine (congrFun (shapeCast_self v5 _) _).trans ?_
  exact congrArg v5 (funext fun a => Fin.ext (match a with | ⟨0, _⟩ => rfl | ⟨1, _⟩ => rfl))

/-- Region 2's zero block. -/
private theorem k2_pay1_apply (q : Fin 64) : k2_pay1 (F := Ideal) (ix2 (0 : Fin 1) q) = 0 := by
  unfold k2_pay1
  exact Ideal.ofBits_zero_f32

/-- The mean row copied down the 10000 rows, read at (r, q): the row's entry q. -/
private theorem bcast_row_apply (v : Vec Ideal S1x64 .f32) (r : Fin 10000) (q : Fin 64) :
    broadcastTo S10000x64 v broadcasts_S1x64_S10000x64 (ix2 r q) = v (ix2 (0 : Fin 1) q) :=
  broadcastTo_apply v broadcasts_S1x64_S10000x64 (ix2 r q) (ix2 (0 : Fin 1) q) fun a =>
    match a with
    | ⟨0, _⟩ => (if_pos rfl).symm
    | ⟨1, _⟩ => (if_neg (show ¬((64 : Nat) = 1) by decide)).symm

/-- The deviation from the mean row at (r, q). -/
private theorem dev_apply (v3 : FVec Ideal S10000x64 .f32) (v5 : FVec Ideal S1x64 .f32) (r : Fin 10000) (q : Fin 64) :
    subf v3 (broadcastTo S10000x64 v5 broadcasts_S1x64_S10000x64) (ix2 r q) = v3 (ix2 r q) - v5 (ix2 (0 : Fin 1) q) :=
  (subf_apply (φ := .f32) v3 _ (ix2 r q)).trans (congrArg (v3 (ix2 r q) - ·) (bcast_row_apply v5 r q))

/-- Region 2's accumulating payload at column q: the old entry plus the sum, over the input block's rows, of the squared
    deviation of the block's entry from the mean row's entry q. -/
private theorem k2_pay2_apply (v3 : Vec Ideal S10000x64 .f32) (v5 : Vec Ideal S1x64 .f32) (v9 : Vec Ideal S1x64 .f32) (q : Fin 64) :
    k2_pay2 v3 v5 v9 (ix2 (0 : Fin 1) q)
      = v9 (ix2 (0 : Fin 1) q)
        + ∑ r : Fin 10000, (v3 (ix2 r q) - v5 (ix2 (0 : Fin 1) q)) * (v3 (ix2 r q) - v5 (ix2 (0 : Fin 1) q)) := by
  have e3 : shapeCast S10000x64 v3 shapeCasts_S10000x64_S10000x64 = v3 := shapeCast_self v3 _
  have e5 : shapeCast S1x64 v5 shapeCasts_S1x64_S1x64 = v5 := shapeCast_self v5 _
  unfold k2_pay2
  refine (addf_apply _ _ _).trans ?_
  refine congrArg₂ (· + ·) (congrFun (shapeCast_self v9 _) _) ?_
  refine (shapeCast_apply _ shapeCasts_S64_S1x64 (ix2 (0 : Fin 1) q) (ix1 q) ?_).trans ?_
  · rw [Shape.rowMajor_val_one, Shape.rowMajor_val_two]
    show q.val = 0 * 64 + q.val
    omega
  refine (Ideal.multiReduction_add_single _ _ reduces_S10000x64_S64 _ _ (ix1 q)).trans ?_
  refine Finset.sum_congr rfl fun r _ => ?_
  have hl : reduces_S10000x64_S64.lift (ix1 q) r = ix2 r q :=
    funext fun a => Fin.ext (match a with | ⟨0, _⟩ => rfl | ⟨1, _⟩ => rfl)
  rw [hl, e3, e5]
  refine (mulf_apply _ _ _).trans ?_
  exact (mulf_apply (φ := .f32) _ _ _).trans (congrArg₂ (· * ·) (dev_apply v3 v5 r q) (dev_apply v3 v5 r q))

/-! ## Sums over the rows, ten blocks of 10000 -/

/-- A function on the 100000 rows, continued by 0 to every natural number. -/
private def ext0 (f : Fin 100000 → EReal) (i : ℕ) : EReal := if h : i < 100000 then f ⟨i, h⟩ else 0

/-- The sum over all rows, as a sum over a range of naturals. -/
private theorem sum_rows_eq_range (f : Fin 100000 → EReal) : ∑ i : Fin 100000, f i = ∑ i ∈ Finset.range 100000, ext0 f i := by
  rw [← Fin.sum_univ_eq_sum_range (ext0 f) 100000]
  exact Finset.sum_congr rfl fun i _ => by unfold ext0; rw [dif_pos i.isLt]

/-- The sum over the rows of block t (row 10000 t + r for r below 10000), likewise. -/
private theorem sum_block_eq_range (f : Fin 100000 → EReal) (t : ℕ) (ht : t < 10) :
    ∑ r : Fin 10000, f ⟨10000 * t + r.val, by have := r.isLt; omega⟩ = ∑ r ∈ Finset.range 10000, ext0 f (10000 * t + r) := by
  rw [← Fin.sum_univ_eq_sum_range (fun r => ext0 f (10000 * t + r)) 10000]
  exact Finset.sum_congr rfl fun r _ => by
    unfold ext0; rw [dif_pos (by have := r.isLt; omega)]

/-! # Region 1 -/

section Blocks1
variable {F : FTy → Type} [FloatOps F]
variable (V : (c : Dev nD) → (b : Ref sig .tc) → Buf (Elt F) ((c : Thread nD τ).loc b))

/-- Region 1's input block at point t, and the array it is a block of, at their literal types. -/
private abbrev xblk1 (c : Dev nD) (t : Fin cfg1.N) : Vec F S10000x64 .f32 := iblk1 V c 0 t
private abbrev xarr1 (c : Dev nD) : Vec F S100000x64 .f32 := V c main_v44

/-- The input window's block index at point t is (t, 0). -/
private theorem index1_0 : ∀ t : Fin grid1.N, win1_0.index t 0 = t.val ∧ win1_0.index t 1 = 0 := by decide +kernel

/-- Entry (r, q) of the block at point t is entry (10000 t + r, q) of the array: block index times block size plus the
    coordinate inside the block, on each axis. -/
private theorem xblk1_apply (c : Dev nD) (t : Fin cfg1.N) (r : Fin 10000) (q : Fin 64) :
    xblk1 V c t (ix2 r q)
      = xarr1 V c (ix2 (⟨10000 * t.val + r.val, by
          have := r.isLt; have : t.val < 10 := lt_of_lt_of_eq t.isLt (show cfg1.N = 10 from N_1); omega⟩ : Fin 100000) q) := by
  show iblk1 V c 0 t (ix2 r q) = _
  unfold iblk1
  rw [View.read_apply]
  show V c main_v44 _ = V c main_v44 _
  congr 1
  funext a
  apply Fin.ext
  match a with
  | ⟨0, _⟩ =>
    show win1_0.index t 0 * 10000 + 1 * r.val = 10000 * t.val + r.val
    rw [(index1_0 t).1]; omega
  | ⟨1, _⟩ =>
    show win1_0.index t 1 * 64 + 1 * q.val = q.val
    rw [(index1_0 t).2]; omega
end Blocks1

section Inv1
variable (V : (c : Dev nD) → (b : Ref sig .tc) → Buf (Elt Ideal) ((c : Thread nD τ).loc b))

/-- Column q of region 1's input array. -/
private abbrev col1 (c : Dev nD) (q : Fin 64) : Fin 100000 → EReal := fun i => xarr1 V c (ix2 i q)

/-- THE INVARIANT of region 1: after point n the output block's entry q is the sum of column q over the rows of
    blocks 0 … n, that is over the first 10000 (n + 1) rows. Point 0 adds its block's sum to the zero it stored; a
    later point adds its block's sum to what the point before left. -/
private theorem outsAt1_sum (c : Dev nD) (q : Fin 64) : ∀ (n : ℕ) (h : n < cfg1.N),
    outsAt1 V c n h (ix2 (0 : Fin 1) q) = ∑ i ∈ Finset.range (10000 * (n + 1)), ext0 (col1 V c q) i
  | 0, h => by
    rw [outsAt1_A V c ⟨0, h⟩ rfl]
    refine (congrFun (out1_A (F := Ideal) c (grid1.coords ⟨0, h⟩) (ms1_0 ⟨0, h⟩) (hs1_0 ⟨0, h⟩) (ms1_1 ⟨0, h⟩) (hs1_1 ⟨0, h⟩)
      ((hcond1_0 ⟨0, h⟩).mpr rfl) (iblk1 V c 0 ⟨0, h⟩)) (ix2 (0 : Fin 1) q)).trans ?_
    refine (k1_pay2_apply (k1_pay1 (F := Ideal)) (xblk1 V c ⟨0, h⟩) q).trans ?_
    rw [k1_pay1_apply, zero_add]
    refine (Finset.sum_congr rfl fun r _ => xblk1_apply V c ⟨0, h⟩ r q).trans ?_
    refine (sum_block_eq_range (col1 V c q) 0 (by omega)).trans ?_
    simp only [Nat.mul_zero, Nat.zero_add, Nat.mul_one]
  | n + 1, h => by
    have hN : cfg1.N = 10 := N_1
    have hB : ¬(⟨n + 1, h⟩ : Fin cfg1.N).val % 10 = 0 := by dsimp only; omega
    rw [outsAt1_B V c ⟨n + 1, h⟩ hB]
    dsimp only
    refine (congrFun (out1_B (F := Ideal) c (grid1.coords ⟨n + 1, h⟩) (ms1_0 ⟨n + 1, h⟩) (hs1_0 ⟨n + 1, h⟩) (ms1_1 ⟨n + 1, h⟩)
      (hs1_1 ⟨n + 1, h⟩) (fun hh => hB ((hcond1_0 ⟨n + 1, h⟩).mp hh)) (iblk1 V c 0 ⟨n + 1, h⟩)
      (outsAt1 V c n (Nat.lt_of_succ_lt h))) (ix2 (0 : Fin 1) q)).trans ?_
    refine (k1_pay2_apply (outsAt1 V c n (Nat.lt_of_succ_lt h)) (xblk1 V c ⟨n + 1, h⟩) q).trans ?_
    rw [outsAt1_sum c q n (Nat.lt_of_succ_lt h),
      show 10000 * (n + 1 + 1) = 10000 * (n + 1) + 10000 by ring, Finset.sum_range_add]
    refine congrArg (_ + ·) ?_
    refine (Finset.sum_congr rfl fun r _ => xblk1_apply V c ⟨n + 1, h⟩ r q).trans ?_
    exact sum_block_eq_range (col1 V c q) (n + 1) (by omega)
end Inv1

section Final1
variable {F : FTy → Type} [FloatOps F]
variable (V : (c : Dev nD) → (b : Ref sig .tc) → Buf (Elt F) ((c : Thread nD τ).loc b))

private theorem lt9_1 : 9 < cfg1.N := by rw [show cfg1.N = 10 from N_1]; decide

/-- What the last point of region 1 leaves in the output block, as contents of the output array. -/
private abbrev res1 (c : Dev nD) : Buf (Elt F) ((c : Thread nD τ).loc main_v45) := outsAt1 V c 9 lt9_1

/-- The output window's block index is (0, 0) at every point: its one block is the whole [1, 64] array. -/
private theorem index1_1 : ∀ (t : Fin grid1.N) (a : Fin 2), win1_1.index t a = 0 := by decide +kernel

/-- The one write-back (at the last point) writes what that point leaves; read through the block at zero offsets
    the array is itself. -/
private theorem flushed1_eq (c : Dev nD) (t : Fin cfg1.N) (hf : (cfg1.win 1).flush t = true) :
    (dat1 V c).flushed 1 t = ((cfg1.win 1).blk t).view.read (Elt F) (res1 V c) := by
  have hN : cfg1.N = 10 := N_1
  have h9 : t.val = 9 := by have := (flush1_1 t).mp hf; have := t.isLt; omega
  obtain rfl : t = ⟨9, lt9_1⟩ := Fin.ext h9
  show (cfg1.win 1).cut (grid1.coords ⟨9, lt9_1⟩) ((dat1 V c).after 1 ⟨9, lt9_1⟩) = _
  rw [after1_1]
  have hz' : (fun a => win1_1.index ⟨9, lt9_1⟩ a * main_v45.ty.shape.size a) = fun _ => 0 :=
    funext fun a => by rw [index1_1 _ a, Nat.zero_mul]
  exact (Memref.read_access_unit_zero (Elt F) main_v45 hz' (fun a => by rw [congrFun hz' a]; simp) (res1 V c)).symm

/-- The last point's block covers the output array. -/
private theorem cover1 (c : Dev nD) (i : ((cfg1.win 1).arr.view.loc (c.tc : Thread nD τ)).2.ty.Idx) :
    ∃ t : Fin cfg1.N, (cfg1.win 1).flush t = true ∧ i ∈ ((cfg1.win 1).blk t).view.set := by
  refine ⟨⟨9, lt9_1⟩, (flush1_1 _).mpr rfl, ?_⟩
  show i ∈ ((View.whole main_v45).slice (win1_1.rect ⟨9, lt9_1⟩)).set
  rw [View.set_slice_whole, Rect.mem_set_unit]
  intro a
  show win1_1.index ⟨9, lt9_1⟩ a * win1_1.size a ≤ (i a : Nat)
    ∧ (i a : Nat) < win1_1.index ⟨9, lt9_1⟩ a * win1_1.size a + win1_1.xsize (grid1.coords ⟨9, lt9_1⟩) a
  rw [index1_1 _ a, Nat.zero_mul, Nat.zero_add]
  refine ⟨Nat.zero_le _, ?_⟩
  match a with
  | ⟨0, _⟩ =>
    have hx : win1_1.xsize (grid1.coords ⟨9, lt9_1⟩) 0 = 1 := by decide +kernel
    show (i 0 : Nat) < win1_1.xsize (grid1.coords ⟨9, lt9_1⟩) 0
    rw [hx]; exact (i 0).isLt
  | ⟨1, _⟩ =>
    have hx : win1_1.xsize (grid1.coords ⟨9, lt9_1⟩) 1 = 64 := by decide +kernel
    show (i 1 : Nat) < win1_1.xsize (grid1.coords ⟨9, lt9_1⟩) 1
    rw [hx]; exact (i 1).isLt

/-- So the output array after region 1 is what the last point leaves. -/
private theorem final1 (c : Dev nD) : (dat1 V c).arrAt 1 cfg1.N = res1 V c :=
  (dat1 V c).arrAt_eq_of_cover 1 (res1 V c) (flushed1_eq V c) (cover1 c)
end Final1

/-- The column sums after region 1: entry q is the sum over all rows of the aggregate's column q. -/
theorem reg1_sum (q : Fin 64) :
    b6Sum m ρ c (ix2 (0 : Fin 1) q) = ∑ i : Fin 100000, b5Agg m ρ c (ix2 i q) := by
  have e : b6Sum m ρ c = res1 (V5 m ρ) c := (W6_arr m ρ c 1).trans (final1 (V5 m ρ) c)
  rw [e]
  refine (outsAt1_sum (V5 m ρ) c q 9 lt9_1).trans ?_
  exact (sum_rows_eq_range (col1 (V5 m ρ) c q)).symm

/-! # Region 2 -/

section Blocks2
variable {F : FTy → Type} [FloatOps F]
variable (V : (c : Dev nD) → (b : Ref sig .tc) → Buf (Elt F) ((c : Thread nD τ).loc b))

/-- Region 2's input block and mean-row block at point t, and the arrays they are blocks of, at their literal types. -/
private abbrev xblk2 (c : Dev nD) (t : Fin cfg2.N) : Vec F S10000x64 .f32 := iblk2 V c 0 t
private abbrev mblk2 (c : Dev nD) (t : Fin cfg2.N) : Vec F S1x64 .f32 := iblk2 V c 1 t
private abbrev xarr2 (c : Dev nD) : Vec F S100000x64 .f32 := V c main_v44
private abbrev marr2 (c : Dev nD) : Vec F S1x64 .f32 := V c main_v47

/-- The input window's block index at point t is (t, 0); the mean row's is (0, 0). -/
private theorem index2_0 : ∀ t : Fin grid2.N, win2_0.index t 0 = t.val ∧ win2_0.index t 1 = 0 := by decide +kernel
private theorem index2_1 : ∀ (t : Fin grid2.N) (a : Fin 2), win2_1.index t a = 0 := by decide +kernel

/-- Entry (r, q) of the input block at point t is entry (10000 t + r, q) of the array. -/
private theorem xblk2_apply (c : Dev nD) (t : Fin cfg2.N) (r : Fin 10000) (q : Fin 64) :
    xblk2 V c t (ix2 r q)
      = xarr2 V c (ix2 (⟨10000 * t.val + r.val, by
          have := r.isLt; have : t.val < 10 := lt_of_lt_of_eq t.isLt (show cfg2.N = 10 from N_2); omega⟩ : Fin 100000) q) := by
  show iblk2 V c 0 t (ix2 r q) = _
  unfold iblk2
  rw [View.read_apply]
  show V c main_v44 _ = V c main_v44 _
  congr 1
  funext a
  apply Fin.ext
  match a with
  | ⟨0, _⟩ =>
    show win2_0.index t 0 * 10000 + 1 * r.val = 10000 * t.val + r.val
    rw [(index2_0 t).1]; omega
  | ⟨1, _⟩ =>
    show win2_0.index t 1 * 64 + 1 * q.val = q.val
    rw [(index2_0 t).2]; omega

/-- The mean row's block at any point is the whole [1, 64] array. -/
private theorem mblk2_apply (c : Dev nD) (t : Fin cfg2.N) (q : Fin 64) :
    mblk2 V c t (ix2 (0 : Fin 1) q) = marr2 V c (ix2 (0 : Fin 1) q) := by
  show iblk2 V c 1 t (ix2 (0 : Fin 1) q) = _
  unfold iblk2
  rw [View.read_apply]
  show V c main_v47 _ = V c main_v47 _
  congr 1
  funext a
  apply Fin.ext
  match a with
  | ⟨0, _⟩ =>
    show win2_1.index t 0 * 1 + 1 * 0 = 0
    rw [index2_1 t 0]
  | ⟨1, _⟩ =>
    show win2_1.index t 1 * 64 + 1 * q.val = q.val
    rw [index2_1 t 1]; omega
end Blocks2

section Inv2
variable (V : (c : Dev nD) → (b : Ref sig .tc) → Buf (Elt Ideal) ((c : Thread nD τ).loc b))

/-- Row i's squared deviation from the mean row, in column q. -/
private abbrev dev2 (c : Dev nD) (q : Fin 64) : Fin 100000 → EReal := fun i =>
  (xarr2 V c (ix2 i q) - marr2 V c (ix2 (0 : Fin 1) q)) * (xarr2 V c (ix2 i q) - marr2 V c (ix2 (0 : Fin 1) q))

/-- THE INVARIANT of region 2: after point n the output block's entry q is the sum of the squared deviations in
    column q over the first 10000 (n + 1) rows. -/
private theorem outsAt2_sum (c : Dev nD) (q : Fin 64) : ∀ (n : ℕ) (h : n < cfg2.N),
    outsAt2 V c n h (ix2 (0 : Fin 1) q) = ∑ i ∈ Finset.range (10000 * (n + 1)), ext0 (dev2 V c q) i
  | 0, h => by
    rw [outsAt2_A V c ⟨0, h⟩ rfl]
    refine (congrFun (out2_A (F := Ideal) c (grid2.coords ⟨0, h⟩) (ms2_0 ⟨0, h⟩) (hs2_0 ⟨0, h⟩) (ms2_1 ⟨0, h⟩) (hs2_1 ⟨0, h⟩)
      (ms2_2 ⟨0, h⟩) (hs2_2 ⟨0, h⟩) ((hcond2_0 ⟨0, h⟩).mpr rfl) (iblk2 V c 0 ⟨0, h⟩) (iblk2 V c 1 ⟨0, h⟩))
      (ix2 (0 : Fin 1) q)).trans ?_
    refine (k2_pay2_apply (xblk2 V c ⟨0, h⟩) (mblk2 V c ⟨0, h⟩) (k2_pay1 (F := Ideal)) q).trans ?_
    rw [k2_pay1_apply, zero_add, mblk2_apply V c ⟨0, h⟩ q]
    refine (Finset.sum_congr rfl fun r _ => by rw [xblk2_apply V c ⟨0, h⟩ r q]).trans ?_
    refine (sum_block_eq_range (dev2 V c q) 0 (by omega)).trans ?_
    simp only [Nat.mul_zero, Nat.zero_add, Nat.mul_one]
  | n + 1, h => by
    have hN : cfg2.N = 10 := N_2
    have hB : ¬(⟨n + 1, h⟩ : Fin cfg2.N).val % 10 = 0 := by dsimp only; omega
    rw [outsAt2_B V c ⟨n + 1, h⟩ hB]
    dsimp only
    refine (congrFun (out2_B (F := Ideal) c (grid2.coords ⟨n + 1, h⟩) (ms2_0 ⟨n + 1, h⟩) (hs2_0 ⟨n + 1, h⟩) (ms2_1 ⟨n + 1, h⟩)
      (hs2_1 ⟨n + 1, h⟩) (ms2_2 ⟨n + 1, h⟩) (hs2_2 ⟨n + 1, h⟩) (fun hh => hB ((hcond2_0 ⟨n + 1, h⟩).mp hh))
      (iblk2 V c 0 ⟨n + 1, h⟩) (iblk2 V c 1 ⟨n + 1, h⟩) (outsAt2 V c n (Nat.lt_of_succ_lt h))) (ix2 (0 : Fin 1) q)).trans ?_
    refine (k2_pay2_apply (xblk2 V c ⟨n + 1, h⟩) (mblk2 V c ⟨n + 1, h⟩) (outsAt2 V c n (Nat.lt_of_succ_lt h)) q).trans ?_
    rw [outsAt2_sum c q n (Nat.lt_of_succ_lt h), mblk2_apply V c ⟨n + 1, h⟩ q,
      show 10000 * (n + 1 + 1) = 10000 * (n + 1) + 10000 by ring, Finset.sum_range_add]
    refine congrArg (_ + ·) ?_
    refine (Finset.sum_congr rfl fun r _ => by rw [xblk2_apply V c ⟨n + 1, h⟩ r q]).trans ?_
    exact sum_block_eq_range (dev2 V c q) (n + 1) (by omega)
end Inv2

section Final2
variable {F : FTy → Type} [FloatOps F]
variable (V : (c : Dev nD) → (b : Ref sig .tc) → Buf (Elt F) ((c : Thread nD τ).loc b))

private theorem lt9_2 : 9 < cfg2.N := by rw [show cfg2.N = 10 from N_2]; decide

/-- What the last point of region 2 leaves in the output block, as contents of the output array. -/
private abbrev res2 (c : Dev nD) : Buf (Elt F) ((c : Thread nD τ).loc main_v48) := outsAt2 V c 9 lt9_2

/-- The output window's block index is (0, 0) at every point. -/
private theorem index2_2 : ∀ (t : Fin grid2.N) (a : Fin 2), win2_2.index t a = 0 := by decide +kernel

/-- The one write-back (at the last point) writes what that point leaves. -/
private theorem flushed2_eq (c : Dev nD) (t : Fin cfg2.N) (hf : (cfg2.win 2).flush t = true) :
    (dat2 V c).flushed 2 t = ((cfg2.win 2).blk t).view.read (Elt F) (res2 V c) := by
  have hN : cfg2.N = 10 := N_2
  have h9 : t.val = 9 := by have := (flush2_2 t).mp hf; have := t.isLt; omega
  obtain rfl : t = ⟨9, lt9_2⟩ := Fin.ext h9
  show (cfg2.win 2).cut (grid2.coords ⟨9, lt9_2⟩) ((dat2 V c).after 2 ⟨9, lt9_2⟩) = _
  rw [after2_2]
  have hz' : (fun a => win2_2.index ⟨9, lt9_2⟩ a * main_v48.ty.shape.size a) = fun _ => 0 :=
    funext fun a => by rw [index2_2 _ a, Nat.zero_mul]
  exact (Memref.read_access_unit_zero (Elt F) main_v48 hz' (fun a => by rw [congrFun hz' a]; simp) (res2 V c)).symm

/-- The last point's block covers the output array. -/
private theorem cover2 (c : Dev nD) (i : ((cfg2.win 2).arr.view.loc (c.tc : Thread nD τ)).2.ty.Idx) :
    ∃ t : Fin cfg2.N, (cfg2.win 2).flush t = true ∧ i ∈ ((cfg2.win 2).blk t).view.set := by
  refine ⟨⟨9, lt9_2⟩, (flush2_2 _).mpr rfl, ?_⟩
  show i ∈ ((View.whole main_v48).slice (win2_2.rect ⟨9, lt9_2⟩)).set
  rw [View.set_slice_whole, Rect.mem_set_unit]
  intro a
  show win2_2.index ⟨9, lt9_2⟩ a * win2_2.size a ≤ (i a : Nat)
    ∧ (i a : Nat) < win2_2.index ⟨9, lt9_2⟩ a * win2_2.size a + win2_2.xsize (grid2.coords ⟨9, lt9_2⟩) a
  rw [index2_2 _ a, Nat.zero_mul, Nat.zero_add]
  refine ⟨Nat.zero_le _, ?_⟩
  match a with
  | ⟨0, _⟩ =>
    have hx : win2_2.xsize (grid2.coords ⟨9, lt9_2⟩) 0 = 1 := by decide +kernel
    show (i 0 : Nat) < win2_2.xsize (grid2.coords ⟨9, lt9_2⟩) 0
    rw [hx]; exact (i 0).isLt
  | ⟨1, _⟩ =>
    have hx : win2_2.xsize (grid2.coords ⟨9, lt9_2⟩) 1 = 64 := by decide +kernel
    show (i 1 : Nat) < win2_2.xsize (grid2.coords ⟨9, lt9_2⟩) 1
    rw [hx]; exact (i 1).isLt

/-- So the output array after region 2 is what the last point leaves. -/
private theorem final2 (c : Dev nD) : (dat2 V c).arrAt 2 cfg2.N = res2 V c :=
  (dat2 V c).arrAt_eq_of_cover 2 (res2 V c) (flushed2_eq V c) (cover2 c)
end Final2

/-- The sums of squared deviations after region 2. -/
theorem reg2_sumsq (q : Fin 64) :
    b8Sq m ρ c (ix2 (0 : Fin 1) q)
      = ∑ i : Fin 100000, (b7Agg m ρ c (ix2 i q) - b7Mraw m ρ c (ix2 (0 : Fin 1) q))
            * (b7Agg m ρ c (ix2 i q) - b7Mraw m ρ c (ix2 (0 : Fin 1) q)) := by
  have e : b8Sq m ρ c = res2 (V7 m ρ) c := (W8_arr m ρ c 2).trans (final2 (V7 m ρ) c)
  rw [e]
  refine (outsAt2_sum (V7 m ρ) c q 9 lt9_2).trans ?_
  exact (sum_rows_eq_range (dev2 (V7 m ρ) c q)).symm

end Cert.KernelIdeal.KV

end
-- ==== Proof.KReg3.lean ====
/-
  Region 3 (BatchNorm, ReLU and the residual, elementwise): point t rewrites rows [10000 t, 10000 t + 10000) of the output
  from the same rows of the aggregate and of the residual and from five [1, 64] rows (bias, mean, variance, scale, shift).
-/
import proofs.«420616_j28767690948628_3_alg».proof.Proof.KNames

import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.ShloMosaic.ValueIdx Idealize.SL.Sem

/-- A [1, 64] row broadcast to [10000, 64] reads, at row r and column q, the row's column q. -/
theorem bcastRow_apply (x : Vec Ideal S1x64 .f32) (r : Fin 10000) (q : Fin 64) :
    broadcastTo S10000x64 x broadcasts_S1x64_S10000x64 (ix2 r q) = x (ix2 (0 : Fin 1) q) := by
  refine broadcastTo_apply x _ (ix2 r q) (ix2 (0 : Fin 1) q) fun a => ?_
  match a with
  | ⟨0, _⟩ => rfl
  | ⟨1, _⟩ => rfl

/-- The point's payload at row r and column q of its block: the aggregate entry plus the bias row's column, minus the mean
    row's, times the scale row's, times the reciprocal root of the variance row's plus epsilon, plus the shift row's,
    clamped below at zero, plus the residual entry. Every operation is pointwise but the row broadcasts. -/
theorem epiPay_apply (v0 : Vec Ideal S10000x64 .f32) (v2 v6 v11 v13 v21 : Vec Ideal S1x64 .f32) (v27 : Vec Ideal S10000x64 .f32)
    (r : Fin 10000) (q : Fin 64) :
    k3_pay1 v0 v2 v6 v11 v13 v21 v27 (ix2 r q)
      = max (v11 (ix2 (0 : Fin 1) q) * ((v0 (ix2 r q) + v2 (ix2 (0 : Fin 1) q)) - v13 (ix2 (0 : Fin 1) q))
              * Ideal.rsqrt (v6 (ix2 (0 : Fin 1) q) + Ideal.ofBits .f32 0x3727C5AC#32)
            + v21 (ix2 (0 : Fin 1) q))
          (Ideal.ofBits .f32 0x00000000#32)
        + v27 (ix2 r q) := by
  unfold k3_pay1
  simp only [shapeCast_self]
  rw [addf_apply, maximumf_apply, addf_apply, mulf_apply, mulf_apply, subf_apply, addf_apply,
    bcastRow_apply, bcastRow_apply, bcastRow_apply, bcastRow_apply, bcastRow_apply]
  rfl

section Blocks

variable (V : (c : Dev nD) → (b : Ref sig .tc) → Buf (Elt Ideal) ((c : Thread nD τ).loc b))

theorem zero_offsets : (![0, 0] : Fin 2 → Nat) = fun _ => 0 := funext fun a => by fin_cases a <;> rfl

/-- The epilogue as ONE function of the seven arrays it reads, entry by entry: the aggregate plus the bias row, centred by
    the mean row, scaled by the scale row and the reciprocal root of the variance row plus epsilon, shifted by the shift
    row, clamped below at zero, plus the residual. The five rows are read at the entry's column. -/
def epi (agg res : FVec Ideal S100000x64 .f32) (bias mean var gam bet : FVec Ideal S1x64 .f32) : FVec Ideal S100000x64 .f32 :=
  fun i =>
    max (gam (ix2 (0 : Fin 1) (i 1 : Fin 64))
            * ((agg i + bias (ix2 (0 : Fin 1) (i 1 : Fin 64))) - mean (ix2 (0 : Fin 1) (i 1 : Fin 64)))
            * Ideal.rsqrt (var (ix2 (0 : Fin 1) (i 1 : Fin 64)) + Ideal.ofBits .f32 0x3727C5AC#32)
          + bet (ix2 (0 : Fin 1) (i 1 : Fin 64)))
        (Ideal.ofBits .f32 0x00000000#32)
      + res i

/-- One entry of a point's payload is the epilogue's entry at the array index the block entry sits at, once the two row
    blocks' entries are the arrays' entries there and the five [1, 64] blocks are the five rows. -/
theorem pay3_eq_epi (x0 x1 : Vec Ideal S10000x64 .f32) (x2 x3 x4 x5 x6 : Vec Ideal S1x64 .f32)
    (agg res : FVec Ideal S100000x64 .f32) (bias mean var gam bet : FVec Ideal S1x64 .f32)
    (j : S10000x64.Idx) (i : S100000x64.Idx)
    (h0 : x0 j = agg i) (h1 : x1 j = res i) (h2 : x2 = bias) (h3 : x3 = mean) (h4 : x4 = var) (h5 : x5 = gam) (h6 : x6 = bet)
    (hq : (i 1).val = (j 1).val) :
    k3_pay1 x0 x2 x4 x5 x3 x6 x1 j = epi agg res bias mean var gam bet i := by
  subst h2 h3 h4 h5 h6
  obtain ⟨r, q, rfl⟩ : ∃ (r : Fin 10000) (q : Fin 64), j = ix2 r q := ⟨j 0, j 1, eq_ix2 j⟩
  have hq' : (i 1 : Fin 64) = q := Fin.ext hq
  rw [epiPay_apply, h0, h1]
  unfold epi
  rw [hq']

/-- The printed index maps over the ten points: the two row-block inputs and the output sit at block (t, 0), the five rows
    at block (0, 0). -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

end Blocks

section Blocks2

variable (V : (c : Dev nD) → (b : Ref sig .tc) → Buf (Elt Ideal) ((c : Thread nD τ).loc b))

/-- The epilogue of the seven arrays as the region finds them. -/
abbrev epiV (c : Dev nD) : FVec Ideal S100000x64 .f32 :=
  epi (V c main_v44) (V c main_v8_1) (V c main_v55) (V c main_v54) (V c main_v52) (V c main_v56) (V c main_v57)

/-- WHAT POINT t WRITES BACK is block t of the epilogue of the arrays as the region finds them: rows 10000 t … 10000 t + 9999. -/
theorem flushed3_eq (c : Dev nD) (t : Fin cfg3.N) :
    (dat3 V c).flushed 7 t = ((cfg3.win 7).blk t).view.read (Elt Ideal) (epiV V c) := by
  show (cfg3.win 7).cut (grid3.coords t) ((dat3 V c).after 7 t) = _
  rw [after3_7]
  unfold out3_7
  rw [View.canon_unit_zero zero_offsets]
  simp only [View.ld_unit_zero (S := S10000x64) zero_offsets, View.ld_unit_zero (S := S1x64) zero_offsets]
  obtain ⟨e00, e01, e10, e11, e20, e21, e30, e31, e40, e41, e50, e51, e60, e61, e70, e71⟩ := idx3 t
  funext j
  show k3_pay1 (iblk3 V c 0 t) (iblk3 V c 2 t) (iblk3 V c 4 t) (iblk3 V c 5 t) (iblk3 V c 3 t) (iblk3 V c 6 t) (iblk3 V c 1 t)
      ((cfg3.win 7).xinj (grid3.coords t) j) = epiV V c (((cfg3.win 7).blk t).view.emb j)
  refine pay3_eq_epi _ _ _ _ _ _ _ _ _ _ _ _ _ _ _ _ ?_ ?_ ?_ ?_ ?_ ?_ ?_ ?_
  · show V c main_v44 (((cfg3.win 0).blk t).view.emb ((cfg3.win 7).xinj (grid3.coords t) j)) = V c main_v44 (((cfg3.win 7).blk t).view.emb j)
    refine congrArg _ (funext fun a => Fin.ext ?_)
    match a with
    | ⟨0, _⟩ => show win3_0.index t (0 : Fin 2) * 10000 + 1 * (j 0).val = win3_7.index t (0 : Fin 2) * 10000 + 1 * (j 0).val; omega
    | ⟨1, _⟩ => show win3_0.index t (1 : Fin 2) * 64 + 1 * (j 1).val = win3_7.index t (1 : Fin 2) * 64 + 1 * (j 1).val; omega
  · show V c main_v8_1 (((cfg3.win 1).blk t).view.emb ((cfg3.win 7).xinj (grid3.coords t) j)) = V c main_v8_1 (((cfg3.win 7).blk t).view.emb j)
    refine congrArg _ (funext fun a => Fin.ext ?_)
    match a with
    | ⟨0, _⟩ => show win3_1.index t (0 : Fin 2) * 10000 + 1 * (j 0).val = win3_7.index t (0 : Fin 2) * 10000 + 1 * (j 0).val; omega
    | ⟨1, _⟩ => show win3_1.index t (1 : Fin 2) * 64 + 1 * (j 1).val = win3_7.index t (1 : Fin 2) * 64 + 1 * (j 1).val; omega
  · funext y
    show V c main_v55 (((cfg3.win 2).blk t).view.emb y) = V c main_v55 y
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 64 + 1 * (y 1).val = (y 1).val; omega
  · funext y
    show V c main_v54 (((cfg3.win 3).blk t).view.emb y) = V c main_v54 y
    refine congrArg _ (funext fun a => Fin.ext ?_)
    match a with
    | ⟨0, _⟩ => show win3_3.index t (0 : Fin 2) * 1 + 1 * (y 0).val = (y 0).val; omega
    | ⟨1, _⟩ => show win3_3.index t (1 : Fin 2) * 64 + 1 * (y 1).val = (y 1).val; omega
  · funext y
    show V c main_v52 (((cfg3.win 4).blk t).view.emb y) = V c main_v52 y
    refine congrArg _ (funext fun a => Fin.ext ?_)
    match a with
    | ⟨0, _⟩ => show win3_4.index t (0 : Fin 2) * 1 + 1 * (y 0).val = (y 0).val; omega
    | ⟨1, _⟩ => show win3_4.index t (1 : Fin 2) * 64 + 1 * (y 1).val = (y 1).val; omega
  · funext y
    show V c main_v56 (((cfg3.win 5).blk t).view.emb y) = V c main_v56 y
    refine congrArg _ (funext fun a => Fin.ext ?_)
    match a with
    | ⟨0, _⟩ => show win3_5.index t (0 : Fin 2) * 1 + 1 * (y 0).val = (y 0).val; omega
    | ⟨1, _⟩ => show win3_5.index t (1 : Fin 2) * 64 + 1 * (y 1).val = (y 1).val; omega
  · funext y
    show V c main_v57 (((cfg3.win 6).blk t).view.emb y) = V c main_v57 y
    refine congrArg _ (funext fun a => Fin.ext ?_)
    match a with
    | ⟨0, _⟩ => show win3_6.index t (0 : Fin 2) * 1 + 1 * (y 0).val = (y 0).val; omega
    | ⟨1, _⟩ => show win3_6.index t (1 : Fin 2) * 64 + 1 * (y 1).val = (y 1).val; omega
  · show win3_7.index t (1 : Fin 2) * 64 + 1 * (j 1).val = (j 1).val
    omega

/-- An index of the output is in point t's block iff each coordinate is in the block's range on its axis. -/
theorem mem_blk3 (t : Fin cfg3.N) (i : S100000x64.Idx) :
    i ∈ ((cfg3.win 7).blk t).view.set
      ↔ ∀ a : Fin 2, win3_7.index t a * S10000x64.size a ≤ (i a).val ∧ (i a).val < win3_7.index t a * S10000x64.size a + S10000x64.size a := by
  show i ∈ ((View.whole main_v58).slice (win3_7.rect t)).set ↔ _
  rw [View.set_slice_whole, Rect.mem_set_unit]
  exact Iff.rfl

/-- Row r of the output is in the block of point r / 10000: the ten blocks tile the array. -/
theorem cover3 (i : S100000x64.Idx) :
    ∃ t : Fin cfg3.N, (cfg3.win 7).flush t = true ∧ i ∈ ((cfg3.win 7).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  obtain ⟨-, -, -, -, -, -, -, -, -, -, -, -, -, -, e70, e71⟩ := idx3 t
  have ht : t.val = (i 0).val / 10000 := rfl
  refine ⟨t, flush3_7 t, ?_⟩
  rw [mem_blk3]
  intro a
  match a with
  | ⟨0, _⟩ => show win3_7.index t (0 : Fin 2) * 10000 ≤ (i 0).val ∧ (i 0).val < win3_7.index t (0 : Fin 2) * 10000 + 10000; omega
  | ⟨1, _⟩ => show win3_7.index t (1 : Fin 2) * 64 ≤ (i 1).val ∧ (i 1).val < win3_7.index t (1 : Fin 2) * 64 + 64; omega

/-- THE OUTPUT ARRAY after the region is the epilogue of the arrays as the region finds them. -/
theorem final3 (c : Dev nD) : (dat3 V c).arrAt 7 cfg3.N = epiV V c :=
  (dat3 V c).arrAt_eq_of_cover 7 (epiV V c) (fun t _ => flushed3_eq V c t) cover3

end Blocks2

variable (m : (ℓ : Loc nD τ sig) → Buf (Elt Ideal) ℓ) (ρ : Dev nD → PrngReg) (c : Dev nD)

/-- The output after region 3, entry by entry, from the region's entry contents. -/
theorem reg3_out (i : Fin 100000) (q : Fin 64) :
    b10Out m ρ c (ix2 i q)
      = max
          (b9Gam m ρ c (ix2 (0 : Fin 1) q)
              * ((b9Agg m ρ c (ix2 i q) + b9B m ρ c (ix2 (0 : Fin 1) q)) - b9Mean m ρ c (ix2 (0 : Fin 1) q))
              * Ideal.rsqrt (b9Var m ρ c (ix2 (0 : Fin 1) q) + Ideal.ofBits .f32 0x3727C5AC#32)
            + b9Bet m ρ c (ix2 (0 : Fin 1) q))
          (Ideal.ofBits .f32 0x00000000#32)
        + b9R m ρ c (ix2 i q) := by
  have h : (b10Out m ρ c : S100000x64.Idx → Ideal .f32) = epiV (V9 m ρ) c :=
    (W10_arr m ρ c 7).trans (final3 (V9 m ρ) c)
  rw [h]
  rfl

end Cert.KernelIdeal.KV

end
-- ==== Proof.KHost0.lean ====
/-
  The host stretches that only re-lay or pass arrays on: the stacked weight and bias the linear region reads, the two rows of
  the edge list, the quotients and the re-laid parameter rows, and the arrays that no later item writes (so a later boundary
  finds them as an earlier one left them).
-/
import proofs.«420616_j28767690948628_3_alg».proof.Proof.KNames

import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- A stretch of host operations leaves a buffer that none of them writes as it found it: from the goal
    `StableHlo.after ops V b = rhs` to `V b = rhs`, each operation's result buffer being another one than `b`. -/
local macro "skip_host " ops:ident : tactic => `(tactic|
  refine Eq.trans (StableHlo.after_of_forall_not_mem $ops _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))) ?_)

/-- A buffer that no item before boundary 8 writes or holds as a region's array is there as launched: from the goal
    `W8 m ρ c b = rhs` back through the regions (the buffer is none of their arrays) and the host stretches (none of
    their operations writes it) to the launch memory. -/
local macro "walk_8_to_launch " b:ident : tactic => `(tactic| (
  refine Eq.trans (W8_of_ne _ _ _ $b (by decide)) ?_
  skip_host hostOps2
  refine Eq.trans (W6_of_ne _ _ _ $b (by decide)) ?_
  skip_host hostOps1_2
  skip_host hostOps1_1
  skip_host hostOps1
  refine Eq.trans (W2_of_ne _ _ _ $b (by decide)) ?_
  skip_host hostOps0
  rfl))

/-! ## Boundary 1 -/
theorem h0_x : b1X m ρ c = aX m c := by
  show StableHlo.after hostOps0 (W0 m ρ c) (Proc.devRef .tc main_arg0) = _
  after_results
/-- Rows 0 … 63 of the stacked weight are W's. -/
theorem h0_wcat_lo (q : Fin 64) (k : Fin 128) : b1Wc m ρ c (ix2 (⟨q.val, by omega⟩ : Fin 128) k) = aW m c (ix2 q k) := by
  show StableHlo.after hostOps0 (W0 m ρ c) (Proc.devRef .tc main_v4) _ = _
  after_results
  -- the row lies in the first piece of the stack along axis 0
  exact concatenate_pair_apply_left _ _ _ concatenates_S64x128_S64x128_S128x128_d0 _ rfl (ix2 q k)
    (fun b => match b with | ⟨0, _⟩ => rfl | ⟨1, _⟩ => rfl)
/-- Rows 64 … 127 of the stacked weight are Wr's. -/
theorem h0_wcat_hi (q : Fin 64) (k : Fin 128) : b1Wc m ρ c (ix2 (⟨64 + q.val, by omega⟩ : Fin 128) k) = aWr m c (ix2 q k) := by
  show StableHlo.after hostOps0 (W0 m ρ c) (Proc.devRef .tc main_v4) _ = _
  after_results
  -- the row lies in the second piece: its row there is the first piece's 64 rows less
  exact concatenate_pair_apply_right _ _ _ concatenates_S64x128_S64x128_S128x128_d0 _ rfl rfl (ix2 q k)
    (fun b => match b with | ⟨0, _⟩ => fun h => absurd rfl h | ⟨1, _⟩ => fun _ => rfl)
    (by show q.val + 64 = 64 + q.val; omega)
/-- Entries 0 … 63 of the stacked bias row are zero. -/
theorem h0_bcat_lo (q : Fin 64) : b1Bc m ρ c (ix2 (0 : Fin 1) (⟨q.val, by omega⟩ : Fin 128)) = Ideal.ofBits .f32 0x00000000#32 := by
  show StableHlo.after hostOps0 (W0 m ρ c) (Proc.devRef .tc main_v7) _ = _
  after_results
  -- the row [1,128] at (0, q) is the vector [128] at q (same row-major position) …
  refine (shapeCast_apply (t := S1x128) _ shapeCasts_S128_S1x128 (ix2 (0 : Fin 1) (⟨q.val, by omega⟩ : Fin 128))
    (ix1 (⟨q.val, by omega⟩ : Fin 128)) ?_).trans ?_
  · rewrite [Shape.rowMajor_val_two, Shape.rowMajor_val_one]; show q.val = 0 * 128 + q.val; omega
  -- … which lies in the first piece, the broadcast of the constant zero
  · exact concatenate_pair_apply_left _ _ _ concatenates_S64_S64_S128_d0 _ rfl (ix1 q)
      (fun b => match b with | ⟨0, _⟩ => rfl)
/-- Entries 64 … 127 of the stacked bias row are br's. -/
theorem h0_bcat_hi (q : Fin 64) : b1Bc m ρ c (ix2 (0 : Fin 1) (⟨64 + q.val, by omega⟩ : Fin 128)) = aBr m c (ix1 q) := by
  show StableHlo.after hostOps0 (W0 m ρ c) (Proc.devRef .tc main_v7) _ = _
  after_results
  refine (shapeCast_apply (t := S1x128) _ shapeCasts_S128_S1x128 (ix2 (0 : Fin 1) (⟨64 + q.val, by omega⟩ : Fin 128))
    (ix1 (⟨64 + q.val, by omega⟩ : Fin 128)) ?_).trans ?_
  · rewrite [Shape.rowMajor_val_two, Shape.rowMajor_val_one]; show 64 + q.val = 0 * 128 + (64 + q.val); omega
  -- the entry lies in the second piece, br, at its position less the first piece's 64
  · exact concatenate_pair_apply_right _ _ _ concatenates_S64_S64_S128_d0 _ rfl rfl (ix1 q)
      (fun b => match b with | ⟨0, _⟩ => fun h => absurd rfl h)
      (by show q.val + 64 = 64 + q.val; omega)

/-! ## Boundary 2: the edge list's rows (sliced in the first stretch, untouched by the linear region) -/
theorem h0_src (e : Fin 1600000) : b2Src m ρ c (ix1 e) = aEI m c (ix2 (0 : Fin 2) e) := by
  show W2 m ρ c (Proc.devRef .tc main_v1) _ = _
  rw [W2_of_ne m ρ c main_v1 (by decide)]
  show StableHlo.after hostOps0 (W0 m ρ c) (Proc.devRef .tc main_v1) _ = _
  after_results
  -- the vector [1600000] at e is the row [1,1600000] at (0, e) …
  refine (shapeCast_apply (t := S1600000) _ shapeCasts_S1x1600000_S1600000 (ix1 e) (ix2 (0 : Fin 1) e) ?_).trans ?_
  · rewrite [Shape.rowMajor_val_two, Shape.rowMajor_val_one]; show 0 * 1600000 + e.val = e.val; omega
  -- … and the slice at offset (0, 0) reads the edge list at (0, e)
  · exact extractStridedSlice_apply ![0, 0] _ slices_S2x1600000_S1x1600000_0_0 (ix2 (0 : Fin 1) e) (ix2 (0 : Fin 2) e)
      (fun a => match a with
        | ⟨0, _⟩ => by show 0 = 0 + 0; omega
        | ⟨1, _⟩ => by show e.val = 0 + e.val; omega)
theorem h0_dst (e : Fin 1600000) : b2Dst m ρ c (ix1 e) = aEI m c (ix2 (1 : Fin 2) e) := by
  show W2 m ρ c (Proc.devRef .tc main_v3) _ = _
  rw [W2_of_ne m ρ c main_v3 (by decide)]
  show StableHlo.after hostOps0 (W0 m ρ c) (Proc.devRef .tc main_v3) _ = _
  after_results
  refine (shapeCast_apply (t := S1600000) _ shapeCasts_S1x1600000_S1600000 (ix1 e) (ix2 (0 : Fin 1) e) ?_).trans ?_
  · rewrite [Shape.rowMajor_val_two, Shape.rowMajor_val_one]; show 0 * 1600000 + e.val = e.val; omega
  -- the slice at offset (1, 0) reads the edge list at (1, e)
  · exact extractStridedSlice_apply ![1, 0] _ slices_S2x1600000_S1x1600000_1_0 (ix2 (0 : Fin 1) e) (ix2 (1 : Fin 2) e)
      (fun a => match a with
        | ⟨0, _⟩ => by show 1 = 1 + 0; omega
        | ⟨1, _⟩ => by show e.val = 0 + e.val; omega)

/-! ## Boundaries 7 and 9: the quotients and the re-laid rows -/
theorem h2_mraw (q : Fin 64) :
    b7Mraw m ρ c (ix2 (0 : Fin 1) q) = Ideal.div (b6Sum m ρ c (ix2 (0 : Fin 1) q)) (Ideal.ofBits .f32 0x47C35000#32) := by
  show StableHlo.after hostOps2 (W6 m ρ c) (Proc.devRef .tc main_v47) _ = _
  after_results
  -- the host's quotient is pointwise, the divisor the broadcast of a constant
  rfl
theorem h3_var (q : Fin 64) :
    b9Var m ρ c (ix2 (0 : Fin 1) q)
      = max (Ideal.div (b8Sq m ρ c (ix2 (0 : Fin 1) q)) (Ideal.ofBits .f32 0x47C35000#32)) (Ideal.ofBits .f32 0x00000000#32) := by
  show StableHlo.after hostOps3 (W8 m ρ c) (Proc.devRef .tc main_v52) _ = _
  after_results
  rfl

/-- The squared-deviation region reads the mean through an input window: its array leaves the region as it entered. -/
private theorem W8_mraw : W8 m ρ c (Proc.devRef .tc main_v47) = W7 m ρ c (Proc.devRef .tc main_v47) :=
  (W8_arr m ρ c 1).trans (((dat2 (V7 m ρ) c).arrAt_in 1 rfl _).trans (A_eq2 (V7 m ρ) c 1))

/-- No item before boundary 8 writes the bias, scale or shift argument. -/
private theorem W8_arg3 : W8 m ρ c (Proc.devRef .tc main_arg3) = aB m c := by walk_8_to_launch main_arg3
private theorem W8_arg4 : W8 m ρ c (Proc.devRef .tc main_arg4) = aGam m c := by walk_8_to_launch main_arg4
private theorem W8_arg5 : W8 m ρ c (Proc.devRef .tc main_arg5) = aBet m c := by walk_8_to_launch main_arg5

/-- A vector [64] re-laid as a row [1,64], read at (0, q), is the vector at q (same row-major position). -/
private theorem row_of_vec (x : FVec Ideal S64 .f32) (q : Fin 64) :
    shapeCast S1x64 x shapeCasts_S64_S1x64 (ix2 (0 : Fin 1) q) = x (ix1 q) :=
  shapeCast_apply x shapeCasts_S64_S1x64 (ix2 (0 : Fin 1) q) (ix1 q)
    (by rewrite [Shape.rowMajor_val_two, Shape.rowMajor_val_one]; show q.val = 0 * 64 + q.val; omega)

/-- The sum of a row and a re-laid vector, read at (0, q). -/
private theorem addf_row (a : FVec Ideal S1x64 .f32) (b : FVec Ideal S64 .f32) (q : Fin 64) :
    addf a (shapeCast S1x64 b shapeCasts_S64_S1x64) (ix2 (0 : Fin 1) q) = a (ix2 (0 : Fin 1) q) + b (ix1 q) := by
  rw [addf_apply, row_of_vec]

theorem h3_mean (q : Fin 64) : b9Mean m ρ c (ix2 (0 : Fin 1) q) = b7Mraw m ρ c (ix2 (0 : Fin 1) q) + aB m c (ix1 q) := by
  show StableHlo.after hostOps3 (W8 m ρ c) (Proc.devRef .tc main_v54) _ = _
  after_results
  -- the mean's array and the bias argument are as boundary 7 and the launch left them
  have e1 : W8 m ρ c (Proc.devRef .tc main_v47) = b7Mraw m ρ c := W8_mraw m ρ c
  have e3 : W8 m ρ c (Proc.devRef .tc main_arg3) = aB m c := W8_arg3 m ρ c
  rw [e1, e3]
  exact addf_row (b7Mraw m ρ c) (aB m c) q
theorem h3_b (q : Fin 64) : b9B m ρ c (ix2 (0 : Fin 1) q) = aB m c (ix1 q) := by
  show StableHlo.after hostOps3 (W8 m ρ c) (Proc.devRef .tc main_v55) _ = _
  after_results
  rw [W8_arg3]
  exact row_of_vec (aB m c) q
theorem h3_gam (q : Fin 64) : b9Gam m ρ c (ix2 (0 : Fin 1) q) = aGam m c (ix1 q) := by
  show StableHlo.after hostOps3 (W8 m ρ c) (Proc.devRef .tc main_v56) _ = _
  after_results
  rw [W8_arg4]
  exact row_of_vec (aGam m c) q
theorem h3_bet (q : Fin 64) : b9Bet m ρ c (ix2 (0 : Fin 1) q) = aBet m c (ix1 q) := by
  show StableHlo.after hostOps3 (W8 m ρ c) (Proc.devRef .tc main_v57) _ = _
  after_results
  rw [W8_arg5]
  exact row_of_vec (aBet m c) q

/-! ## Arrays no later item writes -/
theorem keep7_agg : b7Agg m ρ c = b5Agg m ρ c := by
  show StableHlo.after hostOps2 (W6 m ρ c) (Proc.devRef .tc main_v44) = _
  skip_host hostOps2
  -- the sum region reads the aggregate through an input window: its array leaves the region as it entered
  exact (W6_arr m ρ c 0).trans (((dat1 (V5 m ρ) c).arrAt_in 0 rfl _).trans (A_eq1 (V5 m ρ) c 0))
theorem keep9_agg : b9Agg m ρ c = b5Agg m ρ c := by
  show StableHlo.after hostOps3 (W8 m ρ c) (Proc.devRef .tc main_v44) = _
  skip_host hostOps3
  -- the squared-deviation region, too, reads the aggregate through an input window
  refine Eq.trans ((W8_arr m ρ c 0).trans (((dat2 (V7 m ρ) c).arrAt_in 0 rfl _).trans (A_eq2 (V7 m ρ) c 0))) ?_
  exact keep7_agg m ρ c
theorem keep9_resid : b9R m ρ c = b2R m ρ c := by
  show StableHlo.after hostOps3 (W8 m ρ c) (Proc.devRef .tc main_v8_1) = _
  skip_host hostOps3
  refine Eq.trans (W8_of_ne m ρ c main_v8_1 (by decide)) ?_
  skip_host hostOps2
  refine Eq.trans (W6_of_ne m ρ c main_v8_1 (by decide)) ?_
  skip_host hostOps1_2
  skip_host hostOps1_1
  skip_host hostOps1
  rfl

end Cert.KernelIdeal.KV

end
-- ==== Proof.LibIndex.lean ====
/-
  Row gathers and row scatters read at an index.

  `x[idx]` along the leading axis of a two-axis array lowers to a gather whose start indices are a column `[E, 1]`:
  result row `e` is operand row `idx[e, 0]`, the index read as a signed integer and clamped into `[0, N - 1]`. The same
  holds for a one-axis operand. A scatter of rows along the leading axis sends update row `e` to operand row `idx[e, 0]`,
  read signed and NOT clamped: an update whose row is outside the operand is dropped.
-/
import Idealize.ShloMosaic.PureOps.ShapeOps
import Idealize.ShloMosaic.Lib.ValueIdx

namespace Cert.Gcn

open Idealize.ShloMosaic Idealize.ShloMosaic.ValueIdx

/-- A signed 32-bit word clamped into `[0, N - 1]`, as a row number. -/
def crow (N : Nat) (hN : 0 < N) (v : BitVec 32) : Fin N := ⟨min v.toInt.toNat (N - 1), by omega⟩

/-- A word already in `[0, N)` is its own clamp. -/
theorem crow_val_of_range {N : Nat} (hN : 0 < N) (v : BitVec 32) (h0 : 0 ≤ v.toInt) (h1 : v.toInt < N) :
    ((crow N hN v).val : Int) = v.toInt := by
  show ((min v.toInt.toNat (N - 1) : Nat) : Int) = v.toInt
  omega

/-- The dimension numbers of a row gather: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather at `(e, c)` is the operand at row `clamp idx[e, 0]`, column `c`. -/
theorem gatherRows_apply {α : Type} {N E D : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (j : (⟨2, ![E, D]⟩ : Shape).Idx) :
    Host.gather (rowGatherDims N E D wf) x idx j = x (ix2 (crow N hN (idx (ix2 (j 0) 0))) (j 1)) := by
  unfold Host.gather
  congr 1
  funext a
  refine Fin.ext ?_
  match a with
  | ⟨0, _⟩ =>
    -- axis 0 is collapsed and named by the start index map: only the clamped start index, read at `[e, 0]`
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 is the one kept axis and no start index names it: start zero, offset the result's column
    show (rowGatherDims N E D wf).start j idx 1 + (rowGatherDims N E D wf).batchCoord j 1
      + (rowGatherDims N E D wf).offCoord j 1 = (j 1).val
    rw [GatherDims.batchCoord_eq_zero _ _ _ List.not_mem_nil]
    unfold GatherDims.start
    rw [dif_neg (show ¬ (1 : Fin 2) ∈ (rowGatherDims N E D wf).startIndexMap from
      (show ¬ (1 : Fin 2) ∈ ([0] : List (Fin 2)) by decide))]
    unfold GatherDims.offCoord
    rw [dif_pos (show (1 : Fin 2) ∈ (rowGatherDims N E D wf).sKept from
      (GatherDims.mem_sKept _ _).mpr ⟨(show ¬ (1 : Fin 2) ∈ ([0] : List (Fin 2)) by decide), List.not_mem_nil⟩)]
    simp only [Nat.zero_add, Nat.add_zero]
    rfl

/-- The dimension numbers of an element gather: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- An element gather at `e` is the operand at `clamp idx[e, 0]`. -/
theorem gatherVec_apply {α : Type} {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : (⟨1, ![E]⟩ : Shape).Idx) :
    Host.gather (vecGatherDims N E wf) x idx e = x (ix1 (crow N hN (idx (ix2 (e 0) 0)))) := by
  unfold Host.gather
  congr 1
  funext a
  obtain rfl : a = 0 := Subsingleton.elim _ _
  refine Fin.ext ?_
  -- the one operand axis is collapsed: no batching coordinate, no offset coordinate, only the clamped start
  show (vecGatherDims N E wf).start e idx 0 + (vecGatherDims N E wf).batchCoord e 0
    + (vecGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  -- the start index is read at `[e, 0]`
  have hsi : (vecGatherDims N E wf).siIdx e ⟨List.idxOf (0 : Fin 1) (vecGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- The dimension numbers of a row scatter: operand `[N, D]`, scatter indices `[E, 1]`, updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update `(e, c)` that lands at `(n, c')` has `idx[e, 0] = n` as a signed integer and `c = c'`. -/
theorem scatterRows_resultIdx {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx)
    (h : (rowScatterDims N E D wf).resultIdx? j idx = some i) :
    (idx (ix2 (j 0) 0)).toInt = ((i 0).val : Int) ∧ (j 1).val = (i 1).val := by
  unfold ScatterDims.resultIdx? at h
  split at h
  · rename_i hr
    have hf := Option.some.inj h
    have h0 : ((rowScatterDims N E D wf).start j idx 0 + ((rowScatterDims N E D wf).window j 0 : Nat)).toNat
        = (i 0).val := congrArg Fin.val (congrFun hf 0)
    have h1 : ((rowScatterDims N E D wf).start j idx 1 + ((rowScatterDims N E D wf).window j 1 : Nat)).toNat
        = (i 1).val := congrArg Fin.val (congrFun hf 1)
    have hr0 := hr 0
    have hr1 := hr 1
    -- axis 0 is named by the map and inserted: the start is the signed index, the window coordinate is zero
    have hs0 : (rowScatterDims N E D wf).start j idx 0 = (idx (ix2 (j 0) 0)).toInt := by
      unfold ScatterDims.start
      rw [dif_pos (show (0 : Fin 2) ∈ (rowScatterDims N E D wf).scatterDimsToOperandDims from
        List.mem_singleton.mpr rfl)]
      have hsi : (rowScatterDims N E D wf).siIdx j
          ⟨List.idxOf (0 : Fin 2) (rowScatterDims N E D wf).scatterDimsToOperandDims,
            List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw0 : (rowScatterDims N E D wf).window j 0 = 0 := by
      unfold ScatterDims.window
      rw [dif_neg (show ¬ (0 : Fin 2) ∈ (rowScatterDims N E D wf).sKept from
        (show ¬ (0 : Fin 2) ∈ (List.finRange 2).filter (fun a => a ∉ ([0] : List (Fin 2))) by decide))]
    -- axis 1 is not named by the map and is the one window axis: the start is zero, the window coordinate is the update's column
    have hs1 : (rowScatterDims N E D wf).start j idx 1 = 0 := by
      unfold ScatterDims.start
      rw [dif_neg (show ¬ (1 : Fin 2) ∈ (rowScatterDims N E D wf).scatterDimsToOperandDims from
        (show ¬ (1 : Fin 2) ∈ ([0] : List (Fin 2)) by decide))]
    have hw1 : (rowScatterDims N E D wf).window j 1 = (j 1).val := by
      unfold ScatterDims.window
      rw [dif_pos (show (1 : Fin 2) ∈ (rowScatterDims N E D wf).sKept from
        (show (1 : Fin 2) ∈ (List.finRange 2).filter (fun a => a ∉ ([0] : List (Fin 2))) by decide))]
      rfl
    rw [hs0, hw0] at h0 hr0
    rw [hs1, hw1] at h1 hr1
    simp only [Nat.cast_zero, Int.add_zero, Int.zero_add, Int.toNat_natCast] at h0 h1 hr0
    refine ⟨?_, h1⟩
    omega
  · exact absurd h (by simp)

end Cert.Gcn
-- ==== Proof.LibScatter.lean ====
/-
  Accumulating scatters read at an index, and a filtered sum over a concatenation split at the seam.

  At the extended reals the host's scatter-add holds, at each operand element, the element plus the sum of the updates whose
  result index is that element. For a scatter of elements (operand [N], indices [E, 1], updates [E]) update e lands on element
  idx[e, 0] read as a signed integer; for a scatter of rows (operand [N, D], updates [E, D]) update (e, q) lands on (idx[e, 0], q).
  An update whose row is outside the operand lands nowhere.
-/
import proofs.«420616_j28767690948628_3_alg».proof.Proof.LibIndex
import Idealize.ShloMosaic.PureOps.Ideal
import Idealize.ShloMosaic.PureOps.Ideal.Laws

noncomputable section

namespace Cert.Gcn

open Idealize.ShloMosaic Idealize.ShloMosaic.ValueIdx

/-- The dimension numbers of an element scatter: operand `[N]`, scatter indices `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A one-axis index set is the range of its coordinate. -/
def idxEquiv1 {n : Nat} : (⟨1, ![n]⟩ : Shape).Idx ≃ Fin n where
  toFun j := j 0
  invFun a := ix1 a
  left_inv j := (eq_ix1 j).symm
  right_inv _ := rfl

/-- A sum over a one-axis index type is the sum over its coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Element scatter, the one operand axis: it is named by the map, so the window starts at the signed index read at `[e, 0]`. -/
theorem scatterVec_start {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Element scatter, the one operand axis: it is inserted, so its window coordinate is zero. -/
theorem scatterVec_window {N E : Nat} (wf : ScatterDims.WF ⟨1, ![N]⟩ ⟨2, ![E, 1]⟩ ⟨1, ![E]⟩ [] [0] [0] 1)
    (j : (⟨1, ![E]⟩ : Shape).Idx) : (vecScatterDims N E wf).window j 0 = 0 := by
  unfold ScatterDims.window
  rw [dif_neg (show ¬ (0 : Fin 1) ∈ (vecScatterDims N E wf).sKept from
    (show ¬ (0 : Fin 1) ∈ (List.finRange 1).filter (fun a => a ∉ ([0] : List (Fin 1))) by decide))]

/-- Update `e` of an element scatter lands at element `n` exactly when `idx[e, 0] = n` as a signed integer. -/
theorem scatterVec_resultIdx_iff {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) (i : (⟨1, ![N]⟩ : Shape).Idx) :
    (vecScatterDims N E wf).resultIdx? j idx = some i ↔ (idx (ix2 (j 0) 0)).toInt = ((i 0).val : Int) := by
  have hs := scatterVec_start wf idx j
  have hw := scatterVec_window wf j
  have hi : (i 0).val < N := (i 0).isLt
  constructor
  · intro h
    unfold ScatterDims.resultIdx? at h
    split at h
    · rename_i hr
      have hf := Option.some.inj h
      have h0 : ((vecScatterDims N E wf).start j idx 0 + ((vecScatterDims N E wf).window j 0 : Nat)).toNat
          = (i 0).val := congrArg Fin.val (congrFun hf 0)
      have hr0 := hr 0
      rw [hs, hw] at h0 hr0
      simp only [Nat.cast_zero, Int.add_zero] at h0 hr0
      omega
    · exact absurd h (by simp)
  · intro h
    have hall : ∀ a, 0 ≤ (vecScatterDims N E wf).start j idx a + ((vecScatterDims N E wf).window j a : Nat) ∧
        (vecScatterDims N E wf).start j idx a + ((vecScatterDims N E wf).window j a : Nat)
          < ((⟨1, ![N]⟩ : Shape).size a : Nat) := by
      intro a
      obtain rfl : a = 0 := Subsingleton.elim _ _
      rw [hs, hw, h]
      simp only [Nat.cast_zero, Int.add_zero]
      refine ⟨by omega, ?_⟩
      show ((i 0).val : Int) < (N : Int)
      omega
    unfold ScatterDims.resultIdx?
    rw [dif_pos hall]
    congr 1
    funext a
    obtain rfl : a = 0 := Subsingleton.elim _ _
    refine Fin.ext ?_
    show ((vecScatterDims N E wf).start j idx 0 + ((vecScatterDims N E wf).window j 0 : Nat)).toNat = (i 0).val
    rw [hs, hw, h]
    simp only [Nat.cast_zero, Int.add_zero, Int.toNat_natCast]

/-- Row scatter, axis 0: it is named by the map, so the window starts at the signed index read at `[e, 0]`. -/
theorem scatterRows_start0 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 0 = (idx (ix2 (j 0) 0)).toInt := by
  unfold ScatterDims.start
  rw [dif_pos (show (0 : Fin 2) ∈ (rowScatterDims N E D wf).scatterDimsToOperandDims from List.mem_singleton.mpr rfl)]
  have hsi : (rowScatterDims N E D wf).siIdx j
      ⟨List.idxOf (0 : Fin 2) (rowScatterDims N E D wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Row scatter, axis 0: it is inserted, so its window coordinate is zero. -/
theorem scatterRows_window0 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 0 = 0 := by
  unfold ScatterDims.window
  rw [dif_neg (show ¬ (0 : Fin 2) ∈ (rowScatterDims N E D wf).sKept from
    (show ¬ (0 : Fin 2) ∈ (List.finRange 2).filter (fun a => a ∉ ([0] : List (Fin 2))) by decide))]

/-- Row scatter, axis 1: the map does not name it, so the window starts at zero. -/
theorem scatterRows_start1 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 1 = 0 := by
  unfold ScatterDims.start
  rw [dif_neg (show ¬ (1 : Fin 2) ∈ (rowScatterDims N E D wf).scatterDimsToOperandDims from
    (show ¬ (1 : Fin 2) ∈ ([0] : List (Fin 2)) by decide))]

/-- Row scatter, axis 1: it is the one window axis, so its window coordinate is the update's column. -/
theorem scatterRows_window1 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 1 = (j 1).val := by
  unfold ScatterDims.window
  rw [dif_pos (show (1 : Fin 2) ∈ (rowScatterDims N E D wf).sKept from
    (show (1 : Fin 2) ∈ (List.finRange 2).filter (fun a => a ∉ ([0] : List (Fin 2))) by decide))]
  rfl

/-- Update `(e, c)` of a row scatter lands at `(n, c')` exactly when `idx[e, 0] = n` as a signed integer and `c = c'`. -/
theorem scatterRows_resultIdx_iff {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx) :
    (rowScatterDims N E D wf).resultIdx? j idx = some i
      ↔ (idx (ix2 (j 0) 0)).toInt = ((i 0).val : Int) ∧ j 1 = i 1 := by
  constructor
  · intro h
    obtain ⟨h0, h1⟩ := scatterRows_resultIdx wf idx j i h
    exact ⟨h0, Fin.ext h1⟩
  · rintro ⟨h0, h1⟩
    have hs0 := scatterRows_start0 wf idx j
    have hw0 := scatterRows_window0 wf j
    have hs1 := scatterRows_start1 wf idx j
    have hw1 := scatterRows_window1 wf j
    have hi0 : (i 0).val < N := idx2_lt0 i
    have hi1 : (i 1).val < D := idx2_lt1 i
    have h1v : (j 1).val = (i 1).val := congrArg Fin.val h1
    have hall : ∀ a, 0 ≤ (rowScatterDims N E D wf).start j idx a + ((rowScatterDims N E D wf).window j a : Nat) ∧
        (rowScatterDims N E D wf).start j idx a + ((rowScatterDims N E D wf).window j a : Nat)
          < ((⟨2, ![N, D]⟩ : Shape).size a : Nat) := by
      intro a
      match a with
      | ⟨0, _⟩ =>
        show 0 ≤ (rowScatterDims N E D wf).start j idx 0 + ((rowScatterDims N E D wf).window j 0 : Nat) ∧
          (rowScatterDims N E D wf).start j idx 0 + ((rowScatterDims N E D wf).window j 0 : Nat) < (N : Int)
        rw [hs0, hw0, h0]
        simp only [Nat.cast_zero, Int.add_zero]
        omega
      | ⟨1, _⟩ =>
        show 0 ≤ (rowScatterDims N E D wf).start j idx 1 + ((rowScatterDims N E D wf).window j 1 : Nat) ∧
          (rowScatterDims N E D wf).start j idx 1 + ((rowScatterDims N E D wf).window j 1 : Nat) < (D : Int)
        rw [hs1, hw1, h1v]
        simp only [Int.zero_add]
        omega
    unfold ScatterDims.resultIdx?
    rw [dif_pos hall]
    congr 1
    funext a
    refine Fin.ext ?_
    match a with
    | ⟨0, _⟩ =>
      show ((rowScatterDims N E D wf).start j idx 0 + ((rowScatterDims N E D wf).window j 0 : Nat)).toNat = (i 0).val
      rw [hs0, hw0, h0]
      simp only [Nat.cast_zero, Int.add_zero, Int.toNat_natCast]
    | ⟨1, _⟩ =>
      show ((rowScatterDims N E D wf).start j idx 1 + ((rowScatterDims N E D wf).window j 1 : Nat)).toNat = (i 1).val
      rw [hs1, hw1, h1v]
      simp only [Int.zero_add, Int.toNat_natCast]

/-- An element scatter-add at element `i`: the operand there plus the updates whose index word, read signed, is `i`. -/
theorem scatterAddVec_apply {N E : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ 32) (upd : (⟨1, ![E]⟩ : Shape).Idx → EReal) (i : Fin N) :
    Ideal.hostScatterAdd (vecScatterDims N E wf) x idx upd (ix1 i)
      = x (ix1 i) + ∑ e ∈ Finset.univ.filter (fun e : Fin E => (idx (ix2 e (0 : Fin 1))).toInt = (i.val : Int)), upd (ix1 e) := by
  show x (ix1 i) + ∑ j ∈ Finset.univ.filter
      (fun j => (vecScatterDims N E wf).resultIdx? j idx = some (ix1 i)), upd j = _
  congr 1
  -- the updates that land at element `i` are, through the coordinate, the `e` whose index word is `i`
  refine Finset.sum_nbij' (fun j => j 0) (fun e => ix1 e) ?_ ?_ ?_ ?_ ?_
  · intro j hj
    exact Finset.mem_filter.mpr ⟨Finset.mem_univ _,
      (scatterVec_resultIdx_iff wf idx j (ix1 i)).mp (Finset.mem_filter.mp hj).2⟩
  · intro e he
    exact Finset.mem_filter.mpr ⟨Finset.mem_univ _,
      (scatterVec_resultIdx_iff wf idx (ix1 e) (ix1 i)).mpr (Finset.mem_filter.mp he).2⟩
  · intro j _
    exact (eq_ix1 j).symm
  · intro e _
    rfl
  · intro j _
    exact congrArg upd (eq_ix1 j)

/-- A row scatter-add at `(i, q)`: the operand there plus column `q` of the update rows whose index word, read signed, is `i`. -/
theorem scatterAddRows_apply {N E D : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ 32) (upd : (⟨2, ![E, D]⟩ : Shape).Idx → EReal)
    (i : Fin N) (q : Fin D) :
    Ideal.hostScatterAdd (rowScatterDims N E D wf) x idx upd (ix2 i q)
      = x (ix2 i q) + ∑ e ∈ Finset.univ.filter (fun e : Fin E => (idx (ix2 e (0 : Fin 1))).toInt = (i.val : Int)), upd (ix2 e q) := by
  show x (ix2 i q) + ∑ j ∈ Finset.univ.filter
      (fun j => (rowScatterDims N E D wf).resultIdx? j idx = some (ix2 i q)), upd j = _
  congr 1
  -- an update that lands at `(i, q)` has column `q`, so it is `(e, q)` for a row `e` whose index word is `i`
  have hcol : ∀ j : (⟨2, ![E, D]⟩ : Shape).Idx,
      (rowScatterDims N E D wf).resultIdx? j idx = some (ix2 i q) → ix2 (j 0) q = j := by
    intro j hj
    have hq : j 1 = q := ((scatterRows_resultIdx_iff wf idx j (ix2 i q)).mp hj).2
    rw [← hq]
    exact (eq_ix2 j).symm
  refine Finset.sum_nbij' (fun j => j 0) (fun e => ix2 e q) ?_ ?_ ?_ ?_ ?_
  · intro j hj
    exact Finset.mem_filter.mpr ⟨Finset.mem_univ _,
      ((scatterRows_resultIdx_iff wf idx j (ix2 i q)).mp (Finset.mem_filter.mp hj).2).1⟩
  · intro e he
    exact Finset.mem_filter.mpr ⟨Finset.mem_univ _,
      (scatterRows_resultIdx_iff wf idx (ix2 e q) (ix2 i q)).mpr ⟨(Finset.mem_filter.mp he).2, rfl⟩⟩
  · intro j hj
    exact hcol j (Finset.mem_filter.mp hj).2
  · intro e _
    rfl
  · intro j hj
    exact congrArg upd (hcol j (Finset.mem_filter.mp hj).2).symm

/-- A filtered sum over `Fin (A + B)` splits at `A`. -/
theorem sum_filter_fin_add {M : Type*} [AddCommMonoid M] (A B : Nat) (p : Fin (A + B) → Prop) [DecidablePred p]
    (u : Fin (A + B) → M) :
    ∑ j ∈ Finset.univ.filter p, u j
      = ∑ a ∈ Finset.univ.filter (fun a : Fin A => p (Fin.castAdd B a)), u (Fin.castAdd B a)
        + ∑ b ∈ Finset.univ.filter (fun b : Fin B => p (Fin.natAdd A b)), u (Fin.natAdd A b) := by
  -- a filtered sum is the sum of the terms switched off where the predicate fails; that sum splits at the seam
  rw [Finset.sum_filter, Finset.sum_filter, Finset.sum_filter, Fin.sum_univ_add]

end Cert.Gcn

end
-- ==== Proof.KHost1a.lean ====
/-
  The degrees. The kernel program appends one self-loop per node to the destination row (an iota after the 1600000 edges) and
  scatter-adds a one per entry into zeros; the reference scatter-adds a one per edge and then adds one. Negative destinations
  wrap by the node count on both sides, destinations outside the array are dropped on both sides, and node i meets exactly
  one self-loop entry. So the two degree arrays, and their inverse square roots, are equal.
-/
import proofs.«420616_j28767690948628_3_alg».proof.Proof.KNames
import proofs.«420616_j28767690948628_3_alg».proof.Proof.Gen.ReferenceIdeal.Read
import proofs.«420616_j28767690948628_3_alg».proof.Proof.LibIndex
import proofs.«420616_j28767690948628_3_alg».proof.Proof.LibScatter
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.ShloMosaic.ValueIdx Idealize.SL.Sem
open Cert.Gcn
variable (m : (ℓ : Loc nD τ sig) → Buf (Elt Ideal) ℓ) (ρ : Dev nD → PrngReg) (c : Dev nD)

/-! ## Words -/

/-- A destination word, moved up by the node count when it is negative. -/
def h1a_wrapWord (v : BitVec 32) : BitVec 32 := Scalar.select (IntOp.cmpi .slt v 0#32) (IntOp.addi v 100000#32) v

/-- A node number, as a 32-bit word read signed, is itself. -/
theorem h1a_toInt_ofNat_node (j : Nat) (hj : j < 100000) : (BitVec.ofNat 32 j).toInt = (j : Int) := by
  rw [BitVec.toInt_eq_toNat_cond, BitVec.toNat_ofNat, Nat.mod_eq_of_lt (by omega)]
  rw [if_pos (by omega)]

/-- A nonnegative word is not moved. -/
theorem h1a_wrapWord_of_nonneg (v : BitVec 32) (h : 0 ≤ v.toInt) : h1a_wrapWord v = v := by
  unfold h1a_wrapWord
  have hc : IntOp.cmpi .slt v 0#32 = 0#1 := by
    refine eq_zero_of_ne_one fun h1 => ?_
    have h2 := IntOp.cmpi_slt.mp h1
    have h0 : (0#32 : BitVec 32).toInt = 0 := rfl
    omega
  rw [hc, select_zero]

/-! ## The count, split at the seam -/

/-- Of two index columns, the longer agreeing with the shorter on the first 1600000 entries and holding entry `j` at
    place `1600000 + j`: the entries of the longer that name node `n` are those of the shorter that do, and one more. -/
theorem h1a_count_split (idxK : IVec ⟨2, ![1700000, 1]⟩ 32) (idxR : IVec ⟨2, ![1600000, 1]⟩ 32) (z one : EReal)
    (hL : ∀ a : Fin 1600000, idxK (ix2 (Fin.castAdd 100000 a) (0 : Fin 1)) = idxR (ix2 a (0 : Fin 1)))
    (hR : ∀ b : Fin 100000, (idxK (ix2 (Fin.natAdd 1600000 b) (0 : Fin 1))).toInt = (b.val : Int)) (n : Fin 100000) :
    z + ∑ e ∈ Finset.univ.filter (fun e : Fin 1700000 => (idxK (ix2 e (0 : Fin 1))).toInt = (n.val : Int)), one
      = (z + ∑ a ∈ Finset.univ.filter (fun a : Fin 1600000 => (idxR (ix2 a (0 : Fin 1))).toInt = (n.val : Int)), one) + one := by
  have hs := sum_filter_fin_add (M := EReal) 1600000 100000
    (fun e : Fin (1600000 + 100000) => (idxK (ix2 e (0 : Fin 1))).toInt = (n.val : Int)) (fun _ => one)
  rw [add_assoc]
  refine congrArg (fun s => z + s) ?_
  refine hs.trans ?_
  refine congrArg₂ (fun s t => s + t) ?_ ?_
  · exact Finset.sum_congr (Finset.filter_congr fun a _ => by rw [hL a]) fun _ _ => rfl
  · -- the self-loop entries: entry `j` names node `j`, so exactly one of them names `n`
    have hn : Finset.univ.filter (fun b : Fin 100000 => (idxK (ix2 (Fin.natAdd 1600000 b) (0 : Fin 1))).toInt = (n.val : Int))
        = {n} := by
      ext b
      simp only [Finset.mem_filter, Finset.mem_univ, true_and, Finset.mem_singleton]
      rw [hR b]
      constructor
      · intro h; exact Fin.ext (by exact_mod_cast h)
      · rintro rfl; rfl
    rw [hn, Finset.sum_singleton]

/-! ## The kernel program's degree array as a function of the destination row -/

/-- The destination row extended by one entry per node: the 1600000 destinations, then `0, 1, …, 99999`. -/
def h1a_extDst (d : IVec S1600000 32) : IVec S1700000 32 :=
  concatenate S1700000 0 [⟨S1600000, d⟩, ⟨S100000, iotaInDim S100000 32 0⟩] Facts₀.concatenates_S1600000_S100000_S1700000_d0

/-- Every entry of a row of 1700000 words moved up by the node count when negative. -/
def h1a_wrapK (x : IVec S1700000 32) : IVec S1700000 32 :=
  select (cmpi .slt x (broadcastInDim S1700000 ![] Facts₀.bcast_S_S1700000 (constantI S_ 32 0#32)))
    (addi x (broadcastInDim S1700000 ![] Facts₀.bcast_S_S1700000 (constantI S_ 32 100000#32))) x

/-- The kernel program's index column: the wrapped extended row, one entry per row. -/
def h1a_colK (d : IVec S1600000 32) : IVec S1700000x1 32 :=
  broadcastInDim S1700000x1 ![0] Facts₀.bcast_S1700000_S1700000x1_0 (h1a_wrapK (h1a_extDst d))

/-- The operand of the kernel program's scatter: zeros. -/
def h1a_zerosK : FVec Ideal S100000 .f32 :=
  broadcastInDim S100000 ![] Facts₀.bcast_S_S100000 (constant (F := Ideal) S_ .f32 0x00000000#32)

/-- The updates of the kernel program's scatter: a one per entry. -/
def h1a_onesK : FVec Ideal S1700000 .f32 :=
  broadcastInDim S1700000 ![] Facts₀.bcast_S_S1700000 (constant (F := Ideal) S_ .f32 0x3F800000#32)

/-- The kernel program's degrees: a one scattered into zeros at each entry of the column. -/
def h1a_degK (d : IVec S1600000 32) : FVec Ideal S100000 .f32 :=
  Host.scatterAdd (F := Ideal) scatter_S100000_S1700000x1_S1700000_n_0_0_1 h1a_zerosK (h1a_colK d) h1a_onesK

/-- The array the second host stretch leaves as the inverse square-root degrees, over the destination row it reads. -/
theorem h1a_dinv_open : b3Dinv m ρ c = Host.rsqrt (F := Ideal) (h1a_degK (b2Dst m ρ c)) := by
  show StableHlo.after (hostOps1 (F := Ideal)) (W2 m ρ c) (Proc.devRef .tc main_v22) = _
  after_results_simp
  rw [StableHlo.nullary_result]
  rw [StableHlo.nullary_result_ne, StableHlo.binary_result_ne, StableHlo.nullary_result_ne]
  · rfl
  all_goals decide

/-! ## The destination row -/

/-- The destination row the second host stretch reads is the reference's: row 1 of the edge list, both sides by the same
    slice and reshape. The linear region between the two stretches does not write it. -/
theorem h1a_dst_eq : b2Dst m ρ c = Cert.ReferenceIdeal.Read.val_main_v3 (F := Ideal) (aEI m c) := by
  refine (W2_of_ne m ρ c main_v3 (by decide)).trans ?_
  show StableHlo.after (hostOps0 (F := Ideal)) (W0 m ρ c) (Proc.devRef .tc main_v3) = _
  after_results_simp
  rfl

/-! ## The kernel program's index column, entry by entry -/

/-- Entry `e` of the column is the wrapped entry `e` of the extended row. -/
theorem h1a_colK_apply (d : IVec S1600000 32) (e : Fin 1700000) :
    h1a_colK d (ix2 e (0 : Fin 1)) = h1a_wrapWord (h1a_extDst d (ix1 e)) := by
  unfold h1a_colK
  refine (broadcastInDim_apply _ Facts₀.bcast_S1700000_S1700000x1_0 (h1a_wrapK (h1a_extDst d)) (ix2 e (0 : Fin 1)) (ix1 e)
    (fun a => ?_)).trans rfl
  match a with
  | ⟨0, _⟩ => show e.val = if (1700000 : Nat) = 1 then 0 else e.val; rw [if_neg (by decide)]

/-- Before the seam the extended row is the destination row. -/
theorem h1a_extDst_left (d : IVec S1600000 32) (a : Fin 1600000) :
    h1a_extDst d (ix1 (Fin.castAdd 100000 a)) = d (ix1 a) := by
  unfold h1a_extDst
  exact concatenate_pair_apply_left (t := S1700000) (s₁ := S1600000) (s₂ := S100000) 0 d (iotaInDim S100000 32 0)
    Facts₀.concatenates_S1600000_S100000_S1700000_d0 (ix1 (Fin.castAdd 100000 a)) rfl (ix1 a)
    (fun b => match b with | ⟨0, _⟩ => rfl)

/-- After the seam, place `1600000 + j` of the extended row holds the word `j`. -/
theorem h1a_extDst_right (d : IVec S1600000 32) (b : Fin 100000) :
    h1a_extDst d (ix1 (Fin.natAdd 1600000 b)) = BitVec.ofNat 32 b.val := by
  unfold h1a_extDst
  refine (concatenate_pair_apply_right (t := S1700000) (s₁ := S1600000) (s₂ := S100000) 0 d (iotaInDim S100000 32 0)
    Facts₀.concatenates_S1600000_S100000_S1700000_d0 (ix1 (Fin.natAdd 1600000 b)) rfl rfl (ix1 b)
    (fun b' hb' => absurd (Fin.ext (by have h1 : b'.val < 1 := b'.isLt; show b'.val = 0; omega)) hb') ?_).trans rfl
  show b.val + 1600000 = 1600000 + b.val
  omega

/-! ## The two degree arrays at a node -/

/-- The printed dimension numbers of the kernel program's scatter are those of an element scatter. -/
theorem h1a_dimsK : scatter_S100000_S1700000x1_S1700000_n_0_0_1
      = vecScatterDims 100000 1700000 Facts₀.scatter_S100000_S1700000x1_S1700000_n_0_0_1_wf := rfl

/-- At the extended reals the kernel program's scatter is the exact accumulating scatter. -/
theorem h1a_degK_def (d : IVec S1600000 32) : h1a_degK d
    = Ideal.hostScatterAdd scatter_S100000_S1700000x1_S1700000_n_0_0_1 h1a_zerosK (h1a_colK d) h1a_onesK := rfl

/-- The scatter's operand holds the zero word at every node. -/
theorem h1a_zerosK_apply (n : Fin 100000) : h1a_zerosK (ix1 n) = FloatOps.ofBits (F := Ideal) .f32 0x00000000#32 := rfl

/-- The scatter's updates hold the word of one at every entry. -/
theorem h1a_onesK_apply (e : Fin 1700000) : h1a_onesK (ix1 e) = FloatOps.ofBits (F := Ideal) .f32 0x3F800000#32 := rfl

/-- The kernel program's degree of node `n`: zero plus a one per entry of its column that names `n`. -/
theorem h1a_degK_apply (d : IVec S1600000 32) (n : Fin 100000) :
    h1a_degK d (ix1 n) = FloatOps.ofBits (F := Ideal) .f32 0x00000000#32
      + ∑ e ∈ Finset.univ.filter (fun e : Fin 1700000 => (h1a_colK d (ix2 e (0 : Fin 1))).toInt = (n.val : Int)),
          FloatOps.ofBits (F := Ideal) .f32 0x3F800000#32 :=
  (congrFun (h1a_degK_def d) (ix1 n)).trans <|
    (congrArg (fun D => Ideal.hostScatterAdd D h1a_zerosK (h1a_colK d) h1a_onesK (ix1 n)) h1a_dimsK).trans <|
      (scatterAddVec_apply Facts₀.scatter_S100000_S1700000x1_S1700000_n_0_0_1_wf h1a_zerosK (h1a_colK d) h1a_onesK n).trans <|
        congrArg₂ (fun s t => s + t) (h1a_zerosK_apply n) (Finset.sum_congr rfl fun e _ => h1a_onesK_apply e)

/-- The printed dimension numbers of the reference's scatter are those of an element scatter. -/
theorem h1a_dimsR : Cert.ReferenceIdeal.scatter_S100000_S1600000x1_S1600000_n_0_0_1
      = vecScatterDims 100000 1600000 Cert.ReferenceIdeal.Facts₀.scatter_S100000_S1600000x1_S1600000_n_0_0_1_wf := rfl
/-- At the extended reals the reference's scatter is the exact accumulating scatter. -/
theorem h1a_degR_def (x1 : (⟨Cert.ReferenceIdeal.S2x1600000, .i32⟩ : BufTy).Contents (Elt Ideal)) :
    Cert.ReferenceIdeal.Read.val_main_v12 (F := Ideal) x1
      = Ideal.hostScatterAdd Cert.ReferenceIdeal.scatter_S100000_S1600000x1_S1600000_n_0_0_1
          (Cert.ReferenceIdeal.Read.val_main_v4 (F := Ideal)) (Cert.ReferenceIdeal.Read.val_main_v10 (F := Ideal) x1)
          (Cert.ReferenceIdeal.Read.val_main_v11 (F := Ideal)) := rfl
/-- The reference scatters into the zero word at every node. -/
theorem h1a_zerosR_apply (n : Fin 100000) :
    Cert.ReferenceIdeal.Read.val_main_v4 (F := Ideal) (ix1 n) = FloatOps.ofBits (F := Ideal) .f32 0x00000000#32 := rfl
/-- The reference's updates hold the word of one at every edge. -/
theorem h1a_onesR_apply (a : Fin 1600000) :
    Cert.ReferenceIdeal.Read.val_main_v11 (F := Ideal) (ix1 a) = FloatOps.ofBits (F := Ideal) .f32 0x3F800000#32 := rfl
/-- The array the reference adds after its scatter holds the word of one at every node. -/
theorem h1a_oneR_apply (n : Fin 100000) :
    Cert.ReferenceIdeal.Read.val_main_v13 (F := Ideal) (ix1 n) = FloatOps.ofBits (F := Ideal) .f32 0x3F800000#32 := rfl
/-- The reference's scattered count at node `n`: zero plus a one per edge whose wrapped destination is `n`. -/
theorem h1a_degR_apply (x1 : (⟨Cert.ReferenceIdeal.S2x1600000, .i32⟩ : BufTy).Contents (Elt Ideal)) (n : Fin 100000) :
    Cert.ReferenceIdeal.Read.val_main_v12 (F := Ideal) x1 (ix1 n) = FloatOps.ofBits (F := Ideal) .f32 0x00000000#32
      + ∑ a ∈ Finset.univ.filter (fun a : Fin 1600000 =>
            (Cert.ReferenceIdeal.Read.val_main_v10 (F := Ideal) x1 (ix2 a (0 : Fin 1))).toInt = (n.val : Int)),
          FloatOps.ofBits (F := Ideal) .f32 0x3F800000#32 :=
  (congrFun (h1a_degR_def x1) (ix1 n)).trans <|
    (congrArg (fun D => Ideal.hostScatterAdd D (Cert.ReferenceIdeal.Read.val_main_v4 (F := Ideal))
        (Cert.ReferenceIdeal.Read.val_main_v10 (F := Ideal) x1) (Cert.ReferenceIdeal.Read.val_main_v11 (F := Ideal)) (ix1 n)) h1a_dimsR).trans <|
      (scatterAddVec_apply Cert.ReferenceIdeal.Facts₀.scatter_S100000_S1600000x1_S1600000_n_0_0_1_wf
        (Cert.ReferenceIdeal.Read.val_main_v4 (F := Ideal)) (Cert.ReferenceIdeal.Read.val_main_v10 (F := Ideal) x1)
        (Cert.ReferenceIdeal.Read.val_main_v11 (F := Ideal)) n).trans <|
        congrArg₂ (fun s t => s + t) (h1a_zerosR_apply n) (Finset.sum_congr rfl fun a _ => h1a_onesR_apply a)
/-- The reference's wrap of a row, entry by entry. -/
theorem h1a_wrapR_apply (d : (⟨Cert.ReferenceIdeal.S1600000, .i32⟩ : BufTy).Contents (Elt Ideal)) (i : Cert.ReferenceIdeal.S1600000.Idx) :
    select (cmpi .slt d (Cert.ReferenceIdeal.Read.val_main_v5 (F := Ideal)))
      (addi d (Cert.ReferenceIdeal.Read.val_main_v7 (F := Ideal))) d i = h1a_wrapWord (d i) := rfl
/-- Entry `a` of the reference's index column is the wrapped destination `a`. -/
theorem h1a_colR_apply (x1 : (⟨Cert.ReferenceIdeal.S2x1600000, .i32⟩ : BufTy).Contents (Elt Ideal)) (a : Fin 1600000) :
    Cert.ReferenceIdeal.Read.val_main_v10 (F := Ideal) x1 (ix2 a (0 : Fin 1))
      = h1a_wrapWord (Cert.ReferenceIdeal.Read.val_main_v3 (F := Ideal) x1 (ix1 a)) :=
  have hi : Cert.ReferenceIdeal.Read.idx_main_v10 (ix2 a (0 : Fin 1)) = ix1 a :=
    funext fun b => match b with | ⟨0, _⟩ => rfl
  have h9 : Cert.ReferenceIdeal.Read.val_main_v9 (F := Ideal) x1
      = select (cmpi .slt (Cert.ReferenceIdeal.Read.val_main_v3 (F := Ideal) x1) (Cert.ReferenceIdeal.Read.val_main_v5 (F := Ideal)))
          (addi (Cert.ReferenceIdeal.Read.val_main_v3 (F := Ideal) x1) (Cert.ReferenceIdeal.Read.val_main_v7 (F := Ideal)))
          (Cert.ReferenceIdeal.Read.val_main_v3 (F := Ideal) x1) := rfl
  (Cert.ReferenceIdeal.Read.val_main_v10_apply x1 (ix2 a (0 : Fin 1))).trans <|
    (congrArg (Cert.ReferenceIdeal.Read.val_main_v9 (F := Ideal) x1) hi).trans <|
      (congrFun h9 (ix1 a)).trans (h1a_wrapR_apply (Cert.ReferenceIdeal.Read.val_main_v3 (F := Ideal) x1) (ix1 a))

/-! ## The two degrees agree -/

/-- Node by node the kernel program's degree is the reference's scattered count plus its added one. -/
theorem h1a_deg_eq (x1 : (⟨Cert.ReferenceIdeal.S2x1600000, .i32⟩ : BufTy).Contents (Elt Ideal)) (n : Fin 100000) :
    h1a_degK (Cert.ReferenceIdeal.Read.val_main_v3 (F := Ideal) x1) (ix1 n)
      = Cert.ReferenceIdeal.Read.val_main_v14 (F := Ideal) x1 (ix1 n) := by
  -- before the seam both columns wrap the same destination word
  have hL : ∀ a : Fin 1600000,
      h1a_colK (Cert.ReferenceIdeal.Read.val_main_v3 (F := Ideal) x1) (ix2 (Fin.castAdd 100000 a) (0 : Fin 1))
        = Cert.ReferenceIdeal.Read.val_main_v10 (F := Ideal) x1 (ix2 a (0 : Fin 1)) := fun a =>
    (h1a_colK_apply _ (Fin.castAdd 100000 a)).trans <|
      (congrArg h1a_wrapWord (h1a_extDst_left _ a)).trans (h1a_colR_apply x1 a).symm
  -- after the seam entry `j` is the word `j`: nonnegative, so not moved, and read signed it is `j`
  have hR : ∀ b : Fin 100000,
      (h1a_colK (Cert.ReferenceIdeal.Read.val_main_v3 (F := Ideal) x1) (ix2 (Fin.natAdd 1600000 b) (0 : Fin 1))).toInt
        = (b.val : Int) := fun b => by
    have hb := h1a_toInt_ofNat_node b.val b.isLt
    have hw : h1a_colK (Cert.ReferenceIdeal.Read.val_main_v3 (F := Ideal) x1) (ix2 (Fin.natAdd 1600000 b) (0 : Fin 1))
        = BitVec.ofNat 32 b.val :=
      (h1a_colK_apply _ (Fin.natAdd 1600000 b)).trans <|
        (congrArg h1a_wrapWord (h1a_extDst_right _ b)).trans (h1a_wrapWord_of_nonneg _ (by rw [hb]; omega))
    exact (congrArg BitVec.toInt hw).trans hb
  -- the reference adds its one after the scatter: the same sum of extended reals, grouped otherwise
  exact (h1a_degK_apply _ n).trans <|
    (h1a_count_split _ (Cert.ReferenceIdeal.Read.val_main_v10 (F := Ideal) x1)
      (FloatOps.ofBits (F := Ideal) .f32 0x00000000#32) (FloatOps.ofBits (F := Ideal) .f32 0x3F800000#32) hL hR n).trans <|
      (congrArg₂ (fun s t => s + t) (h1a_degR_apply x1 n) (h1a_oneR_apply n)).symm.trans
        (Cert.ReferenceIdeal.Read.val_main_v14_apply x1 (ix1 n)).symm

/-- The kernel program's inverse square-root degrees are the reference's. -/
theorem dinv_eq : b3Dinv m ρ c = Cert.ReferenceIdeal.Read.val_main_v15 (F := Ideal) (aEI m c) := by
  have h15 : Cert.ReferenceIdeal.Read.val_main_v15 (F := Ideal) (aEI m c)
      = Host.rsqrt (F := Ideal) (Cert.ReferenceIdeal.Read.val_main_v14 (F := Ideal) (aEI m c)) := rfl
  refine ((h1a_dinv_open m ρ c).trans ?_).trans h15.symm
  refine congrArg (Host.rsqrt (F := Ideal)) ((congrArg h1a_degK (h1a_dst_eq m ρ c)).trans ?_)
  funext i
  obtain ⟨n, rfl⟩ : ∃ n : Fin 100000, i = ix1 n := ⟨i 0, eq_ix1 i⟩
  exact h1a_deg_eq (aEI m c) n

end Cert.KernelIdeal.KV

end
-- ==== Proof.KHost1b.lean ====
/-
  The aggregate. The kernel program gathers h at the source row with the self-loops appended (a gather that fills a
  not-a-number where the wrapped index is outside [0, 100000): never, when every source is in range), scales each gathered row
  by the two endpoints' inverse square-root degrees and scatter-adds the rows at the destination row with the self-loops
  appended. The reference scatter-adds the 1600000 edge rows and adds the self-loop term h[i] * (dinv[i] * dinv[i]).
  The appended entry 1600000 + i is the only self-loop entry that lands on node i, and its row is that term.
-/
import proofs.«420616_j28767690948628_3_alg».proof.Proof.KNames
import proofs.«420616_j28767690948628_3_alg».proof.Proof.Gen.ReferenceIdeal.Read
import proofs.«420616_j28767690948628_3_alg».proof.Proof.LibIndex
import proofs.«420616_j28767690948628_3_alg».proof.Proof.LibScatter
import proofs.«420616_j28767690948628_3_alg».proof.Proof.KHost1a
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.StableHlo.Predicate

set_option maxRecDepth 16384

noncomputable section

namespace Cert.KernelIdeal.KV

open Cert.KernelIdeal Cert.KernelIdeal.Gen Idealize.ShloMosaic Idealize.ShloMosaic.TcCoe Idealize.ShloMosaic.ValueIdx Idealize.SL.Sem
open Cert.Gcn
variable (m : (ℓ : Loc nD τ sig) → Buf (Elt Ideal) ℓ) (ρ : Dev nD → PrngReg) (c : Dev nD)

/-! ## The kernel program's host terms, as functions of the arrays they read -/

/-- An index word, moved up by the node count when it is negative. -/
private def wrapW (w : BitVec 32) : BitVec 32 :=
  Scalar.select (IntOp.cmpi .slt w 0#32) (IntOp.addi w 100000#32) w

/-- The extended index list with each negative entry moved up by the node count. -/
private def wrapK (v : IVec S1700000 32) : IVec S1700000 32 :=
  select (cmpi .slt v (broadcastInDim S1700000 ![] Facts₀.bcast_S_S1700000 (constantI S_ 32 0#32)))
    (addi v (broadcastInDim S1700000 ![] Facts₀.bcast_S_S1700000 (constantI S_ 32 100000#32))) v

/-- An index list as a one-column array. -/
private def colK (v : IVec S1700000 32) : IVec S1700000x1 32 :=
  broadcastInDim S1700000x1 ![0] Facts₀.bcast_S1700000_S1700000x1_0 v

/-- The range test of the row gather: the wrapped index is at least 0 and at most 99999. -/
private def okK (es : IVec S1700000 32) : IVec S1700000 1 :=
  Host.reduce IntOp.andi
    (andi (cmpi .sge (colK (wrapK es)) (broadcastInDim S1700000x1 ![] Facts₀.bcast_S_S1700000x1 (constantI S_ 32 0#32)))
      (cmpi .sle (colK (wrapK es))
        (broadcastInDim S1700000x1 ![0, 1] Facts₀.bcast_S1x1_S1700000x1_0_1
          (broadcastInDim S1x1 ![1] Facts₀.bcast_S1_S1x1_1 (constantI S1 32 99999#32)))))
    (constantI S_ 1 1#1) Facts₀.reducesTo_S1700000x1_S1700000_d1 Facts₀.h_S_

/-- The gathered rows: row `e` is the row of `h` at the wrapped index where the range test holds, a not-a-number row
    elsewhere. -/
private def takeK (h : FVec Ideal S100000x64 .f32) (es : IVec S1700000 32) : FVec Ideal S1700000x64 .f32 :=
  select (broadcastInDim S1700000x64 ![0] Facts₀.bcast_S1700000_S1700000x64_0 (okK es))
    (Host.gather gather_S100000x64_S1700000x1_S1700000x64_1_0_n_n_0_1_164 h (colK (wrapK es)))
    (broadcastInDim S1700000x64 ![] Facts₀.bcast_S_S1700000x64 (constant (F := Ideal) S_ .f32 0x7FC00000#32))

/-- The coefficient of entry `e`: the inverse square-root degree at its wrapped source times that at its wrapped
    destination. -/
private def coefK (d : FVec Ideal S100000 .f32) (es ed : IVec S1700000 32) : FVec Ideal S1700000 .f32 :=
  mulf (Host.gather gather_S100000_S1700000x1_S1700000_n_0_n_n_0_1_1 d (colK (wrapK es)))
    (Host.gather gather_S100000_S1700000x1_S1700000_n_0_n_n_0_1_1 d (colK (wrapK ed)))

/-- The scaled rows scatter-added into zeros at the destination entries (not wrapped). -/
private def aggK (d : FVec Ideal S100000 .f32) (es ed : IVec S1700000 32) (g : FVec Ideal S1700000x64 .f32) :
    FVec Ideal S100000x64 .f32 :=
  Host.scatterAdd scatter_S100000x64_S1700000x1_S1700000x64_1_0_0_1
    (broadcastInDim S100000x64 ![] Facts₀.bcast_S_S100000x64 (constant (F := Ideal) S_ .f32 0x00000000#32))
    (colK ed)
    (mulf g (broadcastInDim S1700000x64 ![0, 1] Facts₀.bcast_S1700000x1_S1700000x64_0_1
      (broadcastInDim S1700000x1 ![0] Facts₀.bcast_S1700000_S1700000x1_0 (coefK d es ed))))

/-- An edge-list row followed by one self-loop entry per node. -/
private def extK (v : IVec S1600000 32) : IVec S1700000 32 :=
  concatenate S1700000 0 [⟨S1600000, v⟩, ⟨S100000, iotaInDim S100000 32 0⟩] Facts₀.concatenates_S1600000_S100000_S1700000_d0

/-! ## The three host stretches between the linear region and the sum region -/

section Stretches
open Idealize.ShloMosaic.StableHlo

/-- Contents moved to a buffer's own type and back are the contents. -/
private theorem ofBuf_toBuf {Val : EltTy → Type} {T : BufTy} (r : Ref sig .tc) (h h' : r.ty = T) (d d' u u')
    (v : T.Contents Val) : (⟨r, h, d, u⟩ : TRef sig T).ofBuf ((⟨r, h', d', u'⟩ : TRef sig T).toBuf v) = v := by
  subst h; rfl

set_option maxHeartbeats 4000000 in
private theorem after1_v10 (V : Valuation τ sig (Elt Ideal)) :
    StableHlo.after (hostOps1 (F := Ideal)) V (Proc.devRef .tc main_v10) = extK (V (Proc.devRef .tc main_v1)) := by
  after_results_simp
  repeat (first
    | rw [nullary_result]
    | (rw [nullary_result_ne]; rotate_left; decide)
    | (rw [binary_result_ne]; rotate_left; decide))
  rfl

set_option maxHeartbeats 4000000 in
private theorem after1_v12 (V : Valuation τ sig (Elt Ideal)) :
    StableHlo.after (hostOps1 (F := Ideal)) V (Proc.devRef .tc main_v12) = extK (V (Proc.devRef .tc main_v3)) := by
  after_results_simp
  repeat (first
    | rw [nullary_result]
    | (rw [nullary_result_ne]; rotate_left; decide)
    | (rw [binary_result_ne]; rotate_left; decide))
  rfl

set_option maxHeartbeats 4000000 in
private theorem after1_v8_0 (V : Valuation τ sig (Elt Ideal)) :
    StableHlo.after (hostOps1 (F := Ideal)) V (Proc.devRef .tc main_v8_0) = V (Proc.devRef .tc main_v8_0) := by
  after_results_simp

set_option maxHeartbeats 4000000 in
private theorem after11_v10 (V : Valuation τ sig (Elt Ideal)) :
    StableHlo.after (hostOps1_1 (F := Ideal)) V (Proc.devRef .tc main_v10) = V (Proc.devRef .tc main_v10) := by
  after_results_simp

set_option maxHeartbeats 4000000 in
private theorem after11_v12 (V : Valuation τ sig (Elt Ideal)) :
    StableHlo.after (hostOps1_1 (F := Ideal)) V (Proc.devRef .tc main_v12) = V (Proc.devRef .tc main_v12) := by
  after_results_simp

set_option maxHeartbeats 4000000 in
private theorem after11_v22 (V : Valuation τ sig (Elt Ideal)) :
    StableHlo.after (hostOps1_1 (F := Ideal)) V (Proc.devRef .tc main_v22) = V (Proc.devRef .tc main_v22) := by
  after_results_simp

set_option maxHeartbeats 4000000 in
private theorem after11_v23 (V : Valuation τ sig (Elt Ideal)) :
    StableHlo.after (hostOps1_1 (F := Ideal)) V (Proc.devRef .tc main_v23)
      = takeK (V (Proc.devRef .tc main_v8_0)) (V (Proc.devRef .tc main_v10)) := by
  after_results_simp
  simp only [ofBuf_toBuf]
  -- the two arrays the stretch reads and the one it is read at, at their literal types
  have e10 : ∀ p q r, (TRef.of main_v10 p q r : TRef sig ⟨S1700000, .i32⟩).ofBuf (V (Proc.devRef .tc main_v10))
      = V (Proc.devRef .tc main_v10) := fun _ _ _ => rfl
  have e80 : ∀ p q r, (TRef.of main_v8_0 p q r : TRef sig ⟨S100000x64, .f32⟩).ofBuf (V (Proc.devRef .tc main_v8_0))
      = V (Proc.devRef .tc main_v8_0) := fun _ _ _ => rfl
  have e23 : ∀ p q r (X : (⟨S1700000x64, .f32⟩ : BufTy).Contents (Elt Ideal)),
      (TRef.of main_v23 p q r : TRef sig ⟨S1700000x64, .f32⟩).toBuf X = X := fun _ _ _ _ => rfl
  rw [e23]
  simp only [e10, e80]
  unfold takeK okK colK wrapK
  rfl

set_option maxHeartbeats 4000000 in
private theorem after12_v44 (V : Valuation τ sig (Elt Ideal)) :
    StableHlo.after (hostOps1_2 (F := Ideal)) V (Proc.devRef .tc main_v44)
      = aggK (V (Proc.devRef .tc main_v22)) (V (Proc.devRef .tc main_v10)) (V (Proc.devRef .tc main_v12))
          (V (Proc.devRef .tc main_v23)) := by
  after_results_simp
  unfold aggK coefK colK wrapK
  rfl

/-- The aggregate as the host terms of the edge list's two rows, the linear region's first result and the
    inverse square-root degrees. -/
private theorem b5Agg_eq : b5Agg m ρ c
    = aggK (b3Dinv m ρ c) (extK (b2Src m ρ c)) (extK (b2Dst m ρ c)) (takeK (b2H m ρ c) (extK (b2Src m ρ c))) := by
  show StableHlo.after hostOps1_2 (W4 m ρ c) (Proc.devRef .tc main_v44) = _
  rw [after12_v44]
  have e22 : W4 m ρ c (Proc.devRef .tc main_v22) = b3Dinv m ρ c := after11_v22 (W3 m ρ c)
  have e10 : W4 m ρ c (Proc.devRef .tc main_v10) = extK (b2Src m ρ c) :=
    (after11_v10 (W3 m ρ c)).trans (after1_v10 (W2 m ρ c))
  have e12 : W4 m ρ c (Proc.devRef .tc main_v12) = extK (b2Dst m ρ c) :=
    (after11_v12 (W3 m ρ c)).trans (after1_v12 (W2 m ρ c))
  have e23 : W4 m ρ c (Proc.devRef .tc main_v23) = takeK (b2H m ρ c) (extK (b2Src m ρ c)) := by
    refine (after11_v23 (W3 m ρ c)).trans ?_
    have e80 : W3 m ρ c (Proc.devRef .tc main_v8_0) = b2H m ρ c := after1_v8_0 (W2 m ρ c)
    have e10' : W3 m ρ c (Proc.devRef .tc main_v10) = extK (b2Src m ρ c) := after1_v10 (W2 m ρ c)
    rw [e80, e10']
  rw [e22, e10, e12, e23]

end Stretches

/-! ## Reads at an index -/

section Reads
variable {α : Type}

/-- A vector as a one-column array, read at `(e, 0)`. -/
private theorem col_apply {n : Nat} (h : (⟨1, ![n]⟩ : Shape).BroadcastsInDim ⟨2, ![n, 1]⟩ ![0])
    (v : (⟨1, ![n]⟩ : Shape).Idx → α) (e : Fin n) (z : Fin 1) :
    broadcastInDim ⟨2, ![n, 1]⟩ ![0] h v (ix2 e z) = v (ix1 e) :=
  broadcastInDim_apply _ h v (ix2 e z) (ix1 e) (fun a => match a with
    | ⟨0, _⟩ => by
      show e.val = if n = 1 then 0 else e.val
      split
      · have := e.isLt; omega
      · rfl)

/-- A one-column array repeated along the columns, read at `(e, q)`. -/
private theorem cols_apply {n d : Nat} (h : (⟨2, ![n, 1]⟩ : Shape).BroadcastsInDim ⟨2, ![n, d]⟩ ![0, 1])
    (v : (⟨2, ![n, 1]⟩ : Shape).Idx → α) (e : Fin n) (q : Fin d) :
    broadcastInDim ⟨2, ![n, d]⟩ ![0, 1] h v (ix2 e q) = v (ix2 e 0) :=
  broadcastInDim_apply _ h v (ix2 e q) (ix2 e 0) (fun a => match a with
    | ⟨0, _⟩ => by
      show e.val = if n = 1 then 0 else e.val
      split
      · have := e.isLt; omega
      · rfl
    | ⟨1, _⟩ => by
      show (0 : Nat) = if (1 : Nat) = 1 then 0 else q.val
      rw [if_pos rfl])

/-- A vector repeated along the columns, read at `(e, q)`. -/
private theorem rows_apply {n d : Nat} (h : (⟨1, ![n]⟩ : Shape).BroadcastsInDim ⟨2, ![n, d]⟩ ![0])
    (v : (⟨1, ![n]⟩ : Shape).Idx → α) (e : Fin n) (q : Fin d) :
    broadcastInDim ⟨2, ![n, d]⟩ ![0] h v (ix2 e q) = v (ix1 e) :=
  broadcastInDim_apply _ h v (ix2 e q) (ix1 e) (fun a => match a with
    | ⟨0, _⟩ => by
      show e.val = if n = 1 then 0 else e.val
      split
      · have := e.isLt; omega
      · rfl)

end Reads

/-- The wrap at an entry is the wrap of the entry's word. -/
private theorem wrapK_apply (v : IVec S1700000 32) (e : Fin 1700000) : wrapK v (ix1 e) = wrapW (v (ix1 e)) := rfl

/-- The wrapped column at an entry. -/
private theorem colK_wrapK_apply (v : IVec S1700000 32) (e : Fin 1700000) (z : Fin 1) :
    colK (wrapK v) (ix2 e z) = wrapW (v (ix1 e)) := by
  unfold colK
  exact (col_apply _ _ e z).trans (wrapK_apply v e)

/-- A word that is not negative is its own wrap. -/
private theorem wrapW_of_nonneg {w : BitVec 32} (h : 0 ≤ w.toInt) : wrapW w = w := by
  unfold wrapW
  have hc : IntOp.cmpi .slt w 0#32 = 0#1 := by
    apply eq_zero_of_ne_one
    rw [IntOp.cmpi_slt]
    have h0 : (0#32 : BitVec 32).toInt = 0 := by decide
    omega
  rw [hc, select_zero]

/-- Edge `a` as an entry of the extended list. -/
private def eIx (a : Fin 1600000) : Fin 1700000 := ⟨a.val, by have := a.isLt; omega⟩

/-- Node `b`'s self-loop as an entry of the extended list. -/
private def lIx (b : Fin 100000) : Fin 1700000 := ⟨1600000 + b.val, by have := b.isLt; omega⟩

/-- The edge part of the extended list is the edge-list row. -/
private theorem extK_edge (v : IVec S1600000 32) (a : Fin 1600000) : extK v (ix1 (eIx a)) = v (ix1 a) := by
  unfold extK
  exact concatenate_pair_apply_left (0 : Fin S1700000.rank) v (iotaInDim S100000 32 0) _ _ rfl (ix1 a)
    (fun b => match b with | ⟨0, _⟩ => rfl)

/-- The self-loop part of the extended list counts the nodes. -/
private theorem extK_loop (v : IVec S1600000 32) (b : Fin 100000) : extK v (ix1 (lIx b)) = BitVec.ofNat 32 b.val := by
  unfold extK
  refine (concatenate_pair_apply_right (0 : Fin S1700000.rank) v (iotaInDim S100000 32 0) _ _ rfl rfl (ix1 b)
    (fun k hk => absurd (Fin.ext (by have h := k.isLt; change k.val < 1 at h; show k.val = 0; omega)) hk) ?_).trans rfl
  show b.val + 1600000 = 1600000 + b.val
  omega

/-! ## The take: with the wrapped index in range the range test holds and the row is read where the index says -/

section Take

/-- A fold over an index type with one element is one application. -/
private theorem fold_univ_of_eq_one {β : Type} {n : Nat} (hn : n = 1) (op : β → β → β) [Std.Commutative op]
    [Std.Associative op] (b : β) (f : Fin n → β) :
    (Finset.univ : Finset (Fin n)).fold op b f = op (f ⟨0, by omega⟩) b := by
  subst hn
  rw [show (Finset.univ : Finset (Fin 1)) = {0} from rfl, Finset.fold_singleton]
  rfl

/-- The range test at an entry whose wrapped index is in range. -/
private theorem okK_apply_of_range (es : IVec S1700000 32) (e : Fin 1700000)
    (h0 : 0 ≤ (wrapW (es (ix1 e))).toInt) (h1 : (wrapW (es (ix1 e))).toInt ≤ 99999) : okK es (ix1 e) = 1#1 := by
  unfold okK
  have hR : S1700000x1.Reduces [1] S1700000 := by decide
  rw [Host.reduce_eq_fold_single IntOp.andi _ _ Facts₀.reducesTo_S1700000x1_S1700000_d1 hR Facts₀.h_S_ (ix1 e)]
  -- the reduced axis has the one coordinate 0
  have hl : ∀ k : Fin (S1700000x1.size 1), hR.lift (ix1 e) k = ix2 e 0 := fun k => by
    funext a
    apply Fin.ext
    match a with
    | ⟨0, _⟩ => rfl
    | ⟨1, _⟩ =>
      have hk := k.isLt
      change k.val < 1 at hk
      show k.val = 0
      omega
  rw [fold_univ_of_eq_one (rfl : S1700000x1.size 1 = 1), Function.comp_apply, hl]
  refine IntOp.andi_eq_one.mpr ⟨IntOp.andi_eq_one.mpr ⟨?_, ?_⟩, rfl⟩
  · show IntOp.cmpi .sge (colK (wrapK es) (ix2 e 0)) 0#32 = 1#1
    rw [colK_wrapK_apply, IntOp.cmpi_sge]
    have hz : (0#32 : BitVec 32).toInt = 0 := by decide
    omega
  · show IntOp.cmpi .sle (colK (wrapK es) (ix2 e 0)) 99999#32 = 1#1
    rw [colK_wrapK_apply, IntOp.cmpi_sle]
    have hz : (99999#32 : BitVec 32).toInt = 99999 := by decide
    omega

/-- A gathered row at an entry whose wrapped index is in range. -/
private theorem takeK_apply_of_range (h : FVec Ideal S100000x64 .f32) (es : IVec S1700000 32) (e : Fin 1700000) (q : Fin 64)
    (h0 : 0 ≤ (wrapW (es (ix1 e))).toInt) (h1 : (wrapW (es (ix1 e))).toInt ≤ 99999) :
    takeK h es (ix2 e q) = h (ix2 (crow 100000 (by decide) (wrapW (es (ix1 e)))) q) := by
  unfold takeK
  rw [select_apply, rows_apply, okK_apply_of_range es e h0 h1, select_one]
  have hg : gather_S100000x64_S1700000x1_S1700000x64_1_0_n_n_0_1_164
      = rowGatherDims 100000 1700000 64 Facts₀.gather_S100000x64_S1700000x1_S1700000x64_1_0_n_n_0_1_164_wf := rfl
  rw [hg, gatherRows_apply (by decide : 0 < 100000)]
  show h (ix2 (crow 100000 _ (colK (wrapK es) (ix2 e 0))) q) = _
  rw [colK_wrapK_apply]

end Take

/-! ## The coefficient at an entry -/

section Coeff

private theorem coefK_apply (d : FVec Ideal S100000 .f32) (es ed : IVec S1700000 32) (e : Fin 1700000) :
    coefK d es ed (ix1 e)
      = d (ix1 (crow 100000 (by decide) (wrapW (es (ix1 e))))) * d (ix1 (crow 100000 (by decide) (wrapW (ed (ix1 e))))) := by
  unfold coefK
  have hg : gather_S100000_S1700000x1_S1700000_n_0_n_n_0_1_1
      = vecGatherDims 100000 1700000 Facts₀.gather_S100000_S1700000x1_S1700000_n_0_n_n_0_1_1_wf := rfl
  rw [mulf_apply, hg, gatherVec_apply (by decide : 0 < 100000), gatherVec_apply (by decide : 0 < 100000)]
  show d (ix1 (crow 100000 _ (colK (wrapK es) (ix2 e 0)))) * d (ix1 (crow 100000 _ (colK (wrapK ed) (ix2 e 0)))) = _
  rw [colK_wrapK_apply, colK_wrapK_apply]

end Coeff

/-! ## The two scatter-adds in filtered-sum form -/

section Scatter

/-- The kernel program's aggregate at `(n, q)`: the zero word plus, over the extended entries whose destination word
    reads `n`, the gathered row's column `q` times the entry's coefficient. -/
private theorem aggK_apply (d : FVec Ideal S100000 .f32) (es ed : IVec S1700000 32) (g : FVec Ideal S1700000x64 .f32)
    (n : Fin 100000) (q : Fin 64) :
    aggK d es ed g (ix2 n q)
      = Ideal.ofBits .f32 0x00000000#32
        + ∑ e ∈ Finset.univ.filter (fun e : Fin 1700000 => (ed (ix1 e)).toInt = (n.val : Int)),
            g (ix2 e q) * coefK d es ed (ix1 e) := by
  have hd : scatter_S100000x64_S1700000x1_S1700000x64_1_0_0_1
      = rowScatterDims 100000 1700000 64 Facts₀.scatter_S100000x64_S1700000x1_S1700000x64_1_0_0_1_wf := rfl
  have h1 : aggK d es ed g
      = Ideal.hostScatterAdd (rowScatterDims 100000 1700000 64 Facts₀.scatter_S100000x64_S1700000x1_S1700000x64_1_0_0_1_wf)
          (broadcastInDim S100000x64 ![] Facts₀.bcast_S_S100000x64 (constant (F := Ideal) S_ .f32 0x00000000#32))
          (colK ed)
          (mulf g (broadcastInDim S1700000x64 ![0, 1] Facts₀.bcast_S1700000x1_S1700000x64_0_1
            (broadcastInDim S1700000x1 ![0] Facts₀.bcast_S1700000_S1700000x1_0 (coefK d es ed)))) := by
    unfold aggK
    rw [hd]
    rfl
  refine (congrFun h1 (ix2 n q)).trans ((scatterAddRows_apply _ _ _ _ n q).trans ?_)
  refine congrArg₂ (· + ·) rfl (Finset.sum_congr (Finset.filter_congr fun e _ => ?_) fun e _ => ?_)
  · unfold colK
    rw [col_apply]
  · rw [mulf_apply, cols_apply, col_apply]

end Scatter

/-! ## The reference's terms at an index -/

section Reference
open Cert.ReferenceIdeal.Read

/-- The edge list's first row at an entry. -/
private theorem refSrc_apply (x1 : (⟨Cert.ReferenceIdeal.S2x1600000, .i32⟩ : BufTy).Contents (Elt Ideal)) (e : Fin 1600000) :
    val_main_v1 (F := Ideal) x1 (ix1 e) = x1 (ix2 (0 : Fin 2) e) := by
  rw [val_main_v1_apply, val_main_v0_apply]
  exact congrArg x1 (funext fun a => Fin.ext (by
    match a with
    | ⟨0, _⟩ => rfl
    | ⟨1, _⟩ => exact Nat.mod_eq_of_lt e.isLt))

/-- The edge list's second row at an entry. -/
private theorem refDst_apply (x1 : (⟨Cert.ReferenceIdeal.S2x1600000, .i32⟩ : BufTy).Contents (Elt Ideal)) (e : Fin 1600000) :
    val_main_v3 (F := Ideal) x1 (ix1 e) = x1 (ix2 (1 : Fin 2) e) := by
  rw [val_main_v3_apply, val_main_v2_apply]
  exact congrArg x1 (funext fun a => Fin.ext (by
    match a with
    | ⟨0, _⟩ => rfl
    | ⟨1, _⟩ => exact Nat.mod_eq_of_lt e.isLt))

/-- The reference's wrapped source column at an entry. -/
private theorem ref_v23_apply (x1 : (⟨Cert.ReferenceIdeal.S2x1600000, .i32⟩ : BufTy).Contents (Elt Ideal)) (e : Fin 1600000)
    (z : Fin 1) : val_main_v23 (F := Ideal) x1 (ix2 e z) = wrapW (val_main_v1 (F := Ideal) x1 (ix1 e)) := by
  unfold val_main_v23
  refine (col_apply _ _ e z).trans ?_
  rw [val_main_v22_apply, val_main_v19_apply, val_main_v21_apply, val_main_v18_apply, val_main_v20_apply,
    val_main_c_3_apply, val_main_c_4_apply]
  rfl

private theorem ref_v30_apply (x1 : (⟨Cert.ReferenceIdeal.S2x1600000, .i32⟩ : BufTy).Contents (Elt Ideal)) (e : Fin 1600000)
    (z : Fin 1) : val_main_v30 (F := Ideal) x1 (ix2 e z) = wrapW (val_main_v1 (F := Ideal) x1 (ix1 e)) := by
  unfold val_main_v30
  refine (col_apply _ _ e z).trans ?_
  rw [val_main_v29_apply, val_main_v26_apply, val_main_v28_apply, val_main_v25_apply, val_main_v27_apply,
    val_main_c_5_apply, val_main_c_6_apply]
  rfl

/-- The reference's wrapped destination column at an entry. -/
private theorem ref_v37_apply (x1 : (⟨Cert.ReferenceIdeal.S2x1600000, .i32⟩ : BufTy).Contents (Elt Ideal)) (e : Fin 1600000)
    (z : Fin 1) : val_main_v37 (F := Ideal) x1 (ix2 e z) = wrapW (val_main_v3 (F := Ideal) x1 (ix1 e)) := by
  unfold val_main_v37
  refine (col_apply _ _ e z).trans ?_
  rw [val_main_v36_apply, val_main_v33_apply, val_main_v35_apply, val_main_v32_apply, val_main_v34_apply,
    val_main_c_7_apply, val_main_c_8_apply]
  rfl

/-- The reference's scatter column (not wrapped) at an entry. -/
private theorem ref_v44_apply (x1 : (⟨Cert.ReferenceIdeal.S2x1600000, .i32⟩ : BufTy).Contents (Elt Ideal)) (e : Fin 1600000)
    (z : Fin 1) : val_main_v44 (F := Ideal) x1 (ix2 e z) = val_main_v3 (F := Ideal) x1 (ix1 e) := by
  unfold val_main_v44
  exact col_apply _ _ e z

/-- The reference's edge message at `(e, q)`: the row of `h` at the wrapped source times the two inverse square-root degrees. -/
private theorem ref_v42_apply (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S64x128, .f32⟩ : BufTy).Contents (Elt Ideal)) (e : Fin 1600000) (q : Fin 64) :
    val_main_v42 (F := Ideal) x0 x1 x2 (ix2 e q)
      = val_main_v17 (F := Ideal) x0 x2 (ix2 (crow 100000 (by decide) (wrapW (val_main_v1 (F := Ideal) x1 (ix1 e)))) q)
        * (val_main_v15 (F := Ideal) x1 (ix1 (crow 100000 (by decide) (wrapW (val_main_v1 (F := Ideal) x1 (ix1 e)))))
          * val_main_v15 (F := Ideal) x1 (ix1 (crow 100000 (by decide) (wrapW (val_main_v3 (F := Ideal) x1 (ix1 e)))))) := by
  have hg : Cert.ReferenceIdeal.gather_S100000x64_S1600000x1_S1600000x64_1_0_n_n_0_1_164
      = rowGatherDims 100000 1600000 64 Cert.ReferenceIdeal.Facts₀.gather_S100000x64_S1600000x1_S1600000x64_1_0_n_n_0_1_164_wf := rfl
  have hv : Cert.ReferenceIdeal.gather_S100000_S1600000x1_S1600000_n_0_n_n_0_1_1
      = vecGatherDims 100000 1600000 Cert.ReferenceIdeal.Facts₀.gather_S100000_S1600000x1_S1600000_n_0_n_n_0_1_1_wf := rfl
  have e24 : val_main_v24 (F := Ideal) x0 x1 x2 (ix2 e q)
      = val_main_v17 (F := Ideal) x0 x2 (ix2 (crow 100000 (by decide) (wrapW (val_main_v1 (F := Ideal) x1 (ix1 e)))) q) := by
    unfold val_main_v24
    rw [hg, gatherRows_apply (by decide : 0 < 100000)]
    show val_main_v17 (F := Ideal) x0 x2 (ix2 (crow 100000 _ (val_main_v23 (F := Ideal) x1 (ix2 e 0))) q) = _
    rw [ref_v23_apply]
  have e31 : val_main_v31 (F := Ideal) x1 (ix1 e)
      = val_main_v15 (F := Ideal) x1 (ix1 (crow 100000 (by decide) (wrapW (val_main_v1 (F := Ideal) x1 (ix1 e))))) := by
    unfold val_main_v31
    rw [hv, gatherVec_apply (by decide : 0 < 100000)]
    show val_main_v15 (F := Ideal) x1 (ix1 (crow 100000 _ (val_main_v30 (F := Ideal) x1 (ix2 e 0)))) = _
    rw [ref_v30_apply]
  have e38 : val_main_v38 (F := Ideal) x1 (ix1 e)
      = val_main_v15 (F := Ideal) x1 (ix1 (crow 100000 (by decide) (wrapW (val_main_v3 (F := Ideal) x1 (ix1 e))))) := by
    unfold val_main_v38
    rw [hv, gatherVec_apply (by decide : 0 < 100000)]
    show val_main_v15 (F := Ideal) x1 (ix1 (crow 100000 _ (val_main_v37 (F := Ideal) x1 (ix2 e 0)))) = _
    rw [ref_v37_apply]
  have e41 : val_main_v41 (F := Ideal) x1 (ix2 e q)
      = val_main_v31 (F := Ideal) x1 (ix1 e) * val_main_v38 (F := Ideal) x1 (ix1 e) := by
    unfold val_main_v41 val_main_v40
    rw [cols_apply, col_apply, val_main_v39_apply, Ideal.mulf_def]
  rw [val_main_v42_apply, e24, e41, e31, e38, Ideal.mulf_def]

/-- The reference's self-loop term at `(n, q)`. -/
private theorem ref_v49_apply (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S64x128, .f32⟩ : BufTy).Contents (Elt Ideal)) (n : Fin 100000) (q : Fin 64) :
    val_main_v49 (F := Ideal) x0 x1 x2 (ix2 n q)
      = val_main_v17 (F := Ideal) x0 x2 (ix2 n q)
        * (val_main_v15 (F := Ideal) x1 (ix1 n) * val_main_v15 (F := Ideal) x1 (ix1 n)) := by
  have e48 : val_main_v48 (F := Ideal) x1 (ix2 n q)
      = val_main_v15 (F := Ideal) x1 (ix1 n) * val_main_v15 (F := Ideal) x1 (ix1 n) := by
    unfold val_main_v48 val_main_v47
    rw [cols_apply, col_apply, val_main_v46_apply, Ideal.mulf_def]
  rw [val_main_v49_apply, e48, Ideal.mulf_def]

/-- The reference's scatter-add at `(n, q)`: the zero word plus, over the edges whose destination word reads `n`, the
    edge message's column `q`. -/
private theorem ref_v45_apply (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S64x128, .f32⟩ : BufTy).Contents (Elt Ideal)) (n : Fin 100000) (q : Fin 64) :
    val_main_v45 (F := Ideal) x0 x1 x2 (ix2 n q)
      = Ideal.ofBits .f32 0x00000000#32
        + ∑ e ∈ Finset.univ.filter (fun e : Fin 1600000 => (val_main_v3 (F := Ideal) x1 (ix1 e)).toInt = (n.val : Int)),
            val_main_v42 (F := Ideal) x0 x1 x2 (ix2 e q) := by
  have hd : Cert.ReferenceIdeal.scatter_S100000x64_S1600000x1_S1600000x64_1_0_0_1
      = rowScatterDims 100000 1600000 64 Cert.ReferenceIdeal.Facts₀.scatter_S100000x64_S1600000x1_S1600000x64_1_0_0_1_wf := rfl
  have h1 : val_main_v45 (F := Ideal) x0 x1 x2
      = Ideal.hostScatterAdd (rowScatterDims 100000 1600000 64 Cert.ReferenceIdeal.Facts₀.scatter_S100000x64_S1600000x1_S1600000x64_1_0_0_1_wf)
          (val_main_v43 (F := Ideal)) (val_main_v44 (F := Ideal) x1) (val_main_v42 (F := Ideal) x0 x1 x2) := by
    unfold val_main_v45
    rw [hd]
    rfl
  refine (congrFun h1 (ix2 n q)).trans ((scatterAddRows_apply _ _ _ _ n q).trans ?_)
  rw [val_main_v43_apply, val_main_cst_9_apply, Ideal.ofBits_def]
  refine congrArg (_ + ·) (Finset.sum_congr (Finset.filter_congr fun e _ => ?_) fun e _ => rfl)
  rw [ref_v44_apply]

end Reference

/-! ## The join: the kernel program's sum split at the seam, the edge part against the reference's scatter-add, the
    self-loop part against the reference's self-loop term -/

section Join
open Cert.ReferenceIdeal.Read

/-- A filtered sum over the extended entries is the edges' part plus the self-loops' part. -/
private theorem sum_split (p : Fin 1700000 → Prop) [DecidablePred p] (u : Fin 1700000 → EReal) :
    ∑ j ∈ Finset.univ.filter p, u j
      = ∑ a ∈ Finset.univ.filter (fun a : Fin 1600000 => p (eIx a)), u (eIx a)
        + ∑ b ∈ Finset.univ.filter (fun b : Fin 100000 => p (lIx b)), u (lIx b) :=
  sum_filter_fin_add 1600000 100000 p u

/-- A node number as a word reads the node number, signed. -/
private theorem toInt_ofNat_node (b : Fin 100000) : (BitVec.ofNat 32 b.val).toInt = (b.val : Int) :=
  StableHlo.Predicate.toInt_ofNat_small b.val (by have := b.isLt; omega)

/-- The clamp of a node number's word is the node. -/
private theorem crow_ofNat_node (b : Fin 100000) : crow 100000 (by decide) (wrapW (BitVec.ofNat 32 b.val)) = b := by
  have ht := toInt_ofNat_node b
  rw [wrapW_of_nonneg (by omega)]
  apply Fin.ext
  show min (BitVec.ofNat 32 b.val).toInt.toNat (100000 - 1) = b.val
  have := b.isLt
  omega

variable (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S64x128, .f32⟩ : BufTy).Contents (Elt Ideal))

/-- An edge's entry of the kernel program's messages is the reference's edge message. -/
private theorem edge_term
    (hsrc : ∀ e : Fin 1600000, 0 ≤ (x1 (ix2 (0 : Fin 2) e)).toInt ∧ (x1 (ix2 (0 : Fin 2) e)).toInt < 100000)
    (a : Fin 1600000) (q : Fin 64) :
    takeK (val_main_v17 (F := Ideal) x0 x2) (extK (val_main_v1 (F := Ideal) x1)) (ix2 (eIx a) q)
        * coefK (val_main_v15 (F := Ideal) x1) (extK (val_main_v1 (F := Ideal) x1)) (extK (val_main_v3 (F := Ideal) x1)) (ix1 (eIx a))
      = val_main_v42 (F := Ideal) x0 x1 x2 (ix2 a q) := by
  have hs : 0 ≤ (val_main_v1 (F := Ideal) x1 (ix1 a)).toInt ∧ (val_main_v1 (F := Ideal) x1 (ix1 a)).toInt < 100000 := by
    rw [refSrc_apply]; exact hsrc a
  have hw : wrapW (val_main_v1 (F := Ideal) x1 (ix1 a)) = val_main_v1 (F := Ideal) x1 (ix1 a) := wrapW_of_nonneg hs.1
  have h0 : 0 ≤ (wrapW (extK (val_main_v1 (F := Ideal) x1) (ix1 (eIx a)))).toInt := by
    rw [extK_edge, hw]; exact hs.1
  have h1 : (wrapW (extK (val_main_v1 (F := Ideal) x1) (ix1 (eIx a)))).toInt ≤ 99999 := by
    rw [extK_edge, hw]; have := hs.2; omega
  rw [takeK_apply_of_range _ _ _ _ h0 h1, coefK_apply, extK_edge, extK_edge, ref_v42_apply]

/-- Node `n`'s self-loop entry of the kernel program's messages is the reference's self-loop term. -/
private theorem loop_term (n : Fin 100000) (q : Fin 64) :
    takeK (val_main_v17 (F := Ideal) x0 x2) (extK (val_main_v1 (F := Ideal) x1)) (ix2 (lIx n) q)
        * coefK (val_main_v15 (F := Ideal) x1) (extK (val_main_v1 (F := Ideal) x1)) (extK (val_main_v3 (F := Ideal) x1)) (ix1 (lIx n))
      = val_main_v49 (F := Ideal) x0 x1 x2 (ix2 n q) := by
  have ht := toInt_ofNat_node n
  have hw : wrapW (BitVec.ofNat 32 n.val) = BitVec.ofNat 32 n.val := wrapW_of_nonneg (by omega)
  have h0 : 0 ≤ (wrapW (extK (val_main_v1 (F := Ideal) x1) (ix1 (lIx n)))).toInt := by
    rw [extK_loop, hw]; omega
  have h1 : (wrapW (extK (val_main_v1 (F := Ideal) x1) (ix1 (lIx n)))).toInt ≤ 99999 := by
    rw [extK_loop, hw]; have := n.isLt; omega
  rw [takeK_apply_of_range _ _ _ _ h0 h1, coefK_apply, extK_loop, extK_loop, crow_ofNat_node, ref_v49_apply]

/-- The two aggregates at `(n, q)`, over the reference's own terms. -/
private theorem agg_pure
    (hsrc : ∀ e : Fin 1600000, 0 ≤ (x1 (ix2 (0 : Fin 2) e)).toInt ∧ (x1 (ix2 (0 : Fin 2) e)).toInt < 100000)
    (n : Fin 100000) (q : Fin 64) :
    aggK (val_main_v15 (F := Ideal) x1) (extK (val_main_v1 (F := Ideal) x1)) (extK (val_main_v3 (F := Ideal) x1))
        (takeK (val_main_v17 (F := Ideal) x0 x2) (extK (val_main_v1 (F := Ideal) x1))) (ix2 n q)
      = val_main_v50 (F := Ideal) x0 x1 x2 (ix2 n q) := by
  rw [aggK_apply, sum_split, val_main_v50_apply, Ideal.addf_def, ref_v45_apply, ← add_assoc]
  refine congrArg₂ (· + ·) (congrArg (_ + ·) ?_) ?_
  · -- the edges: the same destinations, the same messages
    refine Finset.sum_congr (Finset.filter_congr fun a _ => ?_) fun a _ => edge_term x0 x1 x2 hsrc a q
    rw [extK_edge]
  · -- the self-loops: entry 1600000 + b lands on node b, so only b = n is kept
    have hf : (Finset.univ.filter fun b : Fin 100000 =>
        (extK (val_main_v3 (F := Ideal) x1) (ix1 (lIx b))).toInt = (n.val : Int)) = {n} := by
      ext b
      rw [Finset.mem_filter, Finset.mem_singleton, extK_loop, toInt_ofNat_node]
      constructor
      · intro h; exact Fin.ext (by have := h.2; omega)
      · intro h; subst h; exact ⟨Finset.mem_univ _, rfl⟩
    rw [hf, Finset.sum_singleton]
    exact loop_term x0 x1 x2 n q

end Join

/-! ## The statement -/

section Final
open Cert.ReferenceIdeal.Read Idealize.ShloMosaic.StableHlo

set_option maxHeartbeats 4000000 in
private theorem after0_v1 (V : Valuation τ sig (Elt Ideal)) :
    StableHlo.after (hostOps0 (F := Ideal)) V (Proc.devRef .tc main_v1)
      = val_main_v1 (F := Ideal) (V (Proc.devRef .tc main_arg1)) := by
  after_results_simp
  rfl

set_option maxHeartbeats 4000000 in
private theorem after0_v3 (V : Valuation τ sig (Elt Ideal)) :
    StableHlo.after (hostOps0 (F := Ideal)) V (Proc.devRef .tc main_v3)
      = val_main_v3 (F := Ideal) (V (Proc.devRef .tc main_arg1)) := by
  after_results_simp
  rfl

/-- The kernel program's source row is the reference's. -/
private theorem b2Src_eq : b2Src m ρ c = val_main_v1 (F := Ideal) (aEI m c) := by
  show W2 m ρ c (Proc.devRef .tc main_v1) = _
  rw [W2_of_ne m ρ c main_v1 (by decide)]
  exact after0_v1 (W0 m ρ c)

/-- The kernel program's destination row is the reference's. -/
private theorem b2Dst_eq : b2Dst m ρ c = val_main_v3 (F := Ideal) (aEI m c) := by
  show W2 m ρ c (Proc.devRef .tc main_v3) = _
  rw [W2_of_ne m ρ c main_v3 (by decide)]
  exact after0_v3 (W0 m ρ c)

end Final

/-- With every source index in range, the kernel program's aggregate is the reference's aggregate before the bias. -/
theorem agg_eq (hH : b2H m ρ c = Cert.ReferenceIdeal.Read.val_main_v17 (F := Ideal) (aX m c) (aW m c))
    (hsrc : ∀ e : Fin 1600000, 0 ≤ (aEI m c (ix2 (0 : Fin 2) e)).toInt ∧ (aEI m c (ix2 (0 : Fin 2) e)).toInt < 100000) :
    b5Agg m ρ c = Cert.ReferenceIdeal.Read.val_main_v50 (F := Ideal) (aX m c) (aEI m c) (aW m c) := by
  funext i
  obtain ⟨n, q, rfl⟩ : ∃ (n : Fin 100000) (q : Fin 64), i = ix2 n q := ⟨i 0, i 1, eq_ix2 i⟩
  rw [b5Agg_eq, hH, dinv_eq, b2Src_eq, b2Dst_eq]
  exact agg_pure (aX m c) (aEI m c) (aW m c) hsrc n q

end Cert.KernelIdeal.KV

end
-- ==== Proof.PreDecode.lean ====
/-
  What the precondition says of the launched arrays: every entry of the seven float arrays is a real number, and every source
  index (row 0 of the edge list) lies in [0, 100000).
-/
import proofs.«420616_j28767690948628_3_alg».proof.Proof.KNames
import proofs.«420616_j28767690948628_3_alg».proof.Defs
import Idealize.ShloMosaic.Lib.ReduceAll
import Idealize.ShloMosaic.Lib.StableHlo.Predicate
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The rank-0 shape has exactly one index. -/
private instance subsingleton_idx0 : Subsingleton (⟨0, ![]⟩ : Shape).Idx := ⟨fun a b => funext fun d => d.elim0⟩

/-- A bit made from a Boolean is 1 exactly when the Boolean is true. -/
private theorem ofBool_eq_one {b : Bool} : BitVec.ofBool b = 1#1 ↔ b = true := by cases b <;> decide

/-- An extended real whose absolute value `max x (-x)` compares below `+∞` is a real number: `⊥` and `⊤` both have
    absolute value `⊤`. -/
private theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  rw [ofBool_eq_one] at h
  have hlt : max (x : EReal) (-(x : EReal)) < ⊤ := of_decide_eq_true h
  induction x using EReal.rec with
  | bot => simp at hlt
  | coe r => exact ⟨r, rfl⟩
  | top => simp at hlt

/-- The reduction by `and`, over all axes, of the `i1` array `|x| < +∞` being 1 says every entry of `x` is a real number. -/
private theorem all_real {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (h : Host.reduce IntOp.andi
          (cmpf .olt (Host.absf x) (broadcastInDim s ![] hb (constant (F := Ideal) (⟨0, ![]⟩ : Shape) .f32 0x7F800000#32)))
          (constantI (⟨0, ![]⟩ : Shape) 1 1#1) hr hu ix0 = 1#1) :
    ∀ i, ∃ r : ℝ, x i = (r : EReal) :=
  fun i => real_of_abs_lt_inf (x i) (Host.reduce_andi_all _ _ hr hu ix0 h i)

/-- A conjunction of two rank-0 `i1` arrays is 1 exactly when both are. -/
private theorem andi_ix0 {a b : IVec (⟨0, ![]⟩ : Shape) 1} (h : andi a b ix0 = 1#1) : a ix0 = 1#1 ∧ b ix0 = 1#1 :=
  IntOp.andi_eq_one.1 h

/-- Row 0 of a `[2, n]` array, sliced out and reshaped to `[n]`, read at `e` is the array at `(0, e)`: the reshape keeps
    the row-major position `0 · n + e = e`, the slice adds the offsets `(0, 0)`. -/
private theorem row0_read (x : IVec (⟨2, ![2, 1600000]⟩ : Shape) 32)
    (hs : (⟨2, ![2, 1600000]⟩ : Shape).Slices ![0, 0] (⟨2, ![1, 1600000]⟩ : Shape))
    (hc : (⟨2, ![1, 1600000]⟩ : Shape).ShapeCasts (⟨1, ![1600000]⟩ : Shape)) (e : Fin 1600000) :
    shapeCast (⟨1, ![1600000]⟩ : Shape) (extractStridedSlice (⟨2, ![1, 1600000]⟩ : Shape) ![0, 0] x hs) hc (ix1 e)
      = x (ix2 (0 : Fin 2) e) := by
  refine (shapeCast_apply _ hc (ix1 e) (ix2 (0 : Fin 1) e) ?_).trans ?_
  · rewrite [Shape.rowMajor_val_two, Shape.rowMajor_val_one]
    show 0 * 1600000 + e.val = e.val
    omega
  · exact extractStridedSlice_apply ![0, 0] x hs (ix2 (0 : Fin 1) e) (ix2 (0 : Fin 2) e) (fun a => match a with
      | ⟨0, _⟩ => by show (0 : Nat) = 0 + 0; rfl
      | ⟨1, _⟩ => by show e.val = 0 + e.val; omega)

/-- The precondition, read entry by entry. -/
theorem pre_decode [Cert.Pre_finite_inputs.Facts] (hpre : Cert.Pre_KernelIdeal m) :
    (∀ i, ∃ r : ℝ, aX m c i = (r : EReal)) ∧ (∀ i, ∃ r : ℝ, aW m c i = (r : EReal)) ∧ (∀ i, ∃ r : ℝ, aB m c i = (r : EReal))
    ∧ (∀ i, ∃ r : ℝ, aGam m c i = (r : EReal)) ∧ (∀ i, ∃ r : ℝ, aBet m c i = (r : EReal)) ∧ (∀ i, ∃ r : ℝ, aWr m c i = (r : EReal))
    ∧ (∀ i, ∃ r : ℝ, aBr m c i = (r : EReal))
    ∧ (∀ e : Fin 1600000, 0 ≤ (aEI m c (ix2 (0 : Fin 2) e)).toInt ∧ (aEI m c (ix2 (0 : Fin 2) e)).toInt < 100000) := by
  -- the precondition's one word, at the one index of the rank-0 result
  have h := congrFun (hpre c) ValueIdx.ix0
  unfold Cert.Pre_finite_inputs.fn Cert.Pre_finite_inputs.fn_part1 Cert.Pre_finite_inputs.fn_part2 at h
  dsimp only at h
  -- the conjunction of the eight all-axes reductions, split from the outside in
  obtain ⟨h, hEI⟩ := andi_ix0 h
  obtain ⟨h, hBr⟩ := andi_ix0 h
  obtain ⟨h, hWr⟩ := andi_ix0 h
  obtain ⟨h, hBet⟩ := andi_ix0 h
  obtain ⟨h, hGam⟩ := andi_ix0 h
  obtain ⟨h, hB⟩ := andi_ix0 h
  obtain ⟨hX, hW⟩ := andi_ix0 h
  refine ⟨all_real _ _ _ _ hX, all_real _ _ _ _ hW, all_real _ _ _ _ hB, all_real _ _ _ _ hGam, all_real _ _ _ _ hBet,
    all_real _ _ _ _ hWr, all_real _ _ _ _ hBr, fun e => ?_⟩
  -- the last reduction's operand at edge `e`: both comparisons hold of the source index
  obtain ⟨hge, hlt⟩ := IntOp.andi_eq_one.1 (Host.reduce_andi_all _ _ _ _ ix0 hEI (ix1 e))
  have hge' := IntOp.cmpi_sge.1 hge
  have hlt' := IntOp.cmpi_slt.1 hlt
  rw [row0_read] at hge' hlt'
  exact ⟨hge', hlt'⟩

end Cert.KernelIdeal.KV

end
-- ==== Proof.RefReal.lean ====
/-
  The reference's aggregate before the bias is finite when x and W are: every degree is a count plus one, a real number at
  least one, so its inverse square root is a positive real; h is a finite sum of products of reals; each edge row is a product
  of three reals, and an entry of the aggregate is a finite sum of such entries plus one more product.
-/
import proofs.«420616_j28767690948628_3_alg».proof.Proof.Gen.ReferenceIdeal.Read
import proofs.«420616_j28767690948628_3_alg».proof.Proof.LibIndex
import proofs.«420616_j28767690948628_3_alg».proof.Proof.LibScatter

set_option maxRecDepth 16384

noncomputable section

namespace Cert.ReferenceIdeal.RV

open Cert.ReferenceIdeal Cert.ReferenceIdeal.Gen Cert.ReferenceIdeal.Read Idealize.ShloMosaic Idealize.ShloMosaic.TcCoe Idealize.ShloMosaic.ValueIdx Cert.Gcn

/-! ## Real and nonnegative-real extended reals -/

/-- An extended real that is a real number. -/
def IsR (x : EReal) : Prop := ∃ r : ℝ, x = (r : EReal)

/-- An extended real that is a nonnegative real number. -/
def IsNN (x : EReal) : Prop := ∃ r : ℝ, 0 ≤ r ∧ x = (r : EReal)

theorem IsR.zero : IsR 0 := ⟨0, rfl⟩

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

/-- A finite sum of reals is a real. -/
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

theorem IsNN.zero : IsNN 0 := ⟨0, le_refl 0, rfl⟩

theorem IsNN.one : IsNN 1 := ⟨1, zero_le_one, rfl⟩

theorem IsNN.add {x y : EReal} (hx : IsNN x) (hy : IsNN y) : IsNN (x + y) := by
  obtain ⟨a, ha, rfl⟩ := hx
  obtain ⟨b, hb, rfl⟩ := hy
  exact ⟨a + b, add_nonneg ha hb, (EReal.coe_add a b).symm⟩

/-- A finite sum of nonnegative reals is a nonnegative real. -/
theorem IsNN.sum {ι : Type*} (s : Finset ι) (f : ι → EReal) (h : ∀ i ∈ s, IsNN (f i)) : IsNN (∑ i ∈ s, f i) := by
  classical
  induction s using Finset.induction_on with
  | empty => rw [Finset.sum_empty]; exact IsNN.zero
  | insert a s ha ih =>
    rw [Finset.sum_insert ha]
    exact (h a (Finset.mem_insert_self a s)).add (ih fun i hi => h i (Finset.mem_insert_of_mem hi))

/-! ## The constants -/

/-- The pattern of `1.0` denotes the real one. -/
theorem ofBits_one : Ideal.ofBits .f32 0x3F800000#32 = 1 := by
  simp [Ideal.ofBits, Ideal.ieee, -EReal.coe_mul]; norm_num

/-- The zero vector the degree count starts from. -/
theorem v4_read (i : S100000.Idx) : val_main_v4 (F := Ideal) i = (0 : EReal) := by
  rw [val_main_v4_apply, val_main_cst_apply, Ideal.ofBits_def, Ideal.ofBits_zero_f32]

/-- The vector of ones the degree count adds, one per edge. -/
theorem v11_read (i : S1600000.Idx) : val_main_v11 (F := Ideal) i = (1 : EReal) := by
  rw [val_main_v11_apply, val_main_cst_1_apply, Ideal.ofBits_def, ofBits_one]

/-- The vector of ones for the self loops. -/
theorem v13_read (i : S100000.Idx) : val_main_v13 (F := Ideal) i = (1 : EReal) := by
  rw [val_main_v13_apply, val_main_cst_2_apply, Ideal.ofBits_def, ofBits_one]

/-- The zero array the aggregate starts from. -/
theorem v43_read (i : S100000x64.Idx) : val_main_v43 (F := Ideal) i = (0 : EReal) := by
  rw [val_main_v43_apply, val_main_cst_9_apply, Ideal.ofBits_def, Ideal.ofBits_zero_f32]

/-! ## h = x Wᵀ -/

/-- Every entry of h is a finite sum of products of reals. -/
theorem h_real (x0 : FVec Ideal S100000x128 .f32) (x2 : FVec Ideal S64x128 .f32)
    (h0 : ∀ i, IsR (x0 i)) (h2 : ∀ i, IsR (x2 i)) (i : S100000x64.Idx) :
    IsR (val_main_v17 (F := Ideal) x0 x2 i) := by
  rw [val_main_v17_apply]
  refine IsR.sum _ _ fun k _ => (h0 _).mul ?_
  rw [val_main_v16_apply]
  exact h2 _

/-! ## The degree and its inverse square root -/

/-- The printed record of the degree scatter is the element scatter's dimension numbers. -/
theorem dims12 : scatter_S100000_S1600000x1_S1600000_n_0_0_1
    = vecScatterDims 100000 1600000 scatter_S100000_S1600000x1_S1600000_n_0_0_1.wf := rfl

/-- The degree count is the exact scatter-add of ones onto zeros. -/
theorem v12_eq (x1 : IVec S2x1600000 32) :
    val_main_v12 (F := Ideal) x1
      = Ideal.hostScatterAdd (vecScatterDims 100000 1600000 scatter_S100000_S1600000x1_S1600000_n_0_0_1.wf)
          (val_main_v4 (F := Ideal)) (val_main_v10 (F := Ideal) x1) (val_main_v11 (F := Ideal)) :=
  (rfl : val_main_v12 (F := Ideal) x1
      = Ideal.hostScatterAdd scatter_S100000_S1600000x1_S1600000_n_0_0_1 (val_main_v4 (F := Ideal))
          (val_main_v10 (F := Ideal) x1) (val_main_v11 (F := Ideal))).trans
    (congrArg (fun d => Ideal.hostScatterAdd d (val_main_v4 (F := Ideal)) (val_main_v10 (F := Ideal) x1)
      (val_main_v11 (F := Ideal))) dims12)

/-- The degree count at node n: zero plus one for every edge whose destination word is n. -/
theorem v12_read (x1 : IVec S2x1600000 32) (n : Fin 100000) :
    val_main_v12 (F := Ideal) x1 (ix1 n)
      = val_main_v4 (F := Ideal) (ix1 n)
        + ∑ e ∈ Finset.univ.filter (fun e : Fin 1600000 =>
            (val_main_v10 (F := Ideal) x1 (ix2 e (0 : Fin 1))).toInt = (n.val : Int)), val_main_v11 (F := Ideal) (ix1 e) :=
  (congrFun (v12_eq x1) (ix1 n)).trans
    (scatterAddVec_apply scatter_S100000_S1600000x1_S1600000_n_0_0_1.wf (val_main_v4 (F := Ideal))
      (val_main_v10 (F := Ideal) x1) (val_main_v11 (F := Ideal)) n)

/-- The degree count is a nonnegative real: a finite sum of ones. -/
theorem v12_nn (x1 : IVec S2x1600000 32) (n : S100000.Idx) : IsNN (val_main_v12 (F := Ideal) x1 n) := by
  have key : ∀ m : Fin 100000, IsNN (val_main_v12 (F := Ideal) x1 (ix1 m)) := by
    intro m
    rw [v12_read, v4_read]
    refine IsNN.zero.add (IsNN.sum _ _ fun e _ => ?_)
    rw [v11_read]
    exact IsNN.one
  rw [eq_ix1 n]
  exact key (n 0)

/-- The degree with its self loop is a positive real. -/
theorem deg_pos (x1 : IVec S2x1600000 32) (n : S100000.Idx) :
    ∃ r : ℝ, 0 < r ∧ val_main_v14 (F := Ideal) x1 n = (r : EReal) := by
  obtain ⟨a, ha, e⟩ := v12_nn x1 n
  rw [val_main_v14_apply, Ideal.addf_def, v13_read, e]
  exact ⟨a + 1, by linarith, (EReal.coe_add a 1).symm⟩

/-- The inverse square root of a positive real is a real. -/
theorem dinv_real (x1 : IVec S2x1600000 32) (n : S100000.Idx) : IsR (val_main_v15 (F := Ideal) x1 n) := by
  obtain ⟨r, hr, e⟩ := deg_pos x1 n
  rw [val_main_v15_apply, Ideal.hostUnary_rsqrt_def, e, Ideal.rsqrt_coe, if_neg (not_lt.mpr hr.le), if_neg hr.ne']
  exact ⟨_, rfl⟩

/-! ## The edge rows -/

theorem pos_nodes : 0 < 100000 := by omega

/-- The printed record of the two element gathers is the element gather's dimension numbers. -/
theorem dimsG1 : gather_S100000_S1600000x1_S1600000_n_0_n_n_0_1_1
    = vecGatherDims 100000 1600000 gather_S100000_S1600000x1_S1600000_n_0_n_n_0_1_1.wf := rfl

/-- An element gather of an array whose entries are all real is real at every index: it is the array at some index. -/
theorem gatherVec_real (x : (⟨1, ![100000]⟩ : Shape).Idx → EReal) (idx : IVec ⟨2, ![1600000, 1]⟩ 32)
    (hx : ∀ n, IsR (x n)) (e : (⟨1, ![1600000]⟩ : Shape).Idx) :
    IsR (Host.gather gather_S100000_S1600000x1_S1600000_n_0_n_n_0_1_1 x idx e) := by
  have hg : Host.gather gather_S100000_S1600000x1_S1600000_n_0_n_n_0_1_1 x idx e
      = x (ix1 (crow 100000 pos_nodes (idx (ix2 (e 0) 0)))) :=
    (congrFun (congrArg (fun d => Host.gather d x idx) dimsG1) e).trans
      (gatherVec_apply pos_nodes gather_S100000_S1600000x1_S1600000_n_0_n_n_0_1_1.wf x idx e)
  exact hg ▸ hx _

/-- dinv gathered at the sources is dinv at some node. -/
theorem v31_real (x1 : IVec S2x1600000 32) (e : S1600000.Idx) : IsR (val_main_v31 (F := Ideal) x1 e) :=
  gatherVec_real (val_main_v15 (F := Ideal) x1) (val_main_v30 (F := Ideal) x1) (dinv_real x1) e

/-- dinv gathered at the destinations is dinv at some node. -/
theorem v38_real (x1 : IVec S2x1600000 32) (e : S1600000.Idx) : IsR (val_main_v38 (F := Ideal) x1 e) :=
  gatherVec_real (val_main_v15 (F := Ideal) x1) (val_main_v37 (F := Ideal) x1) (dinv_real x1) e

/-- The printed record of the row gather is the row gather's dimension numbers. -/
theorem dimsG2 : gather_S100000x64_S1600000x1_S1600000x64_1_0_n_n_0_1_164
    = rowGatherDims 100000 1600000 64 gather_S100000x64_S1600000x1_S1600000x64_1_0_n_n_0_1_164.wf := rfl

/-- A row gather of an array whose entries are all real is real at every index: it is the array at some index. -/
theorem gatherRows_real (x : (⟨2, ![100000, 64]⟩ : Shape).Idx → EReal) (idx : IVec ⟨2, ![1600000, 1]⟩ 32)
    (hx : ∀ n, IsR (x n)) (j : (⟨2, ![1600000, 64]⟩ : Shape).Idx) :
    IsR (Host.gather gather_S100000x64_S1600000x1_S1600000x64_1_0_n_n_0_1_164 x idx j) := by
  have hg : Host.gather gather_S100000x64_S1600000x1_S1600000x64_1_0_n_n_0_1_164 x idx j
      = x (ix2 (crow 100000 pos_nodes (idx (ix2 (j 0) 0))) (j 1)) :=
    (congrFun (congrArg (fun d => Host.gather d x idx) dimsG2) j).trans
      (gatherRows_apply pos_nodes gather_S100000x64_S1600000x1_S1600000x64_1_0_n_n_0_1_164.wf x idx j)
  exact hg ▸ hx _

/-- An entry of an edge row is h at the source row times the two gathered inverse square roots. -/
theorem v42_real (x0 : FVec Ideal S100000x128 .f32) (x1 : IVec S2x1600000 32) (x2 : FVec Ideal S64x128 .f32)
    (h0 : ∀ i, IsR (x0 i)) (h2 : ∀ i, IsR (x2 i)) (j : S1600000x64.Idx) :
    IsR (val_main_v42 (F := Ideal) x0 x1 x2 j) := by
  rw [val_main_v42_apply, Ideal.mulf_def]
  refine IsR.mul ?_ ?_
  · exact gatherRows_real (val_main_v17 (F := Ideal) x0 x2) (val_main_v23 (F := Ideal) x1) (h_real x0 x2 h0 h2) j
  · rw [val_main_v41_apply, val_main_v40_apply, val_main_v39_apply, Ideal.mulf_def]
    exact (v31_real x1 _).mul (v38_real x1 _)

/-! ## The aggregate -/

/-- The printed record of the aggregate's scatter is the row scatter's dimension numbers. -/
theorem dims45 : scatter_S100000x64_S1600000x1_S1600000x64_1_0_0_1
    = rowScatterDims 100000 1600000 64 scatter_S100000x64_S1600000x1_S1600000x64_1_0_0_1.wf := rfl

/-- The scattered sum is the exact scatter-add of the edge rows onto zeros. -/
theorem v45_eq (x0 : FVec Ideal S100000x128 .f32) (x1 : IVec S2x1600000 32) (x2 : FVec Ideal S64x128 .f32) :
    val_main_v45 (F := Ideal) x0 x1 x2
      = Ideal.hostScatterAdd (rowScatterDims 100000 1600000 64 scatter_S100000x64_S1600000x1_S1600000x64_1_0_0_1.wf)
          (val_main_v43 (F := Ideal)) (val_main_v44 (F := Ideal) x1) (val_main_v42 (F := Ideal) x0 x1 x2) :=
  (rfl : val_main_v45 (F := Ideal) x0 x1 x2
      = Ideal.hostScatterAdd scatter_S100000x64_S1600000x1_S1600000x64_1_0_0_1 (val_main_v43 (F := Ideal))
          (val_main_v44 (F := Ideal) x1) (val_main_v42 (F := Ideal) x0 x1 x2)).trans
    (congrArg (fun d => Ideal.hostScatterAdd d (val_main_v43 (F := Ideal)) (val_main_v44 (F := Ideal) x1)
      (val_main_v42 (F := Ideal) x0 x1 x2)) dims45)

/-- The scattered sum at (n, q): zero plus column q of the edge rows whose destination word is n. -/
theorem v45_read (x0 : FVec Ideal S100000x128 .f32) (x1 : IVec S2x1600000 32) (x2 : FVec Ideal S64x128 .f32)
    (n : Fin 100000) (q : Fin 64) :
    val_main_v45 (F := Ideal) x0 x1 x2 (ix2 n q)
      = val_main_v43 (F := Ideal) (ix2 n q)
        + ∑ e ∈ Finset.univ.filter (fun e : Fin 1600000 =>
            (val_main_v44 (F := Ideal) x1 (ix2 e (0 : Fin 1))).toInt = (n.val : Int)),
            val_main_v42 (F := Ideal) x0 x1 x2 (ix2 e q) :=
  (congrFun (v45_eq x0 x1 x2) (ix2 n q)).trans
    (scatterAddRows_apply scatter_S100000x64_S1600000x1_S1600000x64_1_0_0_1.wf (val_main_v43 (F := Ideal))
      (val_main_v44 (F := Ideal) x1) (val_main_v42 (F := Ideal) x0 x1 x2) n q)

/-- The scattered sum is a finite sum of reals. -/
theorem v45_real (x0 : FVec Ideal S100000x128 .f32) (x1 : IVec S2x1600000 32) (x2 : FVec Ideal S64x128 .f32)
    (h0 : ∀ i, IsR (x0 i)) (h2 : ∀ i, IsR (x2 i)) (i : S100000x64.Idx) :
    IsR (val_main_v45 (F := Ideal) x0 x1 x2 i) := by
  have key : ∀ (n : Fin 100000) (q : Fin 64), IsR (val_main_v45 (F := Ideal) x0 x1 x2 (ix2 n q)) := by
    intro n q
    rw [v45_read, v43_read]
    exact IsR.zero.add (IsR.sum _ _ fun e _ => v42_real x0 x1 x2 h0 h2 _)
  rw [eq_ix2 i]
  exact key (i 0) (i 1)

/-- The self-loop term: h times the square of the inverse square root of the degree. -/
theorem v49_real (x0 : FVec Ideal S100000x128 .f32) (x1 : IVec S2x1600000 32) (x2 : FVec Ideal S64x128 .f32)
    (h0 : ∀ i, IsR (x0 i)) (h2 : ∀ i, IsR (x2 i)) (i : S100000x64.Idx) :
    IsR (val_main_v49 (F := Ideal) x0 x1 x2 i) := by
  rw [val_main_v49_apply, Ideal.mulf_def, val_main_v48_apply, val_main_v47_apply, val_main_v46_apply, Ideal.mulf_def]
  exact (h_real x0 x2 h0 h2 i).mul ((dinv_real x1 _).mul (dinv_real x1 _))

/-- Every entry of the reference's aggregate (before the bias) is a real number when every entry of x and of W is. -/
theorem agg_real (x0 : FVec Ideal S100000x128 .f32) (x1 : IVec S2x1600000 32) (x2 : FVec Ideal S64x128 .f32)
    (h0 : ∀ i, ∃ r : ℝ, x0 i = (r : EReal)) (h2 : ∀ i, ∃ r : ℝ, x2 i = (r : EReal)) (i : S100000x64.Idx) :
    ∃ r : ℝ, val_main_v50 (F := Ideal) x0 x1 x2 i = (r : EReal) := by
  rw [val_main_v50_apply, Ideal.addf_def]
  exact (v45_real x0 x1 x2 h0 h2 i).add (v49_real x0 x1 x2 h0 h2 i)

end Cert.ReferenceIdeal.RV

end
-- ==== Proof.RealAlg.lean ====
/-
  The two real-number identities behind the BatchNorm statistics, on the extended reals at finite entries.

  The kernel takes the column mean of the aggregate WITHOUT the bias and adds the bias afterwards; the reference takes the
  mean of the aggregate WITH the bias: (∑ aᵢ)/n + β = (∑ (aᵢ + β))/n. The kernel's variance is over aᵢ − μ, clamped below
  at zero; the reference's over (aᵢ + β) − (μ + β), unclamped: the deviations are the same and a mean of squares is not negative.
  Both need every entry finite: on the extended reals a sum may not be moved across an infinite factor.
-/
import Idealize.ShloMosaic.PureOps.Ideal
import Mathlib.Data.Real.Basic
import Mathlib.Algebra.BigOperators.Fin
import Mathlib.Algebra.Order.BigOperators.Ring.Finset
import Mathlib.Tactic.Ring
import Mathlib.Tactic.Positivity
import Mathlib.Tactic.FieldSimp
import Mathlib.Tactic.NormNum

noncomputable section

namespace Cert.Gcn

open Idealize.ShloMosaic

/-- The word of `0.0` denotes zero. -/
theorem ofBits_zero : Ideal.ofBits .f32 0x00000000#32 = 0 := by
  simp [Ideal.ofBits, Ideal.ieee]

/-- The word of `100000.0` denotes the real number 100000. -/
theorem ofBits_1e5 : Ideal.ofBits .f32 0x47C35000#32 = ((100000 : ℝ) : EReal) := by
  simp [Ideal.ofBits, Ideal.ieee, -EReal.coe_mul]; norm_num

/-- A finite sum of reals, taken on the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The mean of finitely many reals is a real. -/
theorem div_sum_real (a : Fin 100000 → ℝ) :
    Ideal.div (∑ i, ((a i : ℝ) : EReal)) ((100000 : ℝ) : EReal) = (((∑ i, a i) * (1 / 100000) : ℝ) : EReal) := by
  rw [coe_sum, Ideal.div_coe (by norm_num : (100000 : ℝ) ≠ 0), ← EReal.coe_mul]

/-- The mean of `aᵢ + β` over 100000 entries is the mean of `aᵢ` plus `β`. -/
theorem mean_shift (a : Fin 100000 → ℝ) (β : ℝ) :
    Ideal.div (∑ i, ((a i : ℝ) : EReal)) ((100000 : ℝ) : EReal) + (β : EReal)
      = Ideal.div (0 + ∑ i, (((a i : ℝ) : EReal) + (β : EReal))) ((100000 : ℝ) : EReal) := by
  have hN : (100000 : ℝ) ≠ 0 := by norm_num
  have h2 : ∀ i, (((a i : ℝ) : EReal) + (β : EReal)) = (((a i + β : ℝ)) : EReal) := fun i => (EReal.coe_add _ _).symm
  simp only [h2, coe_sum, zero_add, Ideal.div_coe hN, ← EReal.coe_mul, ← EReal.coe_add]
  congr 1
  rw [Finset.sum_add_distrib, Finset.sum_const, Finset.card_univ, Fintype.card_fin]
  simp only [nsmul_eq_mul]
  push_cast
  field_simp

/-- The clamped mean of the squared deviations `aᵢ − μ` is the mean of the squared deviations `(aᵢ + β) − (μ + β)`. -/
theorem var_shift (a : Fin 100000 → ℝ) (μ β : ℝ) :
    max (Ideal.div (∑ i, (((a i : ℝ) : EReal) - (μ : EReal)) * (((a i : ℝ) : EReal) - (μ : EReal))) ((100000 : ℝ) : EReal)) 0
      = Ideal.div (0 + ∑ i, ((((a i : ℝ) : EReal) + (β : EReal)) - ((μ : EReal) + (β : EReal)))
            * ((((a i : ℝ) : EReal) + (β : EReal)) - ((μ : EReal) + (β : EReal)))) ((100000 : ℝ) : EReal) := by
  have hN : (100000 : ℝ) ≠ 0 := by norm_num
  have h1 : ∀ i, (((a i : ℝ) : EReal) - (μ : EReal)) * (((a i : ℝ) : EReal) - (μ : EReal)) = (((a i - μ) * (a i - μ) : ℝ) : EReal) :=
    fun i => by rw [← EReal.coe_sub, ← EReal.coe_mul]
  have h2 : ∀ i, ((((a i : ℝ) : EReal) + (β : EReal)) - ((μ : EReal) + (β : EReal)))
      * ((((a i : ℝ) : EReal) + (β : EReal)) - ((μ : EReal) + (β : EReal))) = (((a i - μ) * (a i - μ) : ℝ) : EReal) :=
    fun i => by rw [← EReal.coe_add, ← EReal.coe_add, ← EReal.coe_sub, ← EReal.coe_mul]; congr 1; ring
  simp only [h1, h2, coe_sum, zero_add, Ideal.div_coe hN, ← EReal.coe_mul]
  refine max_eq_left ?_
  have : (0 : ℝ) ≤ (∑ i, (a i - μ) * (a i - μ)) * (1 / 100000) :=
    mul_nonneg (Finset.sum_nonneg fun i _ => mul_self_nonneg _) (by norm_num)
  exact_mod_cast this

end Cert.Gcn

end
-- ==== Proof.Bridge.lean ====
/-
  The kernel program's result array is the reference's result stage, entry by entry.

  The chain: the linear region's h and residual are the reference's two projections (the stacked weight's rows 0 … 63 are W,
  rows 64 … 127 are Wr; the stacked bias is zero, then br); the aggregate before the bias is the reference's (the gather and
  scatter stretch, under the source-index range); the kernel's mean is the column mean of that aggregate plus the bias, the
  reference's the column mean of the aggregate with the bias added — equal at finite entries; the kernel's variance is the
  clamped mean of the squared deviations of the aggregate without the bias, the reference's the mean of the squared
  deviations with it — the bias cancels in each deviation and a mean of squares is not negative; after that the two
  epilogues are the same expression of equal quantities.
-/
import proofs.«420616_j28767690948628_3_alg».proof.Proof.KNames
import proofs.«420616_j28767690948628_3_alg».proof.Proof.KReg0
import proofs.«420616_j28767690948628_3_alg».proof.Proof.KReg12
import proofs.«420616_j28767690948628_3_alg».proof.Proof.KReg3
import proofs.«420616_j28767690948628_3_alg».proof.Proof.KHost0
import proofs.«420616_j28767690948628_3_alg».proof.Proof.KHost1a
import proofs.«420616_j28767690948628_3_alg».proof.Proof.KHost1b
import proofs.«420616_j28767690948628_3_alg».proof.Proof.PreDecode
import proofs.«420616_j28767690948628_3_alg».proof.Proof.RefReal
import proofs.«420616_j28767690948628_3_alg».proof.Proof.RealAlg
import proofs.«420616_j28767690948628_3_alg».proof.Proof.Gen.ReferenceIdeal.Read

set_option maxRecDepth 16384

noncomputable section

namespace Cert.KernelIdeal.KV

open Cert.KernelIdeal Cert.KernelIdeal.Gen Idealize.ShloMosaic Idealize.ShloMosaic.TcCoe Idealize.ShloMosaic.ValueIdx Idealize.SL.Sem
open Cert.Gcn Cert.ReferenceIdeal.Read

variable (m : (ℓ : Loc nD τ sig) → Buf (Elt Ideal) ℓ) (ρ : Dev nD → PrngReg) (c : Dev nD)

/-! ## The reference's index maps at coordinates -/

theorem lidx17 (i : Fin 100000) (q : Fin 64) (k : Fin 128) : lidx_main_v17 (ix2 i q) k = ix2 i k := by
  funext a; match a with
  | ⟨0, _⟩ => rfl
  | ⟨1, _⟩ => rfl
theorem ridx17 (i : Fin 100000) (q : Fin 64) (k : Fin 128) : idx_main_v16 (ridx_main_v17 (ix2 i q) k) = ix2 q k := by
  funext a; match a with
  | ⟨0, _⟩ => rfl
  | ⟨1, _⟩ => rfl
theorem lidx81 (i : Fin 100000) (q : Fin 64) (k : Fin 128) : lidx_main_v81 (ix2 i q) k = ix2 i k := by
  funext a; match a with
  | ⟨0, _⟩ => rfl
  | ⟨1, _⟩ => rfl
theorem ridx81 (i : Fin 100000) (q : Fin 64) (k : Fin 128) : idx_main_v80 (ridx_main_v81 (ix2 i q) k) = ix2 q k := by
  funext a; match a with
  | ⟨0, _⟩ => rfl
  | ⟨1, _⟩ => rfl

/-! ## The two projections -/

/-- h is the reference's x · Wᵀ. -/
theorem h_eq : b2H m ρ c = val_main_v17 (F := Ideal) (aX m c) (aW m c) := by
  funext j
  obtain ⟨i, q, rfl⟩ : ∃ (i : Fin 100000) (q : Fin 64), j = ix2 i q := ⟨j 0, j 1, eq_ix2 j⟩
  rw [reg0_h, h0_bcat_lo, ofBits_zero, add_zero, val_main_v17_apply]
  refine Finset.sum_congr rfl fun k _ => ?_
  rw [h0_x, h0_wcat_lo, val_main_v16_apply, lidx17, ridx17]

/-- The residual is the reference's x · Wrᵀ + br. -/
theorem resid_eq : b2R m ρ c = val_main_v84 (F := Ideal) (aX m c) (aWr m c) (aBr m c) := by
  funext j
  obtain ⟨i, q, rfl⟩ : ∃ (i : Fin 100000) (q : Fin 64), j = ix2 i q := ⟨j 0, j 1, eq_ix2 j⟩
  rw [reg0_resid, h0_bcat_hi, val_main_v84_apply, val_main_v81_apply, val_main_v83_apply, val_main_v82_apply]
  show _ = (∑ k : Fin 128, _) + _
  congr 1
  · refine Finset.sum_congr rfl fun k _ => ?_
    rw [h0_x, h0_wcat_hi, val_main_v80_apply, lidx81, ridx81]
  · congr 1
    funext a; match a with
    | ⟨0, _⟩ => rfl

/-! ## The reference's later stages at coordinates -/

section Ref

local notation "X" => aX m c
local notation "EI" => aEI m c
local notation "Wm" => aW m c
local notation "Bv" => aB m c
local notation "Gv" => aGam m c
local notation "Tv" => aBet m c

theorem ref52_at (i : Fin 100000) (q : Fin 64) : val_main_v52 (F := Ideal) Bv (ix2 i q) = Bv (ix1 q) := by
  rw [val_main_v52_apply, val_main_v51_apply]
  refine congrArg Bv ?_
  funext a; match a with
  | ⟨0, _⟩ => rfl

theorem ref68_at (i : Fin 100000) (q : Fin 64) : val_main_v68 (F := Ideal) Gv (ix2 i q) = Gv (ix1 q) := by
  rw [val_main_v68_apply, val_main_v67_apply]
  refine congrArg Gv ?_
  funext a; match a with
  | ⟨0, _⟩ => rfl

theorem ref77_at (i : Fin 100000) (q : Fin 64) : val_main_v77 (F := Ideal) Tv (ix2 i q) = Tv (ix1 q) := by
  rw [val_main_v77_apply, val_main_v76_apply]
  refine congrArg Tv ?_
  funext a; match a with
  | ⟨0, _⟩ => rfl

theorem ref53_at (k : Fin 100000) (q : Fin 64) :
    val_main_v53 (F := Ideal) X EI Wm Bv (ix2 k q) = val_main_v50 (F := Ideal) X EI Wm (ix2 k q) + Bv (ix1 q) := by
  rw [val_main_v53_apply, ref52_at, Ideal.addf_def]

theorem idx54_at (q : Fin 64) (k : Fin 100000) : idx_main_v54 (ix1 q) k = ix2 k q := by
  funext a; match a with
  | ⟨0, _⟩ => rfl
  | ⟨1, _⟩ => rfl

theorem idx61_at (q : Fin 64) (k : Fin 100000) : idx_main_v61 (ix1 q) k = ix2 k q := by
  funext a; match a with
  | ⟨0, _⟩ => rfl
  | ⟨1, _⟩ => rfl

/-- The reference's mean at column q. -/
theorem ref56_at (q : Fin 64) :
    val_main_v56 (F := Ideal) X EI Wm Bv (ix1 q)
      = Ideal.div (Ideal.ofBits .f32 0x00000000#32 + ∑ k : Fin 100000, (val_main_v50 (F := Ideal) X EI Wm (ix2 k q) + Bv (ix1 q)))
          (Ideal.ofBits .f32 0x47C35000#32) := by
  have hs : ∀ k : Fin 100000, (val_main_v53 (F := Ideal) X EI Wm Bv) (idx_main_v54 (ix1 q) k)
      = val_main_v50 (F := Ideal) X EI Wm (ix2 k q) + Bv (ix1 q) := fun k => by rw [idx54_at, ref53_at]
  rw [val_main_v56_apply, val_main_v54_apply, val_main_v55_apply, Finset.sum_congr rfl (fun k _ => hs k),
    val_main_cst_10_apply, val_main_cst_11_apply, Ideal.hostDivf_def, Ideal.ofBits_def, Ideal.ofBits_def]

theorem ref58_at (i : Fin 100000) (q : Fin 64) :
    val_main_v58 (F := Ideal) X EI Wm Bv (ix2 i q) = val_main_v56 (F := Ideal) X EI Wm Bv (ix1 q) := by
  rw [val_main_v58_apply, val_main_v57_apply]
  refine congrArg (val_main_v56 (F := Ideal) X EI Wm Bv) ?_
  funext a; match a with
  | ⟨0, _⟩ => rfl

theorem ref65_at (i : Fin 100000) (q : Fin 64) :
    val_main_v65 (F := Ideal) X EI Wm Bv (ix2 i q) = val_main_v56 (F := Ideal) X EI Wm Bv (ix1 q) := by
  rw [val_main_v65_apply, val_main_v64_apply]
  refine congrArg (val_main_v56 (F := Ideal) X EI Wm Bv) ?_
  funext a; match a with
  | ⟨0, _⟩ => rfl

/-- The reference's variance at column q. -/
theorem ref63_at (q : Fin 64) :
    val_main_v63 (F := Ideal) X EI Wm Bv (ix1 q)
      = Ideal.div (Ideal.ofBits .f32 0x00000000#32 + ∑ k : Fin 100000,
            ((val_main_v50 (F := Ideal) X EI Wm (ix2 k q) + Bv (ix1 q)) - val_main_v56 (F := Ideal) X EI Wm Bv (ix1 q))
              * ((val_main_v50 (F := Ideal) X EI Wm (ix2 k q) + Bv (ix1 q)) - val_main_v56 (F := Ideal) X EI Wm Bv (ix1 q)))
          (Ideal.ofBits .f32 0x47C35000#32) := by
  have hs : ∀ k : Fin 100000, (val_main_v60 (F := Ideal) X EI Wm Bv) (idx_main_v61 (ix1 q) k)
      = ((val_main_v50 (F := Ideal) X EI Wm (ix2 k q) + Bv (ix1 q)) - val_main_v56 (F := Ideal) X EI Wm Bv (ix1 q))
        * ((val_main_v50 (F := Ideal) X EI Wm (ix2 k q) + Bv (ix1 q)) - val_main_v56 (F := Ideal) X EI Wm Bv (ix1 q)) := fun k => by
    rw [idx61_at, val_main_v60_apply, val_main_v59_apply, ref53_at, ref58_at, Ideal.mulf_def, Ideal.subf_def]
  rw [val_main_v63_apply, val_main_v61_apply, val_main_v62_apply, Finset.sum_congr rfl (fun k _ => hs k),
    val_main_cst_12_apply, val_main_cst_13_apply, Ideal.hostDivf_def, Ideal.ofBits_def, Ideal.ofBits_def]

/-- The reference's inverse standard deviation, broadcast, at (i, q). -/
theorem ref74_at (i : Fin 100000) (q : Fin 64) :
    val_main_v74 (F := Ideal) X EI Wm Bv (ix2 i q)
      = Ideal.rsqrt (val_main_v63 (F := Ideal) X EI Wm Bv (ix1 q) + Ideal.ofBits .f32 0x3727C5AC#32) := by
  have e : idx_main_v73 (idx_main_v74 (ix2 i q)) = ix1 q := by
    funext a; match a with
    | ⟨0, _⟩ => rfl
  rw [val_main_v74_apply, val_main_v73_apply, e, val_main_v72_apply, val_main_v71_apply, val_main_v70_apply,
    val_main_cst_14_apply, Ideal.hostUnary_rsqrt_def, Ideal.addf_def, Ideal.ofBits_def]

end Ref

/-! ## The statistics and the result -/

section Stats

variable [Cert.Pre_finite_inputs.Facts] (hpre : Cert.Pre_KernelIdeal m)
include hpre

/-- The aggregate before the bias is the reference's. -/
theorem agg5 : b5Agg m ρ c = val_main_v50 (F := Ideal) (aX m c) (aEI m c) (aW m c) :=
  agg_eq m ρ c (h_eq m ρ c) (pre_decode m c hpre).2.2.2.2.2.2.2

/-- The kernel's mean row is the reference's mean. -/
theorem mean_eq (q : Fin 64) :
    b9Mean m ρ c (ix2 (0 : Fin 1) q) = val_main_v56 (F := Ideal) (aX m c) (aEI m c) (aW m c) (aB m c) (ix1 q) := by
  obtain ⟨hX, hW, hB, -⟩ := pre_decode m c hpre
  choose a ha using fun i => Cert.ReferenceIdeal.RV.agg_real (aX m c) (aEI m c) (aW m c) hX hW i
  obtain ⟨β, hβ⟩ := hB (ix1 q)
  rw [h3_mean, h2_mraw, reg1_sum, agg5 m ρ c hpre, ref56_at]
  simp only [ha, hβ, ofBits_1e5, ofBits_zero]
  exact mean_shift (fun i => a (ix2 i q)) β

/-- The kernel's variance row is the reference's variance. -/
theorem var_eq (q : Fin 64) :
    b9Var m ρ c (ix2 (0 : Fin 1) q) = val_main_v63 (F := Ideal) (aX m c) (aEI m c) (aW m c) (aB m c) (ix1 q) := by
  obtain ⟨hX, hW, hB, -⟩ := pre_decode m c hpre
  choose a ha using fun i => Cert.ReferenceIdeal.RV.agg_real (aX m c) (aEI m c) (aW m c) hX hW i
  obtain ⟨β, hβ⟩ := hB (ix1 q)
  have hm : val_main_v56 (F := Ideal) (aX m c) (aEI m c) (aW m c) (aB m c) (ix1 q)
      = Ideal.div (∑ i : Fin 100000, val_main_v50 (F := Ideal) (aX m c) (aEI m c) (aW m c) (ix2 i q)) (Ideal.ofBits .f32 0x47C35000#32)
        + aB m c (ix1 q) := by
    rw [← mean_eq m ρ c hpre q, h3_mean, h2_mraw, reg1_sum, agg5 m ρ c hpre]
  rw [h3_var, reg2_sumsq, keep7_agg, agg5 m ρ c hpre, h2_mraw, reg1_sum, agg5 m ρ c hpre, ref63_at, hm]
  simp only [ha, hβ, ofBits_1e5, ofBits_zero, div_sum_real]
  exact var_shift (fun i => a (ix2 i q)) _ β

/-- The result array is the reference's result stage. -/
theorem out_eq : b10Out m ρ c
    = val_main_v85 (F := Ideal) (aX m c) (aEI m c) (aW m c) (aB m c) (aGam m c) (aBet m c) (aWr m c) (aBr m c) := by
  funext j
  obtain ⟨i, q, rfl⟩ : ∃ (i : Fin 100000) (q : Fin 64), j = ix2 i q := ⟨j 0, j 1, eq_ix2 j⟩
  rw [reg3_out, h3_gam, keep9_agg, agg5 m ρ c hpre, h3_b, mean_eq m ρ c hpre, var_eq m ρ c hpre, h3_bet, keep9_resid, resid_eq]
  rw [val_main_v85_apply, val_main_v79_apply, val_main_v78_apply, val_main_v75_apply, val_main_v69_apply, val_main_v66_apply,
    ref53_at, ref65_at, ref68_at, ref74_at, ref77_at, val_main_call0_v0_apply, val_main_call0_cst_apply]
  simp only [Ideal.addf_def, Ideal.maximumf_def, Ideal.mulf_def, Ideal.subf_def, Ideal.ofBits_def]

end Stats

end Cert.KernelIdeal.KV

end
-- ==== Proof.lean ====
/-
  A graph-convolution residual block: h = x·Wᵀ, symmetric degree normalisation with self-loops, the sum of the scaled
  neighbour rows at each destination, a bias, BatchNorm over the nodes (batch statistics, biased variance), ReLU, and a
  residual projection x·Wrᵀ + br.

  The kernel program computes it in four grid regions among host stretches. Region 0 is one matrix product of each 10000-row
  block of x with the stacked weight [W; Wr], split into h and the residual. The host stretch between folds the self-loops
  into the edge list (one appended entry per node), so that one scatter-add of ones gives the degree and one gather / scale /
  scatter-add of rows gives the aggregate with its self-loop term; the reference adds the self-loop terms separately. Regions
  1 and 2 accumulate the column sums of the aggregate and of its squared deviations over ten grid points; the bias is added
  only afterwards, to the mean and inside the last region, where it cancels in every deviation. Region 3 is the epilogue.

  At the extended reals the two programs agree wherever every float entry is finite and every source index lies in
  [0, 100000): the kernel's row gather substitutes a not-a-number for a source outside that range, where the reference's
  indexing clamps. The three frames are the generated ones (the reference's is its generated run with the result dropped);
  the kernel's run with its result array named is the generated launch called again (module KRun); module Bridge joins the
  kernel's result to the reference's result stage.
-/
import proofs.«420616_j28767690948628_3_alg».proof.Defs
import proofs.«420616_j28767690948628_3_alg».proof.Proof.Gen.Kernel
import proofs.«420616_j28767690948628_3_alg».proof.Proof.Gen.Kernel.Skeleton
import proofs.«420616_j28767690948628_3_alg».proof.Proof.Gen.Kernel.Launch
import proofs.«420616_j28767690948628_3_alg».proof.Proof.Gen.Kernel.Points
import proofs.«420616_j28767690948628_3_alg».proof.Proof.Gen.Kernel.Frame
import proofs.«420616_j28767690948628_3_alg».proof.Proof.Gen.KernelIdeal
import proofs.«420616_j28767690948628_3_alg».proof.Proof.Gen.KernelIdeal.Skeleton
import proofs.«420616_j28767690948628_3_alg».proof.Proof.Gen.KernelIdeal.Launch
import proofs.«420616_j28767690948628_3_alg».proof.Proof.Gen.KernelIdeal.Points
import proofs.«420616_j28767690948628_3_alg».proof.Proof.Gen.KernelIdeal.Frame
import proofs.«420616_j28767690948628_3_alg».proof.Proof.Gen.ReferenceIdeal
import proofs.«420616_j28767690948628_3_alg».proof.Proof.Gen.Pre_finite_inputs
import proofs.«420616_j28767690948628_3_alg».proof.Proof.Gen.ReferenceIdeal.Run
import proofs.«420616_j28767690948628_3_alg».proof.Proof.Gen.ReferenceIdeal.Read
import proofs.«420616_j28767690948628_3_alg».proof.Proof.KRun
import proofs.«420616_j28767690948628_3_alg».proof.Proof.Bridge
import Idealize.ShloMosaic.Adequacy
import Idealize.ShloMosaic.Init

noncomputable section

namespace Cert.Proof

open Idealize.ShloMosaic Idealize.SL.Sem

section Claims

local instance : Cert.Pre_finite_inputs.Facts := Cert.Pre_finite_inputs.Gen.facts
local instance : Cert.Kernel.Facts := Cert.Kernel.Gen.facts
local instance : Cert.KernelIdeal.Facts := Cert.KernelIdeal.Gen.facts
local instance : Cert.ReferenceIdeal.Facts := Cert.ReferenceIdeal.Gen.facts

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the reference's result stage of those arguments in
    their result arrays: the kernel's by the chain of module Bridge, the reference's by its run. -/
theorem algebraic : Cert.algebraic_KernelIdeal_ReferenceIdeal := by
  intro m ρ m' ρ' hpre hagree
  refine ⟨fun c => Cert.KernelIdeal.Gen.W10 m ρ c (Proc.devRef .tc Cert.KernelIdeal.main_v58),
    Cert.KernelIdeal.GenV.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v85_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.KernelIdeal.KV.out_eq m ρ c hpre).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
